-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128 .f32) (main_arg10 : FVec F S2x128 .f32) (main_arg11 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S2x128 .f32 := Host.absf main_arg10
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S2x128 .f32) (main_arg11 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x800000 32) (main_arg2 : FVec F S800000 .f32) (main_arg3 : IVec S50000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S2x128 .f32) (main_arg11 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S50000x1 : Shape := ⟨2, ![50000, 1]⟩
abbrev S1x100 : Shape := ⟨2, ![1, 100]⟩
abbrev S50000x100 : Shape := ⟨2, ![50000, 100]⟩
abbrev S100 : Shape := ⟨1, ![100]⟩
abbrev S51200x100 : Shape := ⟨2, ![51200, 100]⟩
abbrev S51200x128 : Shape := ⟨2, ![51200, 128]⟩
abbrev S100x51200 : Shape := ⟨2, ![100, 51200]⟩
abbrev S100x128 : Shape := ⟨2, ![100, 128]⟩
abbrev S100x2048 : Shape := ⟨2, ![100, 2048]⟩
abbrev S2048x128 : Shape := ⟨2, ![2048, 128]⟩
abbrev S100x1 : Shape := ⟨2, ![100, 1]⟩
abbrev S100x2 : Shape := ⟨2, ![100, 2]⟩
abbrev S128x2 : Shape := ⟨2, ![128, 2]⟩
abbrev S1x2 : Shape := ⟨2, ![1, 2]⟩

abbrev nBuf : Space → Nat
  | .hbm => 126
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S2x128, .f32⟩
  | .hbm, ⟨11, _⟩ => ⟨S2, .f32⟩
  | .hbm, ⟨12, _⟩ => ⟨S50000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S_, .f32⟩
  | .hbm, ⟨20, _⟩ => ⟨S50000, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S128x128, .f32⟩
  | .hbm, ⟨55, _⟩ => ⟨S50000x128, .f32⟩
  | .hbm, ⟨56, _⟩ => ⟨S850000x1, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S850000x128, .f32⟩
  | .hbm, ⟨67, _⟩ => ⟨S850000x128, .f32⟩
  | .hbm, ⟨68, _⟩ => ⟨S_, .f32⟩
  | .hbm, ⟨69, _⟩ => ⟨S50000x128, .f32⟩
  | .hbm, ⟨70, _⟩ => ⟨S850000x1, .i32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S128x128, .f32⟩
  | .hbm, ⟨79, _⟩ => ⟨S50000x128, .f32⟩
  | .hbm, ⟨80, _⟩ => ⟨S850000x1, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000x128, .f32⟩
  | .hbm, ⟨90, _⟩ => ⟨S850000x128, .f32⟩
  | .hbm, ⟨91, _⟩ => ⟨S850000x128, .f32⟩
  | .hbm, ⟨92, _⟩ => ⟨S_, .f32⟩
  | .hbm, ⟨93, _⟩ => ⟨S50000x128, .f32⟩
  | .hbm, ⟨94, _⟩ => ⟨S850000x1, .i32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S50000x128, .f32⟩
  | .hbm, ⟨101, _⟩ => ⟨S50000x128, .f32⟩
  | .hbm, ⟨102, _⟩ => ⟨S50000x1, .i32⟩
  | .hbm, ⟨103, _⟩ => ⟨S1x100, .i32⟩
  | .hbm, ⟨104, _⟩ => ⟨S50000x100, .i32⟩
  | .hbm, ⟨105, _⟩ => ⟨S50000x100, .i32⟩
  | .hbm, ⟨106, _⟩ => ⟨S50000x100, .i1⟩
  | .hbm, ⟨107, _⟩ => ⟨S50000x100, .bf16⟩
  | .hbm, ⟨108, _⟩ => ⟨S50000x100, .f32⟩
  | .hbm, ⟨109, _⟩ => ⟨S_, .f32⟩
  | .hbm, ⟨110, _⟩ => ⟨S100, .f32⟩
  | .hbm, ⟨111, _⟩ => ⟨S_, .i32⟩
  | .hbm, ⟨112, _⟩ => ⟨S_, .bf16⟩
  | .hbm, ⟨113, _⟩ => ⟨S51200x100, .bf16⟩
  | .hbm, ⟨114, _⟩ => ⟨S_, .i32⟩
  | .hbm, ⟨115, _⟩ => ⟨S_, .f32⟩
  | .hbm, ⟨116, _⟩ => ⟨S51200x128, .f32⟩
  | .hbm, ⟨117, _⟩ => ⟨S100x51200, .bf16⟩
  | .hbm, ⟨118, _⟩ => ⟨S100x128, .f32⟩
  | .hbm, ⟨119, _⟩ => ⟨S_, .f32⟩
  | .hbm, ⟨120, _⟩ => ⟨S100, .f32⟩
  | .hbm, ⟨121, _⟩ => ⟨S100, .f32⟩
  | .hbm, ⟨122, _⟩ => ⟨S100x1, .f32⟩
  | .hbm, ⟨123, _⟩ => ⟨S100x128, .f32⟩
  | .hbm, ⟨124, _⟩ => ⟨S100x128, .f32⟩
  | .hbm, ⟨125, _⟩ => ⟨S100x2, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S100x2048, .bf16⟩
  | .local _ .vmem, ⟨11, _⟩ => ⟨S100x2048, .bf16⟩
  | .local _ .vmem, ⟨12, _⟩ => ⟨S2048x128, .f32⟩
  | .local _ .vmem, ⟨13, _⟩ => ⟨S2048x128, .f32⟩
  | .local _ .vmem, ⟨14, _⟩ => ⟨S100x128, .f32⟩
  | .local _ .vmem, ⟨15, _⟩ => ⟨S100x128, .f32⟩
  | .local _ .vmem, ⟨16, _⟩ => ⟨S100x128, .f32⟩
  | .local _ .vmem, ⟨17, _⟩ => ⟨S128x128, .f32⟩
  | .local _ .vmem, ⟨18, _⟩ => ⟨S128, .f32⟩
  | .local _ .vmem, ⟨19, _⟩ => ⟨S2x128, .f32⟩
  | .local _ .vmem, ⟨20, _⟩ => ⟨S2, .f32⟩
  | .local _ .vmem, ⟨21, _⟩ => ⟨S100x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_cst : Ref sig .tc := ⟨.hbm, 75, rfl⟩
abbrev main_call1_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_9 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_call2_cst : Ref sig .tc := ⟨.hbm, 99, rfl⟩
abbrev main_call2_v0 : Ref sig .tc := ⟨.hbm, 100, rfl⟩
abbrev main_v69 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_v70 : Ref sig .tc := ⟨.hbm, 107, rfl⟩
abbrev main_v71 : Ref sig .tc := ⟨.hbm, 108, rfl⟩
abbrev main_cst_12 : Ref sig .tc := ⟨.hbm, 109, rfl⟩
abbrev main_v72 : Ref sig .tc := ⟨.hbm, 110, rfl⟩
abbrev main_c_13 : Ref sig .tc := ⟨.hbm, 111, rfl⟩
abbrev main_call4_v0 : Ref sig .tc := ⟨.hbm, 112, rfl⟩
abbrev main_v73 : Ref sig .tc := ⟨.hbm, 113, rfl⟩
abbrev main_c_14 : Ref sig .tc := ⟨.hbm, 114, rfl⟩
abbrev main_call5_v0 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_15 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v14 : BitVec 1 := Scalar.cmpi .eq arg0 c24_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S100x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S100x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S100x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S100x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  bcast_S50000_S50000x1_0 : S50000.BroadcastsInDim S50000x1 (![0] : Fin 1 → Fin S50000x1.rank)
  bcast_S50000x1_S50000x100_0_1 : S50000x1.BroadcastsInDim S50000x100 (![0, 1] : Fin 2 → Fin S50000x100.rank)
  bcast_S1x100_S50000x100_0_1 : S1x100.BroadcastsInDim S50000x100 (![0, 1] : Fin 2 → Fin S50000x100.rank)
  reducesTo_S50000x100_S100_d0 : S50000x100.ReducesTo [0] S100
  h_S_ : 0 < S_.numel
  pads_S50000x100_S51200x100_012000_000 : S50000x100.Pads (![0, 0] : Fin 2 → Nat) ![1200, 0] ![0, 0] S51200x100
  pads_S50000x128_S51200x128_012000_000 : S50000x128.Pads (![0, 0] : Fin 2 → Nat) ![1200, 0] ![0, 0] S51200x128
  transposes_S51200x100_S100x51200_1_0 : S51200x100.Transposes [1, 0] S100x51200
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S100x2048_S100x2048_0_0 : ∀ a, (![0, 0] : Fin 2 → Nat) a + S100x2048.size a ≤ S100x2048.size a
  h_S100x2048 : 0 < S100x2048.numel
  shapeCasts_S100x2048_S100x2048 : S100x2048.ShapeCasts S100x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bcast_S_S100 : S_.BroadcastsInDim S100 (![] : Fin 0 → Fin S100.rank)
  bcast_S100_S100x1_0 : S100.BroadcastsInDim S100x1 (![0] : Fin 1 → Fin S100x1.rank)
  bcast_S100x1_S100x128_0_1 : S100x1.BroadcastsInDim S100x128 (![0, 1] : Fin 2 → Fin S100x128.rank)
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S100x128 : S1x128.Broadcasts S100x128
  inb_S2x128_S2x128_0_0 : ∀ a, (![0, 0] : Fin 2 → Nat) a + S2x128.size a ≤ S2x128.size a
  h_S2x128 : 0 < S2x128.numel
  transposes_S2x128_p1_0_S128x2 : S2x128.Transposes [1, 0] S128x2
  inb_S2_S2_0 : ∀ a, (![0] : Fin 1 → Nat) a + S2.size a ≤ S2.size a
  h_S2 : 0 < S2.numel
  shapeCasts_S2_S1x2 : S2.ShapeCasts S1x2
  broadcasts_S1x2_S100x2 : S1x2.Broadcasts S100x2
  inb_S100x2_S100x2_0_0 : ∀ a, (![0, 0] : Fin 2 → Nat) a + S100x2.size a ≤ S100x2.size a
  h_S100x2 : 0 < S100x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S100x2048_S2048x128_S100x128_1_0_0_1_n_n_wf : DotDims.WF S100x2048 S2048x128 S100x128 [1] [0] [0] [1] [] []
  dot_S100x128_S128x128_S100x128_1_0_0_1_n_n_wf : DotDims.WF S100x128 S128x128 S100x128 [1] [0] [0] [1] [] []
  dot_S100x128_S128x2_S100x2_1_0_0_1_n_n_wf : DotDims.WF S100x128 S128x2 S100x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S100x2048.size a ≤ S100x51200.size a
  hwx2_0 : ∀ i : grid2.Coords, EltTy.bits .bf16 = 32 ∨ (Rect.block (s := S100x51200) S100x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S51200x128.size a
  hwx2_1 : ∀ i : grid2.Coords, EltTy.bits .f32 = 32 ∨ (Rect.block (s := S51200x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S100x128.size a ≤ S100x128.size a
  hwx2_2 : ∀ i : grid2.Coords, EltTy.bits .f32 = 32 ∨ (Rect.block (s := S100x128) S100x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S100x128.size a ≤ S100x128.size a
  hwx3_0 : ∀ i : grid3.Coords, EltTy.bits .f32 = 32 ∨ (Rect.block (s := S100x128) S100x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2x128.size a ≤ S2x128.size a
  hwx3_3 : ∀ i : grid3.Coords, EltTy.bits .f32 = 32 ∨ (Rect.block (s := S2x128) S2x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2.size a ≤ S2.size a
  hwx3_4 : ∀ i : grid3.Coords, EltTy.bits .f32 = 32 ∨ (Rect.block (s := S2) S2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S100x2.size a ≤ S100x2.size a
  hwx3_5 : ∀ i : grid3.Coords, EltTy.bits .f32 = 32 ∨ (Rect.block (s := S100x2) S100x2.size (cc3_transform_5 i) (hinb3_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S100x2048_S2048x128_S100x128_1_0_0_1_n_n : DotDims S100x2048 S2048x128 S100x128 where
  lhsContracting := [1]
  rhsContracting := [0]
  lhsNonContracting := [0]
  rhsNonContracting := [1]
  lhsBatch := []
  rhsBatch := []
  wf := dot_S100x2048_S2048x128_S100x128_1_0_0_1_n_n_wf
def dot_S100x128_S128x128_S100x128_1_0_0_1_n_n : DotDims S100x128 S128x128 S100x128 where
  lhsContracting := [1]
  rhsContracting := [0]
  lhsNonContracting := [0]
  rhsNonContracting := [1]
  lhsBatch := []
  rhsBatch := []
  wf := dot_S100x128_S128x128_S100x128_1_0_0_1_n_n_wf
def dot_S100x128_S128x2_S100x2_1_0_0_1_n_n : DotDims S100x128 S128x2 S100x2 where
  lhsContracting := [1]
  rhsContracting := [0]
  lhsNonContracting := [0]
  rhsNonContracting := [1]
  lhsBatch := []
  rhsBatch := []
  wf := dot_S100x128_S128x2_S100x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v75) S100x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v76) S100x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v81) S100x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S2x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82) S100x2.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S100x128 : Shape := ⟨2, ![100, 128]⟩
abbrev S50000x1 : Shape := ⟨2, ![50000, 1]⟩
abbrev S100 : Shape := ⟨1, ![100]⟩
abbrev S100x1 : Shape := ⟨2, ![100, 1]⟩
abbrev S128x2 : Shape := ⟨2, ![128, 2]⟩
abbrev S100x2 : Shape := ⟨2, ![100, 2]⟩
abbrev S1x2 : Shape := ⟨2, ![1, 2]⟩

abbrev nBuf : Space → Nat
  | .hbm => 163
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S2x128, .f32⟩
  | 11 => ⟨S2, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S50000, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S128x128, .f32⟩
  | 55 => ⟨S50000x128, .f32⟩
  | 56 => ⟨S850000x1, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S128x128, .f32⟩
  | 111 => ⟨S50000x128, .f32⟩
  | 112 => ⟨S850000x1, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x128, .f32⟩
  | 122 => ⟨S850000x128, .f32⟩
  | 123 => ⟨S850000x128, .f32⟩
  | 124 => ⟨S_, .f32⟩
  | 125 => ⟨S50000x128, .f32⟩
  | 126 => ⟨S850000x1, .i32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S_, .f32⟩
  | 7 => ⟨S100x128, .f32⟩
  | 8 => ⟨S50000x1, .i32⟩
  | 9 => ⟨S100x128, .f32⟩
  | 10 => ⟨S_, .f32⟩
  | 11 => ⟨S50000, .f32⟩
  | 12 => ⟨S_, .f32⟩
  | 13 => ⟨S100, .f32⟩
  | 14 => ⟨S50000x1, .i32⟩
  | 15 => ⟨S100, .f32⟩
  | 16 => ⟨S_, .f32⟩
  | 17 => ⟨S100, .f32⟩
  | 18 => ⟨S100, .f32⟩
  | 19 => ⟨S100x1, .f32⟩
  | 20 => ⟨S100x128, .f32⟩
  | 21 => ⟨S100x128, .f32⟩
  | 22 => ⟨S128x128, .f32⟩
  | 23 => ⟨S100x128, .f32⟩
  | 24 => ⟨S1x128, .f32⟩
  | 25 => ⟨S100x128, .f32⟩
  | 26 => ⟨S100x128, .f32⟩
  | 27 => ⟨S_, .f32⟩
  | 28 => ⟨S100x128, .f32⟩
  | 29 => ⟨S100x128, .f32⟩
  | 30 => ⟨S128x2, .f32⟩
  | 31 => ⟨S100x2, .f32⟩
  | 32 => ⟨S1x2, .f32⟩
  | 33 => ⟨S100x2, .f32⟩
  | 34 => ⟨S100x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_cst : Ref sig .tc := ⟨.hbm, 75, rfl⟩
abbrev main_call1_v0 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_call2_v0 : Ref sig .tc := ⟨.hbm, 87, rfl⟩
abbrev main_call2_v1 : Ref sig .tc := ⟨.hbm, 88, rfl⟩
abbrev main_v57 : Ref sig .tc := ⟨.hbm, 89, rfl⟩
abbrev main_c_12 : Ref sig .tc := ⟨.hbm, 90, rfl⟩
abbrev main_v58 : Ref sig .tc := ⟨.hbm, 91, rfl⟩
abbrev main_v59 : Ref sig .tc := ⟨.hbm, 92, rfl⟩
abbrev main_c_13 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_14 : Ref sig .tc := ⟨.hbm, 100, rfl⟩
abbrev main_v66 : Ref sig .tc := ⟨.hbm, 101, rfl⟩
abbrev main_v67 : Ref sig .tc := ⟨.hbm, 102, rfl⟩
abbrev main_c_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_16 : Ref sig .tc := ⟨.hbm, 113, rfl⟩
abbrev main_v77 : Ref sig .tc := ⟨.hbm, 114, rfl⟩
abbrev main_v78 : Ref sig .tc := ⟨.hbm, 115, rfl⟩
abbrev main_c_17 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_18 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_call3_cst : Ref sig .tc := ⟨.hbm, 131, rfl⟩
abbrev main_call3_v0 : Ref sig .tc := ⟨.hbm, 132, rfl⟩
abbrev main_v92 : Ref sig .tc := ⟨.hbm, 133, rfl⟩
abbrev main_cst_19 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_20 : Ref sig .tc := ⟨.hbm, 138, rfl⟩
abbrev main_v96 : Ref sig .tc := ⟨.hbm, 139, rfl⟩
abbrev main_cst_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_22 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_call4_cst : Ref sig .tc := ⟨.hbm, 155, rfl⟩
abbrev main_call4_v0 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  transposes_S128x128_S128x128_1_0 : S128x128.Transposes [1, 0] S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S100x128 : S_.BroadcastsInDim S100x128 (![] : Fin 0 → Fin S100x128.rank)
  bcast_S50000_S50000x1_0 : S50000.BroadcastsInDim S50000x1 (![0] : Fin 1 → Fin S50000x1.rank)
  bcast_S_S100 : S_.BroadcastsInDim S100 (![] : Fin 0 → Fin S100.rank)
  bcast_S100_S100x1_0 : S100.BroadcastsInDim S100x1 (![0] : Fin 1 → Fin S100x1.rank)
  bcast_S100x1_S100x128_0_1 : S100x1.BroadcastsInDim S100x128 (![0, 1] : Fin 2 → Fin S100x128.rank)
  bcast_S1x128_S100x128_0_1 : S1x128.BroadcastsInDim S100x128 (![0, 1] : Fin 2 → Fin S100x128.rank)
  transposes_S2x128_S128x2_1_0 : S2x128.Transposes [1, 0] S128x2
  bcast_S2_S1x2_1 : S2.BroadcastsInDim S1x2 (![1] : Fin 1 → Fin S1x2.rank)
  bcast_S1x2_S100x2_0_1 : S1x2.BroadcastsInDim S100x2 (![0, 1] : Fin 2 → Fin S100x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S100x128_S50000x1_S50000x128_1_0_0_1_wf : ScatterDims.WF S100x128 S50000x1 S50000x128 [1] [0] [0] 1
  scatter_S100_S50000x1_S50000_n_0_0_1_wf : ScatterDims.WF S100 S50000x1 S50000 [] [0] [0] 1
  dot_S100x128_S128x128_S100x128_1_0_0_1_n_n_wf : DotDims.WF S100x128 S128x128 S100x128 [1] [0] [0] [1] [] []
  dot_S100x128_S128x2_S100x2_1_0_0_1_n_n_wf : DotDims.WF S100x128 S128x2 S100x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S100x128_S50000x1_S50000x128_1_0_0_1 : ScatterDims S100x128 S50000x1 S50000x128 where
  updateWindowDims := [1]
  insertedWindowDims := [0]
  scatterDimsToOperandDims := [0]
  indexVectorDim := 1
  wf := scatter_S100x128_S50000x1_S50000x128_1_0_0_1_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def dot_S100x128_S128x128_S100x128_1_0_0_1_n_n : DotDims S100x128 S128x128 S100x128 where
  lhsContracting := [1]
  rhsContracting := [0]
  lhsNonContracting := [0]
  rhsNonContracting := [1]
  lhsBatch := []
  rhsBatch := []
  wf := dot_S100x128_S128x128_S100x128_1_0_0_1_n_n_wf
def dot_S100x128_S128x2_S100x2_1_0_0_1_n_n : DotDims S100x128 S128x2 S100x2 where
  lhsContracting := [1]
  rhsContracting := [0]
  lhsNonContracting := [0]
  rhsNonContracting := [1]
  lhsBatch := []
  rhsBatch := []
  wf := dot_S100x128_S128x2_S100x2_1_0_0_1_n_n_wf

class Facts : Prop extends Facts₀ where

variable [Facts]
-- ==== Proof.Dense0.lean ====
/-
  The first dense layer's product, one pallas_call on a grid of 25 row blocks: at block t the body
  loads 2000 rows of the left operand and the whole 128 x 128 right operand, multiplies them into a zero
  accumulator and stores the 2000 x 128 product into the output block. Stated at any contents V of the core's
  buffers at the region's entry: the blocks the body finds, what it leaves in the output's staging buffer, its
  triple, the pipeline's proof data and the body obligation at every grid point.
-/
import proofs.«405348_j60988535603684_1_alg».proof.Proof.Gen.KernelIdeal.Launch
import proofs.«405348_j60988535603684_1_alg».proof.Proof.Gen.KernelIdeal.Skeleton
import proofs.«405348_j60988535603684_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks the body finds -/

/-- Window w's block at grid point t, read off its array as the region finds it. -/
def block0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its row block at every point. -/
theorem found0_0_of {c : Dev nD} (dat : Dat τ (Elt F) Unit ℕ (UR sig nD τ) ℕ cfg0 c) (hA : dat.A 0 = V c (Pipeline.arrRef spec0 0))
    (hafter : ∀ t, dat.after 0 t = block0 V c 0 t) (t : Fin cfg0.N) (d) : dat.before 0 t d = block0 V c 0 t :=
  (dat.before_in_eq_fetched 0 rfl (fun _ => rfl) (fun _ _ _ => rfl) (fun t => by rw [hafter]; unfold Dat.blockOf block0; rw [hA]; try rfl) t d).trans
    (by unfold Dat.fetched Dat.blockOf block0; rw [hA]; try rfl)

/-- The right operand's staging buffer holds the whole matrix at every point, although it is fetched at the first only:
    its block index never moves. -/
theorem found0_1_of {c : Dev nD} (dat : Dat τ (Elt F) Unit ℕ (UR sig nD τ) ℕ cfg0 c) (hA : dat.A 1 = V c (Pipeline.arrRef spec0 1))
    (hafter : ∀ t, dat.after 1 t = block0 V c 1 t) (t : Fin cfg0.N) (d) : dat.before 1 t d = block0 V c 1 t :=
  (dat.before_in_eq_fetched 1 rfl (fun _ => rfl) (fun _ _ _ => rfl) (fun t => by rw [hafter]; unfold Dat.blockOf block0; rw [hA]; try rfl) t d).trans
    (by unfold Dat.fetched Dat.blockOf block0; rw [hA]; try rfl)

/-! ## What the body leaves in the output's staging buffer -/

abbrev rows0 : Rect S2000x128 := Rect.unit (s := S2000x128) ![0, 0] S2000x128.size inb_S2000x128_S2000x128_0_0
abbrev weights0 : Rect S128x128 := Rect.unit (s := S128x128) ![0, 0] S128x128.size inb_S128x128_S128x128_0_0

/-- The one store, of the product of the two loaded blocks, as the buffer's contents. -/
def product0 (x : Vec F S2000x128 .f32) (w : Vec F S128x128 .f32) : Vec F S2000x128 .f32 :=
  View.canon [⟨rows0, k0_pay1 (View.ld x rows0) (View.ld w weights0)⟩]

/-- The store's rectangle is the whole buffer. -/
theorem product_covers0 (p : Vec F S2000x128 .f32) (y : S2000x128.Idx) :
    ∃ pc ∈ ([⟨rows0, p⟩] : List (View.Piece (Elt F) S2000x128 .f32)), y ∈ pc.1.set :=
  View.cover_of_tiled [⟨rows0, p⟩] S2000x128.size (by rfl) y

/-! ## The body's triple -/

set_option maxHeartbeats 1000000 in
/-- On whole staging memrefs, the operands' at contents x and w and the output's at anything, the body runs to the
    continuation with the operands' as they were and the output's at the product. -/
theorem run_matmul0 (c : Dev nD) (E : Set ℕ) (i : grid0.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x : Vec F S2000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (product0 x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (product_covers0 _)

/-! ## The pipeline's proof data -/

/-- The arrays as the region finds them; after the body at point t each operand's buffer at its block and the
    output's at the product of the two; the scoped rest and the generator register untouched; nothing owed. -/
def data0 (c : Dev nD) : Dat τ (Elt F) Unit ℕ (UR sig nD τ) ℕ cfg0 c where
  A w := V c (Pipeline.arrRef spec0 w)
  after w t := match w with
    | ⟨0, _⟩ => block0 V c 0 t
    | ⟨1, _⟩ => block0 V c 1 t
    | ⟨2, _⟩ => product0 (block0 V c 0 t) (block0 V c 1 t)
  Φ _ := Pipeline.ΦA spec0 c
  q _ := fullShare
  owed _ := 0

theorem arrays0 (c : Dev nD) (w : Fin cfg0.W) : (data0 V c).A w = V c (Pipeline.arrRef spec0 w) := by
  dsimp only [data0]

theorem left0_0 (c : Dev nD) (t : Fin cfg0.N) : (data0 V c).after 0 t = block0 V c 0 t := by dsimp only [data0]
theorem left0_1 (c : Dev nD) (t : Fin cfg0.N) : (data0 V c).after 1 t = block0 V c 1 t := by dsimp only [data0]
theorem left0_2 (c : Dev nD) (t : Fin cfg0.N) :
    (data0 V c).after 2 t = product0 (block0 V c 0 t) (block0 V c 1 t) := by dsimp only [data0]

theorem found0_0 (c : Dev nD) (t : Fin cfg0.N) (d) : (data0 V c).before 0 t d = block0 V c 0 t :=
  found0_0_of V (data0 V c) (arrays0 V c 0) (left0_0 V c) t d
theorem found0_1 (c : Dev nD) (t : Fin cfg0.N) (d) : (data0 V c).before 1 t d = block0 V c 1 t :=
  found0_1_of V (data0 V c) (arrays0 V c 1) (left0_1 V c) t d

/-! ## The body obligation, at a generic point -/

def bodyPre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d)))

def bodyPost0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t))

/-- The body at any point: the operands' memrefs hold their blocks, so the triple applies; the invariant and the
    core's dues pass through unread. -/
theorem body_at0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1]
  rw [show (data0 V c).Φ t.succ = (data0 V c).Φ t.castSucc from rfl,
    show (data0 V c).owesAt () t.succ = (data0 V c).owesAt () t.castSucc from rfl,
    left0_0, left0_1, left0_2]
  iintro ⟨HΦ, Ho, ⟨%d0, H0⟩, ⟨%d1, H1⟩, ⟨%d2, H2⟩⟩
  iapply (run_matmul0 c Set.univ _ _ _ _ _ _ _ (block0 V c 0 t) (block0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation0 (c : Dev nD) : BodyObligation (data0 (F := F) V c) (defs₀ (F := F)) Variants.none () Set.univ := fun t => by
  rw [bigSep_W0, bigSep_W0]
  exact body_at0 V c t

end Cert.KernelIdeal.Hand

end
-- ==== Proof.Dense1.lean ====
/-
  The second dense layer's product, one pallas_call on a grid of 25 row blocks: at block t the body
  loads 2000 rows of the left operand and the whole 128 x 128 right operand, multiplies them into a zero
  accumulator and stores the 2000 x 128 product into the output block. Stated at any contents V of the core's
  buffers at the region's entry: the blocks the body finds, what it leaves in the output's staging buffer, its
  triple, the pipeline's proof data and the body obligation at every grid point.
-/
import proofs.«405348_j60988535603684_1_alg».proof.Proof.Gen.KernelIdeal.Launch
import proofs.«405348_j60988535603684_1_alg».proof.Proof.Gen.KernelIdeal.Skeleton
import proofs.«405348_j60988535603684_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks the body finds -/

/-- Window w's block at grid point t, read off its array as the region finds it. -/
def block1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its row block at every point. -/
theorem found1_0_of {c : Dev nD} (dat : Dat τ (Elt F) Unit ℕ (UR sig nD τ) ℕ cfg1 c) (hA : dat.A 0 = V c (Pipeline.arrRef spec1 0))
    (hafter : ∀ t, dat.after 0 t = block1 V c 0 t) (t : Fin cfg1.N) (d) : dat.before 0 t d = block1 V c 0 t :=
  (dat.before_in_eq_fetched 0 rfl (fun _ => rfl) (fun _ _ _ => rfl) (fun t => by rw [hafter]; unfold Dat.blockOf block1; rw [hA]; try rfl) t d).trans
    (by unfold Dat.fetched Dat.blockOf block1; rw [hA]; try rfl)

/-- The right operand's staging buffer holds the whole matrix at every point, although it is fetched at the first only:
    its block index never moves. -/
theorem found1_1_of {c : Dev nD} (dat : Dat τ (Elt F) Unit ℕ (UR sig nD τ) ℕ cfg1 c) (hA : dat.A 1 = V c (Pipeline.arrRef spec1 1))
    (hafter : ∀ t, dat.after 1 t = block1 V c 1 t) (t : Fin cfg1.N) (d) : dat.before 1 t d = block1 V c 1 t :=
  (dat.before_in_eq_fetched 1 rfl (fun _ => rfl) (fun _ _ _ => rfl) (fun t => by rw [hafter]; unfold Dat.blockOf block1; rw [hA]; try rfl) t d).trans
    (by unfold Dat.fetched Dat.blockOf block1; rw [hA]; try rfl)

/-! ## What the body leaves in the output's staging buffer -/

abbrev rows1 : Rect S2000x128 := Rect.unit (s := S2000x128) ![0, 0] S2000x128.size inb_S2000x128_S2000x128_0_0
abbrev weights1 : Rect S128x128 := Rect.unit (s := S128x128) ![0, 0] S128x128.size inb_S128x128_S128x128_0_0

/-- The one store, of the product of the two loaded blocks, as the buffer's contents. -/
def product1 (x : Vec F S2000x128 .f32) (w : Vec F S128x128 .f32) : Vec F S2000x128 .f32 :=
  View.canon [⟨rows1, k1_pay1 (View.ld x rows1) (View.ld w weights1)⟩]

/-- The store's rectangle is the whole buffer. -/
theorem product_covers1 (p : Vec F S2000x128 .f32) (y : S2000x128.Idx) :
    ∃ pc ∈ ([⟨rows1, p⟩] : List (View.Piece (Elt F) S2000x128 .f32)), y ∈ pc.1.set :=
  View.cover_of_tiled [⟨rows1, p⟩] S2000x128.size (by rfl) y

/-! ## The body's triple -/

set_option maxHeartbeats 1000000 in
/-- On whole staging memrefs, the operands' at contents x and w and the output's at anything, the body runs to the
    continuation with the operands' as they were and the output's at the product. -/
theorem run_matmul1 (c : Dev nD) (E : Set ℕ) (i : grid1.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x : Vec F S2000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (product1 x w)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (product_covers1 _)

/-! ## The pipeline's proof data -/

/-- The arrays as the region finds them; after the body at point t each operand's buffer at its block and the
    output's at the product of the two; the scoped rest and the generator register untouched; nothing owed. -/
def data1 (c : Dev nD) : Dat τ (Elt F) Unit ℕ (UR sig nD τ) ℕ cfg1 c where
  A w := V c (Pipeline.arrRef spec1 w)
  after w t := match w with
    | ⟨0, _⟩ => block1 V c 0 t
    | ⟨1, _⟩ => block1 V c 1 t
    | ⟨2, _⟩ => product1 (block1 V c 0 t) (block1 V c 1 t)
  Φ _ := Pipeline.ΦA spec1 c
  q _ := fullShare
  owed _ := 0

theorem arrays1 (c : Dev nD) (w : Fin cfg1.W) : (data1 V c).A w = V c (Pipeline.arrRef spec1 w) := by
  dsimp only [data1]

theorem left1_0 (c : Dev nD) (t : Fin cfg1.N) : (data1 V c).after 0 t = block1 V c 0 t := by dsimp only [data1]
theorem left1_1 (c : Dev nD) (t : Fin cfg1.N) : (data1 V c).after 1 t = block1 V c 1 t := by dsimp only [data1]
theorem left1_2 (c : Dev nD) (t : Fin cfg1.N) :
    (data1 V c).after 2 t = product1 (block1 V c 0 t) (block1 V c 1 t) := by dsimp only [data1]

theorem found1_0 (c : Dev nD) (t : Fin cfg1.N) (d) : (data1 V c).before 0 t d = block1 V c 0 t :=
  found1_0_of V (data1 V c) (arrays1 V c 0) (left1_0 V c) t d
theorem found1_1 (c : Dev nD) (t : Fin cfg1.N) (d) : (data1 V c).before 1 t d = block1 V c 1 t :=
  found1_1_of V (data1 V c) (arrays1 V c 1) (left1_1 V c) t d

/-! ## The body obligation, at a generic point -/

def bodyPre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d)))

def bodyPost1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t))

/-- The body at any point: the operands' memrefs hold their blocks, so the triple applies; the invariant and the
    core's dues pass through unread. -/
theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1]
  rw [show (data1 V c).Φ t.succ = (data1 V c).Φ t.castSucc from rfl,
    show (data1 V c).owesAt () t.succ = (data1 V c).owesAt () t.castSucc from rfl,
    left1_0, left1_1, left1_2]
  iintro ⟨HΦ, Ho, ⟨%d0, H0⟩, ⟨%d1, H1⟩, ⟨%d2, H2⟩⟩
  iapply (run_matmul1 c Set.univ _ _ _ _ _ _ _ (block1 V c 0 t) (block1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation1 (c : Dev nD) : BodyObligation (data1 (F := F) V c) (defs₀ (F := F)) Variants.none () Set.univ := fun t => by
  rw [bigSep_W1, bigSep_W1]
  exact body_at1 V c t

end Cert.KernelIdeal.Hand

end
-- ==== Proof.Pool.lean ====
/-
  The pooling layer, one pallas_call on a grid of 25 column blocks: at block t the body loads 2048 columns of the
  100 x 51200 one-hot assignment matrix and the matching 2048 rows of the node features, and adds their 100 x 128
  product to an accumulator kept in a scratch buffer across the grid — zeroed at the first block, copied into the
  output's staging buffer at the last, which alone is written back. Stated at any contents V of the core's buffers
  at the region's entry: the blocks the body finds, the accumulator after each block by recursion on the block, the
  body's triple in each of its three control cases, the invariant that carries the accumulator from block to block,
  the pipeline's proof data, the body obligation at every grid point, and the invariant's two ends.
-/
import proofs.«405348_j60988535603684_1_alg».proof.Proof.Gen.KernelIdeal.Launch
import proofs.«405348_j60988535603684_1_alg».proof.Proof.Gen.KernelIdeal.Skeleton
import proofs.«405348_j60988535603684_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks the body finds -/

/-- Window w's block at grid point t, read off its array as the region finds it. -/
def block2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The one-hot matrix's staging buffer holds its column block at every point. -/
theorem found2_0_of {c : Dev nD} (dat : Dat τ (Elt F) Unit ℕ (UR sig nD τ) ℕ cfg2 c) (hA : dat.A 0 = V c (Pipeline.arrRef spec2 0))
    (hafter : ∀ t, dat.after 0 t = block2 V c 0 t) (t : Fin cfg2.N) (d) : dat.before 0 t d = block2 V c 0 t :=
  (dat.before_in_eq_fetched 0 rfl (fun _ => rfl) (fun _ _ _ => rfl) (fun t => by rw [hafter]; unfold Dat.blockOf block2; rw [hA]; try rfl) t d).trans
    (by unfold Dat.fetched Dat.blockOf block2; rw [hA]; try rfl)

/-- The node features' staging buffer holds its row block at every point. -/
theorem found2_1_of {c : Dev nD} (dat : Dat τ (Elt F) Unit ℕ (UR sig nD τ) ℕ cfg2 c) (hA : dat.A 1 = V c (Pipeline.arrRef spec2 1))
    (hafter : ∀ t, dat.after 1 t = block2 V c 1 t) (t : Fin cfg2.N) (d) : dat.before 1 t d = block2 V c 1 t :=
  (dat.before_in_eq_fetched 1 rfl (fun _ => rfl) (fun _ _ _ => rfl) (fun t => by rw [hafter]; unfold Dat.blockOf block2; rw [hA]; try rfl) t d).trans
    (by unfold Dat.fetched Dat.blockOf block2; rw [hA]; try rfl)

/-! ## Where the body branches, and where the output window rests -/

/-- The body resets the accumulator where the grid coordinate is zero, -/
abbrev first2 (i : grid2.Coords) : Prop :=
  (Scalar.cmpi .ne (Scalar.extui (Scalar.cmpi .eq (BitVec.ofNat 32 (i 0).val) 0#32)) 0#32) = 1#1
/-- and copies it out where the coordinate is 24. -/
abbrev last2 (i : grid2.Coords) : Prop := k2_cond2 i = 1#1

theorem first2_iff : ∀ t : Fin cfg2.N, first2 (grid2.coords t) ↔ t.val = 0 :=
  (by decide +kernel : ∀ t : Fin grid2.N, first2 (grid2.coords t) ↔ t.val = 0)
theorem last2_iff : ∀ t : Fin cfg2.N, last2 (grid2.coords t) ↔ t.val = 24 :=
  (by decide +kernel : ∀ t : Fin grid2.N, last2 (grid2.coords t) ↔ t.val = 24)

/-- The two operand windows are stored into nowhere and rest nowhere. -/
theorem live2_0 : ∀ t : Fin cfg2.N, cfg2.idle 0 (grid2.coords t) = false := by decide +kernel
theorem live2_1 : ∀ t : Fin cfg2.N, cfg2.idle 1 (grid2.coords t) = false := by decide +kernel
/-- Away from the last point the output window rests: nothing is stored into it and it is not written back; -/
theorem rests2_2 : ∀ t : Fin cfg2.N, ¬last2 (grid2.coords t) → cfg2.idle 2 (grid2.coords t) = true := by decide +kernel
theorem unflushed2_2 : ∀ t : Fin cfg2.N, ¬last2 (grid2.coords t) → (cfg2.win 2).flush t = false := by decide +kernel
/-- at the last point it is stored. -/
theorem live2_2 : ∀ t : Fin cfg2.N, last2 (grid2.coords t) → cfg2.idle 2 (grid2.coords t) = false := by decide +kernel

/-! ## Whole-buffer loads and stores -/

theorem origin2 : (![0, 0] : Fin 2 → ℕ) = fun _ => 0 := funext fun a => by fin_cases a <;> rfl

abbrev pool2 : Rect S100x128 := Rect.unit (s := S100x128) ![0, 0] S100x128.size inb_S100x128_S100x128_0_0
abbrev onehot2 : Rect S100x2048 := Rect.unit (s := S100x2048) ![0, 0] S100x2048.size inb_S100x2048_S100x2048_0_0
abbrev feats2 : Rect S2048x128 := Rect.unit (s := S2048x128) ![0, 0] S2048x128.size inb_S2048x128_S2048x128_0_0

/-- Every index of the accumulator's shape lies in the whole rectangle, -/
theorem inside2 (y : S100x128.Idx) : y ∈ pool2.set :=
  View.mem_set_unit_zero (S := S100x128) origin2 inb_S100x128_S100x128_0_0 y

/-- so a list of stores headed by one through it covers the buffer, -/
theorem covered2 (p : Vec F S100x128 .f32) (L : List (View.Piece (Elt F) S100x128 .f32)) (y : S100x128.Idx) :
    ∃ pc ∈ ((⟨pool2, p⟩ : View.Piece (Elt F) S100x128 .f32) :: L), y ∈ pc.1.set :=
  ⟨⟨pool2, p⟩, List.mem_cons_self, inside2 y⟩

/-- and that store, made last, leaves its payload as the buffer's contents. -/
theorem stored2 (v : View sig .tc .vmem S100x128 .f32) (f : v.ty.Contents (Elt F)) (p : Vec F S100x128 .f32)
    (L : List (View.Piece (Elt F) S100x128 .f32)) : v.read (Elt F) (v.writes (Elt F) f (⟨pool2, p⟩ :: L)) = p := by
  rw [View.read_writes_eq_canon _ _ _ (covered2 p L)]
  exact View.canon_cons_unit_zero (S := S100x128) origin2 inb_S100x128_S100x128_0_0 p L

/-- A load through the whole rectangle reads the buffer's contents. -/
theorem loaded2 {S : Shape} {e : EltTy} (v : View sig .tc .vmem S e) (f : v.ty.Contents (Elt F))
    {off : Fin S.rank → ℕ} (h : off = fun _ => 0) (inb : ∀ a, off a + S.size a ≤ S.size a) :
    View.readAt (Elt F) v (Rect.unit off S.size inb).toLoadRect f = v.read (Elt F) f :=
  (View.readAt_eq_ld v f _).trans (View.ld_unit_zero h inb _)

/-- The scratch operand, a whole scoped buffer of the kernel's own. -/
abbrev acc2 : Memref sig .tc .vmem S100x128 .f32 := Memref.whole cc2_scratch0

/-! ## The body's triples, one per control case -/

set_option maxHeartbeats 1000000 in
/-- At the first point: the accumulator, at anything, is zeroed and then takes the first product. -/
theorem run_first2 (c : Dev nD) (E : Set ℕ) (i : grid2.Coords) (hf : first2 i) (hl : ¬last2 i)
    (arg1 : Memref sig .tc .vmem S100x2048 .bf16) (harg1 : arg1.IsWhole)
    (arg2 : Memref sig .tc .vmem S2048x128 .f32) (harg2 : arg2.IsWhole)
    (arg3 : Memref sig .tc .vmem S100x128 .f32) (harg3 : arg3.IsWhole)
    (arg4 : Memref sig .tc .vmem S100x128 .f32) (harg4 : arg4.IsWhole)
    (x : Vec F S100x2048 .bf16) (w : Vec F S2048x128 .f32) (K : PUnit → sProp 𝕄) :
    iprop(owns (c : Thread nD τ) arg1 fullShare x ∗ owns (c : Thread nD τ) arg2 fullShare w
        ∗ (∃ d, owns (c : Thread nD τ) arg4 fullShare d)
        ∗ (iprop(owns (c : Thread nD τ) arg1 fullShare x ∗ owns (c : Thread nD τ) arg2 fullShare w
            ∗ owns (c : Thread nD τ) arg4 fullShare (k2_pay2 x w (k2_pay1 (F := F)))) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f1, %hf1, H1⟩, ⟨%f2, %hf2, H2⟩, ⟨%d4, %f4, -, H4⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  rw [stored2]; sl_unfold_run_names
  rw [View.readCov_unit_zero (S := S100x128) _ origin2, loaded2 (S := S100x2048) _ _ origin2, loaded2 (S := S2048x128) _ _ origin2]

set_option maxHeartbeats 1000000 in
/-- At a point neither first nor last: the accumulator at a takes the product on top of a. -/
theorem run_mid2 (c : Dev nD) (E : Set ℕ) (i : grid2.Coords) (hf : ¬first2 i) (hl : ¬last2 i)
    (arg1 : Memref sig .tc .vmem S100x2048 .bf16) (harg1 : arg1.IsWhole)
    (arg2 : Memref sig .tc .vmem S2048x128 .f32) (harg2 : arg2.IsWhole)
    (arg3 : Memref sig .tc .vmem S100x128 .f32) (harg3 : arg3.IsWhole)
    (arg4 : Memref sig .tc .vmem S100x128 .f32) (harg4 : arg4.IsWhole)
    (x : Vec F S100x2048 .bf16) (w : Vec F S2048x128 .f32) (a : Vec F S100x128 .f32) (K : PUnit → sProp 𝕄) :
    iprop(owns (c : Thread nD τ) arg1 fullShare x ∗ owns (c : Thread nD τ) arg2 fullShare w
        ∗ owns (c : Thread nD τ) arg4 fullShare a
        ∗ (iprop(owns (c : Thread nD τ) arg1 fullShare x ∗ owns (c : Thread nD τ) arg2 fullShare w
            ∗ owns (c : Thread nD τ) arg4 fullShare (k2_pay2 x w a)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f1, %hf1, H1⟩, ⟨%f2, %hf2, H2⟩, ⟨%f4, %hf4, H4⟩, Hk⟩
  subst hf1; subst hf2; subst hf4
  sl_exec
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  rw [stored2, loaded2 (S := S100x2048) _ _ origin2, loaded2 (S := S2048x128) _ _ origin2, loaded2 (S := S100x128) _ _ origin2]

set_option maxHeartbeats 1000000 in
/-- At the last point: the accumulator at a takes the product on top of a, and the output's buffer, at anything,
    takes a copy of the result. -/
theorem run_last2 (c : Dev nD) (E : Set ℕ) (i : grid2.Coords) (hf : ¬first2 i) (hl : last2 i)
    (arg1 : Memref sig .tc .vmem S100x2048 .bf16) (harg1 : arg1.IsWhole)
    (arg2 : Memref sig .tc .vmem S2048x128 .f32) (harg2 : arg2.IsWhole)
    (arg3 : Memref sig .tc .vmem S100x128 .f32) (harg3 : arg3.IsWhole)
    (arg4 : Memref sig .tc .vmem S100x128 .f32) (harg4 : arg4.IsWhole)
    (x : Vec F S100x2048 .bf16) (w : Vec F S2048x128 .f32) (a : Vec F S100x128 .f32) (K : PUnit → sProp 𝕄) :
    iprop(owns (c : Thread nD τ) arg1 fullShare x ∗ owns (c : Thread nD τ) arg2 fullShare w
        ∗ (∃ d, owns (c : Thread nD τ) arg3 fullShare d) ∗ owns (c : Thread nD τ) arg4 fullShare a
        ∗ (iprop(owns (c : Thread nD τ) arg1 fullShare x ∗ owns (c : Thread nD τ) arg2 fullShare w
            ∗ owns (c : Thread nD τ) arg3 fullShare (k2_pay2 x w a)
            ∗ owns (c : Thread nD τ) arg4 fullShare (k2_pay2 x w a)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [stored2]; sl_unfold_run_names
    rw [View.readCov_unit_zero (S := S100x128) _ origin2, loaded2 (S := S100x2048) _ _ origin2, loaded2 (S := S2048x128) _ _ origin2, loaded2 (S := S100x128) _ _ origin2]
  iexists _; isplitr
  swap; · iexact H4
  ipureintro
  sl_unfold_run_names
  rw [stored2, loaded2 (S := S100x2048) _ _ origin2, loaded2 (S := S2048x128) _ _ origin2, loaded2 (S := S100x128) _ _ origin2]

/-! ## The accumulator, point by point -/

/-- the scratch accumulator after grid point n -/
def pooled2 (c : Dev nD) : (n : ℕ) → n < cfg2.N → Vec F S100x128 .f32
  | 0, h => k2_pay2 (block2 V c 0 ⟨0, h⟩) (block2 V c 1 ⟨0, h⟩) (k2_pay1 (F := F))
  | n + 1, h => k2_pay2 (block2 V c 0 ⟨n + 1, h⟩) (block2 V c 1 ⟨n + 1, h⟩) (pooled2 c n (Nat.lt_of_succ_lt h))

theorem pooled2_first (c : Dev nD) (t : Fin cfg2.N) (h : t.val = 0) :
    pooled2 V c t.val t.isLt = k2_pay2 (block2 V c 0 t) (block2 V c 1 t) (k2_pay1 (F := F)) := by
  obtain ⟨n, hn⟩ := t
  cases n with
  | zero => rfl
  | succ n => exact absurd h (Nat.succ_ne_zero n)

theorem pooled2_later (c : Dev nD) (t : Fin cfg2.N) (h : t.val ≠ 0) :
    pooled2 V c t.val t.isLt
      = k2_pay2 (block2 V c 0 t) (block2 V c 1 t) (pooled2 V c (t.val - 1) (Nat.lt_of_le_of_lt (Nat.sub_le _ _) t.isLt)) := by
  obtain ⟨n, hn⟩ := t
  cases n with
  | zero => exact absurd rfl h
  | succ n => rfl

/-! ## The region's invariant -/

/-- A scoped buffer of the core held whole at some contents. -/
abbrev held (c : Dev nD) (b : Ref sig .tc) : sProp 𝕄 :=
  iprop(∃ f : Buf (Elt F) ((c : Thread nD τ).loc b), ((c : Thread nD τ).loc b) ↦{fullShare} f)

/-- What the region holds of the core beside the accumulator: the other regions' staging buffers, each at some
    contents, and the generator register at some state. -/
def others2 (c : Dev nD) : sProp 𝕄 :=
  iprop(held (F := F) c cc0_stg0_0 ∗ held (F := F) c cc0_stg0_1 ∗ held (F := F) c cc0_stg1_0 ∗ held (F := F) c cc0_stg2_0 ∗ held (F := F) c cc0_stg2_1 ∗ held (F := F) c cc1_stg0_0 ∗ held (F := F) c cc1_stg0_1 ∗ held (F := F) c cc1_stg1_0 ∗ held (F := F) c cc1_stg2_0 ∗ held (F := F) c cc1_stg2_1 ∗ held (F := F) c cc3_stg0_0 ∗ held (F := F) c cc3_stg1_0 ∗ held (F := F) c cc3_stg2_0 ∗ held (F := F) c cc3_stg3_0 ∗ held (F := F) c cc3_stg4_0 ∗ held (F := F) c cc3_stg5_0 ∗ ∃ r, prngReg c r)

/-- What the region is entered with gives up the accumulator at some contents, -/
theorem scratch_out2 (c : Dev nD) :
    (Pipeline.ΦA spec2 c : sProp 𝕄) ⊢ iprop((∃ d, owns (c : Thread nD τ) acc2 fullShare d) ∗ others2 (F := F) c) := by
  unfold Pipeline.ΦA others2; rw [scopedRest2_eq]; simp only [acc2, owns_whole]
  iintro ⟨⟨B0, B1, B2, B3, B4, B5, B6, B7, B8, B9, B10, B11, B12, B13, B14, B15, B16⟩, Hg⟩
  isplitl [B10]; · iexact B10
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B11]; · iexact B11
  isplitl [B12]; · iexact B12
  isplitl [B13]; · iexact B13
  isplitl [B14]; · iexact B14
  isplitl [B15]; · iexact B15
  isplitl [B16]; · iexact B16
  iexact Hg

/-- and takes it back at any. -/
theorem scratch_in2 (c : Dev nD) :
    iprop((∃ d, owns (c : Thread nD τ) acc2 fullShare d) ∗ others2 (F := F) c) ⊢ (Pipeline.ΦA spec2 c : sProp 𝕄) := by
  unfold Pipeline.ΦA others2; rw [scopedRest2_eq]; simp only [acc2, owns_whole]
  iintro ⟨B10, B0, B1, B2, B3, B4, B5, B6, B7, B8, B9, B11, B12, B13, B14, B15, B16, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  iexact B16

/-- The invariant before position n: at the region's entry what the region is handed, the accumulator at anything;
    afterwards the accumulator at what the point before left in it, beside the rest. -/
def carried2 (c : Dev nD) : (n : ℕ) → n ≤ cfg2.N → sProp 𝕄
  | 0, _ => Pipeline.ΦA spec2 c
  | n + 1, hn => iprop(owns (c : Thread nD τ) acc2 fullShare (pooled2 V c n hn) ∗ others2 (F := F) c)

theorem carried2_zero (c : Dev nD) (n : ℕ) (h : n ≤ cfg2.N) (hz : n = 0) : carried2 V c n h = Pipeline.ΦA spec2 c := by
  subst hz; rfl

theorem carried2_succ (c : Dev nD) (n : ℕ) (hn : n < cfg2.N) :
    carried2 V c (n + 1) hn = iprop(owns (c : Thread nD τ) acc2 fullShare (pooled2 V c n hn) ∗ others2 (F := F) c) := rfl

theorem carried2_pos (c : Dev nD) (n : ℕ) (h : n ≤ cfg2.N) (hz : n ≠ 0) :
    carried2 V c n h = iprop(owns (c : Thread nD τ) acc2 fullShare (pooled2 V c (n - 1) (by omega)) ∗ others2 (F := F) c) := by
  cases n with
  | zero => exact absurd rfl hz
  | succ n => rfl

/-! ## The pipeline's proof data -/

/-- The arrays as the region finds them; after the body at point t each operand's buffer at its block and, where
    the output is stored, its buffer at the accumulator; the invariant carrying the accumulator; nothing owed. -/
def data2 (c : Dev nD) : Dat τ (Elt F) Unit ℕ (UR sig nD τ) ℕ cfg2 c where
  A w := V c (Pipeline.arrRef spec2 w)
  after w t := match w with
    | ⟨0, _⟩ => block2 V c 0 t
    | ⟨1, _⟩ => block2 V c 1 t
    | ⟨2, _⟩ => pooled2 V c t.val t.isLt
  Φ t := carried2 V c t.val (Nat.le_of_lt_succ t.isLt)
  q _ := fullShare
  owed _ := 0

theorem arrays2 (c : Dev nD) (w : Fin cfg2.W) : (data2 V c).A w = V c (Pipeline.arrRef spec2 w) := by
  dsimp only [data2]

theorem left2_0 (c : Dev nD) (t : Fin cfg2.N) : (data2 V c).after 0 t = block2 V c 0 t := by dsimp only [data2]
theorem left2_1 (c : Dev nD) (t : Fin cfg2.N) : (data2 V c).after 1 t = block2 V c 1 t := by dsimp only [data2]
theorem left2_2 (c : Dev nD) (t : Fin cfg2.N) : (data2 V c).after 2 t = pooled2 V c t.val t.isLt := by dsimp only [data2]
theorem left2_2_last (c : Dev nD) (t : Fin cfg2.N) (ht : t.val = 24) : (data2 V c).after 2 t = pooled2 V c t.val t.isLt :=
  left2_2 V c t

theorem found2_0 (c : Dev nD) (t : Fin cfg2.N) (d) : (data2 V c).before 0 t d = block2 V c 0 t :=
  found2_0_of V (data2 V c) (arrays2 V c 0) (left2_0 V c) t d
theorem found2_1 (c : Dev nD) (t : Fin cfg2.N) (d) : (data2 V c).before 1 t d = block2 V c 1 t :=
  found2_1_of V (data2 V c) (arrays2 V c 1) (left2_1 V c) t d

theorem invariant_at2 (c : Dev nD) (t : Fin cfg2.N) :
    (data2 V c).Φ t.castSucc = carried2 V c t.val (Nat.le_of_lt t.isLt) := by
  dsimp only [data2]; simp only [Fin.coe_castSucc]

/-! ## The body obligation, at a generic point -/

def bodyPre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d)))

def bodyPost2 (c : Dev nD) (t : Fin cfg2.N) : sProp 𝕄 :=
  iprop((data2 V c).Φ t.succ ∗ (data2 V c).owesAt () t.succ
    ∗ (data2 V c).leavesExact 0 t
    ∗ (data2 V c).leavesExact 1 t
    ∗ (data2 V c).leavesExact 2 t)

set_option maxHeartbeats 4000000 in
/-- The body at any point. The operands' buffers hold their blocks. At the first point the entry invariant gives up
    the accumulator at anything and the reset-and-add run leaves it at the first partial sum; later the invariant
    holds it at the previous partial sum and the run adds this point's product. Away from the last point the output's
    buffer goes back as it came; at the last it takes the total. The core owes nothing throughout. -/
theorem body_at2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [found2_0, found2_1]
  rw [show (data2 V c).owesAt () t.succ = (data2 V c).owesAt () t.castSucc from rfl]
  rw [show (data2 V c).Φ t.succ = carried2 V c (t.val + 1) t.isLt from rfl, carried2_succ, invariant_at2]
  rw [show (data2 V c).leavesExact 0 t = owns (c : Thread nD τ) (st2_0 t) fullShare ((data2 V c).after 0 t) from by
    unfold Dat.leavesExact; rw [live2_0 t], left2_0]
  rw [show (data2 V c).leavesExact 1 t = owns (c : Thread nD τ) (st2_1 t) fullShare ((data2 V c).after 1 t) from by
    unfold Dat.leavesExact; rw [live2_1 t], left2_1]
  have hN : t.val < 25 := lt_of_lt_of_eq t.isLt (show cfg2.N = 25 from N_2)
  by_cases hl : t.val = 24
  · have hz : t.val ≠ 0 := by omega
    have hnf : ¬first2 (grid2.coords t) := fun h => hz ((first2_iff t).mp h)
    have hla : last2 (grid2.coords t) := (last2_iff t).mpr hl
    rw [show (data2 V c).leavesExact 2 t = owns (c : Thread nD τ) (st2_2 t) fullShare ((data2 V c).after 2 t) from by
      unfold Dat.leavesExact; rw [live2_2 t hla], left2_2]
    rw [carried2_pos V c _ _ hz, pooled2_later V c t hz]
    iintro ⟨⟨HS, Hr⟩, Ho, ⟨%d0, H0⟩, ⟨%d1, H1⟩, ⟨%d2, H2⟩⟩
    iapply (run_last2 c Set.univ (grid2.coords t) hnf hla _ _ _ _ _ _ _ _ (block2 V c 0 t) (block2 V c 1 t) _ _)
    isplitl [H0]; · iexact H0
    isplitl [H1]; · iexact H1
    isplitl [H2]; · iexists _; iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexact H2
  · have hnl : ¬last2 (grid2.coords t) := fun h => hl ((last2_iff t).mp h)
    rw [Dat.leavesExact_idle (data2 V c) 2 t (rests2_2 t hnl) (unflushed2_2 t hnl)]
    by_cases hz : t.val = 0
    · have hfi : first2 (grid2.coords t) := (first2_iff t).mpr hz
      rw [carried2_zero V c _ _ hz, pooled2_first V c t hz]
      iintro ⟨HA, Ho, ⟨%d0, H0⟩, ⟨%d1, H1⟩, ⟨%d2, H2⟩⟩
      icases (scratch_out2 c) $$ HA with ⟨HS, Hr⟩
      iapply (run_first2 c Set.univ (grid2.coords t) hfi hnl _ _ _ _ _ _ _ _ (block2 V c 0 t) (block2 V c 1 t) _)
      isplitl [H0]; · iexact H0
      isplitl [H1]; · iexact H1
      isplitl [HS]; · iexact HS
      iintro ⟨H0, H1, HS⟩
      isplitl [HS Hr]
      · isplitl [HS]; · iexact HS
        iexact Hr
      isplitl [Ho]; · iexact Ho
      isplitl [H0]; · iexact H0
      isplitl [H1]; · iexact H1
      iexists _; iexact H2
    · have hnf : ¬first2 (grid2.coords t) := fun h => hz ((first2_iff t).mp h)
      rw [carried2_pos V c _ _ hz, pooled2_later V c t hz]
      iintro ⟨⟨HS, Hr⟩, Ho, ⟨%d0, H0⟩, ⟨%d1, H1⟩, ⟨%d2, H2⟩⟩
      iapply (run_mid2 c Set.univ (grid2.coords t) hnf hnl _ _ _ _ _ _ _ _ (block2 V c 0 t) (block2 V c 1 t) _ _)
      isplitl [H0]; · iexact H0
      isplitl [H1]; · iexact H1
      isplitl [HS]; · iexact HS
      iintro ⟨H0, H1, HS⟩
      isplitl [HS Hr]
      · isplitl [HS]; · iexact HS
        iexact Hr
      isplitl [Ho]; · iexact Ho
      isplitl [H0]; · iexact H0
      isplitl [H1]; · iexact H1
      iexists _; iexact H2

theorem obligation2 (c : Dev nD) : BodyObligation (data2 (F := F) V c) (defs₀ (F := F)) Variants.none () Set.univ := fun t => by
  rw [bigSep_W2, bigSep_W2]
  exact body_at2 V c t

/-! ## Entering and leaving the region -/

/-- What the launch hands the region is the invariant before the first point. -/
theorem enter2 (c : Dev nD) : Pipeline.ΦA spec2 c ⊢ (data2 V c).Φ 0 := by
  rw [show (data2 V c).Φ 0 = carried2 V c 0 (Nat.zero_le _) from rfl, carried2_zero V c 0 _ rfl]
  try exact Idealize.SL.BI.Entails.refl _

/-- After the last point the invariant gives the entry one back: what the accumulator holds is forgotten. -/
theorem leave2 (c : Dev nD) : (data2 V c).Φ (Fin.last cfg2.N) ⊢ Pipeline.ΦA spec2 c := by
  rw [show (data2 V c).Φ (Fin.last cfg2.N) = carried2 V c (Fin.last cfg2.N).val (Nat.le_of_lt_succ (Fin.last cfg2.N).isLt) from rfl,
    carried2_pos V c _ _ (by rw [Fin.val_last]; have : cfg2.N = 25 := N_2; omega)]
  iintro ⟨HS, Hr⟩
  iapply (scratch_in2 c)
  isplitl [HS]
  · iexists _; iexact HS
  iexact Hr

end Cert.KernelIdeal.Hand

end
-- ==== Proof.Head.lean ====
/-
  The classifier head, one pallas_call on a grid of a single point: the body loads the 100 x 128 pooled features,
  the 128 x 128 first weight with its bias of 128, the 2 x 128 second weight with its bias of 2, and the 100 x 2
  output buffer, and stores into the whole output buffer the two-layer value: features times the first weight
  transposed plus bias, clamped below at zero, times the second weight transposed plus bias. Stated at any
  contents V of the core's buffers at the region's entry: the blocks the body finds, what it leaves in the
  output's staging buffer, its triple, the pipeline's proof data and the body obligation at the grid point.
-/
import proofs.«405348_j60988535603684_1_alg».proof.Proof.Gen.KernelIdeal.Launch
import proofs.«405348_j60988535603684_1_alg».proof.Proof.Gen.KernelIdeal.Skeleton
import proofs.«405348_j60988535603684_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks the body finds -/

/-- Window w's block at grid point t, read off its array as the region finds it. -/
def block3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The features' staging buffer holds their block at the point. -/
theorem found3_0_of {c : Dev nD} (dat : Dat τ (Elt F) Unit ℕ (UR sig nD τ) ℕ cfg3 c) (hA : dat.A 0 = V c (Pipeline.arrRef spec3 0))
    (hafter : ∀ t, dat.after 0 t = block3 V c 0 t) (t : Fin cfg3.N) (d) : dat.before 0 t d = block3 V c 0 t :=
  (dat.before_in_eq_fetched 0 rfl (fun _ => rfl) (fun _ _ _ => rfl) (fun t => by rw [hafter]; unfold Dat.blockOf block3; rw [hA]; try rfl) t d).trans
    (by unfold Dat.fetched Dat.blockOf block3; rw [hA]; try rfl)

/-- The first weight's staging buffer holds its block at the point. -/
theorem found3_1_of {c : Dev nD} (dat : Dat τ (Elt F) Unit ℕ (UR sig nD τ) ℕ cfg3 c) (hA : dat.A 1 = V c (Pipeline.arrRef spec3 1))
    (hafter : ∀ t, dat.after 1 t = block3 V c 1 t) (t : Fin cfg3.N) (d) : dat.before 1 t d = block3 V c 1 t :=
  (dat.before_in_eq_fetched 1 rfl (fun _ => rfl) (fun _ _ _ => rfl) (fun t => by rw [hafter]; unfold Dat.blockOf block3; rw [hA]; try rfl) t d).trans
    (by unfold Dat.fetched Dat.blockOf block3; rw [hA]; try rfl)

/-- The first bias's staging buffer holds its block at the point. -/
theorem found3_2_of {c : Dev nD} (dat : Dat τ (Elt F) Unit ℕ (UR sig nD τ) ℕ cfg3 c) (hA : dat.A 2 = V c (Pipeline.arrRef spec3 2))
    (hafter : ∀ t, dat.after 2 t = block3 V c 2 t) (t : Fin cfg3.N) (d) : dat.before 2 t d = block3 V c 2 t :=
  (dat.before_in_eq_fetched 2 rfl (fun _ => rfl) (fun _ _ _ => rfl) (fun t => by rw [hafter]; unfold Dat.blockOf block3; rw [hA]; try rfl) t d).trans
    (by unfold Dat.fetched Dat.blockOf block3; rw [hA]; try rfl)

/-- The second weight's staging buffer holds its block at the point. -/
theorem found3_3_of {c : Dev nD} (dat : Dat τ (Elt F) Unit ℕ (UR sig nD τ) ℕ cfg3 c) (hA : dat.A 3 = V c (Pipeline.arrRef spec3 3))
    (hafter : ∀ t, dat.after 3 t = block3 V c 3 t) (t : Fin cfg3.N) (d) : dat.before 3 t d = block3 V c 3 t :=
  (dat.before_in_eq_fetched 3 rfl (fun _ => rfl) (fun _ _ _ => rfl) (fun t => by rw [hafter]; unfold Dat.blockOf block3; rw [hA]; try rfl) t d).trans
    (by unfold Dat.fetched Dat.blockOf block3; rw [hA]; try rfl)

/-- The second bias's staging buffer holds its block at the point. -/
theorem found3_4_of {c : Dev nD} (dat : Dat τ (Elt F) Unit ℕ (UR sig nD τ) ℕ cfg3 c) (hA : dat.A 4 = V c (Pipeline.arrRef spec3 4))
    (hafter : ∀ t, dat.after 4 t = block3 V c 4 t) (t : Fin cfg3.N) (d) : dat.before 4 t d = block3 V c 4 t :=
  (dat.before_in_eq_fetched 4 rfl (fun _ => rfl) (fun _ _ _ => rfl) (fun t => by rw [hafter]; unfold Dat.blockOf block3; rw [hA]; try rfl) t d).trans
    (by unfold Dat.fetched Dat.blockOf block3; rw [hA]; try rfl)

/-! ## What the body leaves in the output's staging buffer -/

abbrev feats3 : Rect S100x128 := Rect.unit (s := S100x128) ![0, 0] S100x128.size inb_S100x128_S100x128_0_0
abbrev weightA3 : Rect S128x128 := Rect.unit (s := S128x128) ![0, 0] S128x128.size inb_S128x128_S128x128_0_0
abbrev biasA3 : Rect S128 := Rect.unit (s := S128) ![0] S128.size inb_S128_S128_0
abbrev weightB3 : Rect S2x128 := Rect.unit (s := S2x128) ![0, 0] S2x128.size inb_S2x128_S2x128_0_0
abbrev biasB3 : Rect S2 := Rect.unit (s := S2) ![0] S2.size inb_S2_S2_0
abbrev logits3 : Rect S100x2 := Rect.unit (s := S100x2) ![0, 0] S100x2.size inb_S100x2_S100x2_0_0

/-- The one store, of the two-layer value of the five loaded blocks, as the buffer's contents. -/
def head3 (x0 : Vec F S100x128 .f32) (x1 : Vec F S128x128 .f32) (x2 : Vec F S128 .f32) (x3 : Vec F S2x128 .f32)
    (x4 : Vec F S2 .f32) : Vec F S100x2 .f32 :=
  View.canon [⟨logits3, k3_pay1 (View.ld x0 feats3) (View.ld x1 weightA3) (View.ld x2 biasA3) (View.ld x3 weightB3) (View.ld x4 biasB3)⟩]

/-- The store's rectangle is the whole buffer. -/
theorem head_covers3 (p : Vec F S100x2 .f32) (y : S100x2.Idx) :
    ∃ pc ∈ ([⟨logits3, p⟩] : List (View.Piece (Elt F) S100x2 .f32)), y ∈ pc.1.set :=
  View.cover_of_tiled [⟨logits3, p⟩] S100x2.size (by rfl) y

/-! ## The body's triple -/

set_option maxHeartbeats 1000000 in
/-- On whole staging memrefs, the five inputs' at contents x0 .. x4 and the output's at anything, the body runs to the
    continuation with the inputs' as they were and the output's at the two-layer value. -/
theorem run_head3 (c : Dev nD) (E : Set ℕ) (i : grid3.Coords)
    (arg1 : Memref sig .tc .vmem S100x128 .f32) (harg1 : arg1.IsWhole)
    (arg2 : Memref sig .tc .vmem S128x128 .f32) (harg2 : arg2.IsWhole)
    (arg3 : Memref sig .tc .vmem S128 .f32) (harg3 : arg3.IsWhole)
    (arg4 : Memref sig .tc .vmem S2x128 .f32) (harg4 : arg4.IsWhole)
    (arg5 : Memref sig .tc .vmem S2 .f32) (harg5 : arg5.IsWhole)
    (arg6 : Memref sig .tc .vmem S100x2 .f32) (harg6 : arg6.IsWhole)
    (x0 : Vec F S100x128 .f32) (x1 : Vec F S128x128 .f32) (x2 : Vec F S128 .f32) (x3 : Vec F S2x128 .f32)
    (x4 : Vec F S2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (head3 x0 x1 x2 x3 x4)) -∗ K ⟨⟩))
      ⊢ wp frame (wpE (defs₀ (F := F)) Variants.none c none) E
          (cc3__mlp_head_kernel i arg1 harg1 arg2 harg2 arg3 harg3 arg4 harg4 arg5 harg5 arg6 harg6) K := by
  simp only [cc3__mlp_head_kernel_eq_skeleton]; unfold cc3__mlp_head_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (head_covers3 _)

/-! ## The pipeline's proof data -/

/-- The arrays as the region finds them; after the body at the point each input's buffer at its block and the
    output's at the two-layer value of the five; the scoped rest and the generator register untouched; nothing owed. -/
def data3 (c : Dev nD) : Dat τ (Elt F) Unit ℕ (UR sig nD τ) ℕ cfg3 c where
  A w := V c (Pipeline.arrRef spec3 w)
  after w t := match w with
    | ⟨0, _⟩ => block3 V c 0 t
    | ⟨1, _⟩ => block3 V c 1 t
    | ⟨2, _⟩ => block3 V c 2 t
    | ⟨3, _⟩ => block3 V c 3 t
    | ⟨4, _⟩ => block3 V c 4 t
    | ⟨5, _⟩ => head3 (block3 V c 0 t) (block3 V c 1 t) (block3 V c 2 t) (block3 V c 3 t) (block3 V c 4 t)
  Φ _ := Pipeline.ΦA spec3 c
  q _ := fullShare
  owed _ := 0

theorem arrays3 (c : Dev nD) (w : Fin cfg3.W) : (data3 V c).A w = V c (Pipeline.arrRef spec3 w) := by
  dsimp only [data3]

theorem left3_0 (c : Dev nD) (t : Fin cfg3.N) : (data3 V c).after 0 t = block3 V c 0 t := by dsimp only [data3]
theorem left3_1 (c : Dev nD) (t : Fin cfg3.N) : (data3 V c).after 1 t = block3 V c 1 t := by dsimp only [data3]
theorem left3_2 (c : Dev nD) (t : Fin cfg3.N) : (data3 V c).after 2 t = block3 V c 2 t := by dsimp only [data3]
theorem left3_3 (c : Dev nD) (t : Fin cfg3.N) : (data3 V c).after 3 t = block3 V c 3 t := by dsimp only [data3]
theorem left3_4 (c : Dev nD) (t : Fin cfg3.N) : (data3 V c).after 4 t = block3 V c 4 t := by dsimp only [data3]
theorem left3_5 (c : Dev nD) (t : Fin cfg3.N) :
    (data3 V c).after 5 t
      = head3 (block3 V c 0 t) (block3 V c 1 t) (block3 V c 2 t) (block3 V c 3 t) (block3 V c 4 t) := by
  dsimp only [data3]

theorem found3_0 (c : Dev nD) (t : Fin cfg3.N) (d) : (data3 V c).before 0 t d = block3 V c 0 t :=
  found3_0_of V (data3 V c) (arrays3 V c 0) (left3_0 V c) t d
theorem found3_1 (c : Dev nD) (t : Fin cfg3.N) (d) : (data3 V c).before 1 t d = block3 V c 1 t :=
  found3_1_of V (data3 V c) (arrays3 V c 1) (left3_1 V c) t d
theorem found3_2 (c : Dev nD) (t : Fin cfg3.N) (d) : (data3 V c).before 2 t d = block3 V c 2 t :=
  found3_2_of V (data3 V c) (arrays3 V c 2) (left3_2 V c) t d
theorem found3_3 (c : Dev nD) (t : Fin cfg3.N) (d) : (data3 V c).before 3 t d = block3 V c 3 t :=
  found3_3_of V (data3 V c) (arrays3 V c 3) (left3_3 V c) t d
theorem found3_4 (c : Dev nD) (t : Fin cfg3.N) (d) : (data3 V c).before 4 t d = block3 V c 4 t :=
  found3_4_of V (data3 V c) (arrays3 V c 4) (left3_4 V c) t d

/-! ## The body obligation, at a generic point -/

def bodyPre3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d))
    ∗ (∃ d, owns (c : Thread nD τ) (st3_3 t) fullShare ((data3 V c).before 3 t d))
    ∗ (∃ d, owns (c : Thread nD τ) (st3_4 t) fullShare ((data3 V c).before 4 t d))
    ∗ (∃ d, owns (c : Thread nD τ) (st3_5 t) fullShare ((data3 V c).before 5 t d)))

def bodyPost3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t)
    ∗ owns (c : Thread nD τ) (st3_3 t) fullShare ((data3 V c).after 3 t)
    ∗ owns (c : Thread nD τ) (st3_4 t) fullShare ((data3 V c).after 4 t)
    ∗ owns (c : Thread nD τ) (st3_5 t) fullShare ((data3 V c).after 5 t))

/-- The body at the point: the inputs' memrefs hold their blocks, so the triple applies; the invariant and the
    core's dues pass through unread. -/
theorem body_at3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [found3_0, found3_1, found3_2, found3_3, found3_4]
  rw [show (data3 V c).Φ t.succ = (data3 V c).Φ t.castSucc from rfl,
    show (data3 V c).owesAt () t.succ = (data3 V c).owesAt () t.castSucc from rfl,
    left3_0, left3_1, left3_2, left3_3, left3_4, left3_5]
  iintro ⟨HΦ, Ho, ⟨%d0, H0⟩, ⟨%d1, H1⟩, ⟨%d2, H2⟩, ⟨%d3, H3⟩, ⟨%d4, H4⟩, ⟨%d5, H5⟩⟩
  iapply (run_head3 c Set.univ _ _ _ _ _ _ _ _ _ _ _ _ _ (block3 V c 0 t) (block3 V c 1 t) (block3 V c 2 t)
    (block3 V c 3 t) (block3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem obligation3 (c : Dev nD) : BodyObligation (data3 (F := F) V c) (defs₀ (F := F)) Variants.none () Set.univ := fun t => by
  rw [bigSep_W3, bigSep_W3]
  exact body_at3 V c t

end Cert.KernelIdeal.Hand

end
-- ==== Proof.Chain.lean ====
/-
  The whole program's run. Between two items of @main the core holds every unscoped buffer whole; a host stretch
  applies its operations to those contents; a pallas_call changes one array, its output, to the fold of its
  write-backs. Here, for any contents the regions leave that FIT — each region's output reference holding the fold
  of that region's write-backs from the contents the region is entered with —: the four regions' records over these
  thread states and the run of @main from any launch memory, its post reading every unscoped buffer at the last
  contents; then the frame claim and the result's value read off it; and last, that fitting contents exist, built
  region after region.
-/
import proofs.«405348_j60988535603684_1_alg».proof.Proof.Dense0
import proofs.«405348_j60988535603684_1_alg».proof.Proof.Dense1
import proofs.«405348_j60988535603684_1_alg».proof.Proof.Pool
import proofs.«405348_j60988535603684_1_alg».proof.Proof.Head
import proofs.«405348_j60988535603684_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents each region is entered with, and contents that fit -/

abbrev in0 : (c : Dev nD) → (b : Ref sig .tc) → Buf (Elt F) ((c : Thread nD τ).loc b) := fun c b => V3 m c b
abbrev in1 : (c : Dev nD) → (b : Ref sig .tc) → Buf (Elt F) ((c : Thread nD τ).loc b) := fun c b => V7 m outs c b
abbrev in2 : (c : Dev nD) → (b : Ref sig .tc) → Buf (Elt F) ((c : Thread nD τ).loc b) := fun c b => V16 m outs c b
abbrev in3 : (c : Dev nD) → (b : Ref sig .tc) → Buf (Elt F) ((c : Thread nD τ).loc b) := fun c b => V18 m outs c b

/-- The contents the regions leave FIT when each region's output reference holds the fold of that region's
    write-backs, computed from the contents the region is entered with. -/
structure Fits : Prop where
  first : ∀ c : Dev nD, outs 4 main_v33 c = (data0 (in0 m) c).arrAt 2 cfg0.N
  second : ∀ c : Dev nD, outs 8 main_v52 c = (data1 (in1 m outs) c).arrAt 2 cfg1.N
  pooled : ∀ c : Dev nD, outs 17 main_v76 c = (data2 (in2 m outs) c).arrAt 2 cfg2.N
  logits : ∀ c : Dev nD, outs 19 main_v82 c = (data3 (in3 m outs) c).arrAt 5 cfg3.N

/-- Every pipeline's proof data, each at its region's entry contents. -/
def pdats : (p : Fin 4) → (c : Dev nD) → Dat τ (Elt F) Unit ℕ (UR sig nD τ) ℕ (cfgs p) c
  | ⟨0, _⟩ => fun c => data0 (in0 m) c
  | ⟨1, _⟩ => fun c => data1 (in1 m outs) c
  | ⟨2, _⟩ => fun c => data2 (in2 m outs) c
  | ⟨3, _⟩ => fun c => data3 (in3 m outs) c

/-! ## What a region leaves, at any entry contents -/

set_option maxHeartbeats 4000000 in
/-- At region 0's exit, whatever contents W it is entered with: each operand's array holds its entry contents, the
    output's the fold of the write-backs, when that is what is put at the output's reference. -/
theorem exit0_any (W : Dev nD → Valuation τ sig (Elt F)) (o : (c : Dev nD) → Buf (Elt F) ((c : Thread nD τ).loc main_v33))
    (ho : ∀ c, o c = (data0 (fun c (b : Ref sig .tc) => W c b) c).arrAt 2 cfg0.N) (c : Dev nD) (w : Fin cfg0.W) :
    (data0 (fun c (b : Ref sig .tc) => W c b) c).arrAt w cfg0.N = Function.update (W c) main_v33 (o c) (Pipeline.arrRef spec0 w) := by
  match w with
  | ⟨0, _⟩ =>
    exact ((data0 (fun c (b : Ref sig .tc) => W c b) c).arrAt_in 0 rfl _).trans ((arrays0 (fun c (b : Ref sig .tc) => W c b) c 0).trans
      (Function.update_of_ne (StableHlo.devRef_ne_of_ne (by decide : (main_arg0 : Ref sig .tc) ≠ main_v33) : (Proc.devRef .tc main_arg0 : DevRef τ sig) ≠ Proc.devRef .tc main_v33) _ _).symm)
  | ⟨1, _⟩ =>
    exact ((data0 (fun c (b : Ref sig .tc) => W c b) c).arrAt_in 1 rfl _).trans ((arrays0 (fun c (b : Ref sig .tc) => W c b) c 1).trans
      (Function.update_of_ne (StableHlo.devRef_ne_of_ne (by decide : (main_v32 : Ref sig .tc) ≠ main_v33) : (Proc.devRef .tc main_v32 : DevRef τ sig) ≠ Proc.devRef .tc main_v33) _ _).symm)
  | ⟨2, _⟩ =>
    show _ = Function.update (W c) (Proc.devRef .tc main_v33) (o c) (Proc.devRef .tc main_v33)
    rw [Function.update_self]; exact (ho c).symm

set_option maxHeartbeats 4000000 in
/-- At region 1's exit, whatever contents W it is entered with: each operand's array holds its entry contents, the
    output's the fold of the write-backs, when that is what is put at the output's reference. -/
theorem exit1_any (W : Dev nD → Valuation τ sig (Elt F)) (o : (c : Dev nD) → Buf (Elt F) ((c : Thread nD τ).loc main_v52))
    (ho : ∀ c, o c = (data1 (fun c (b : Ref sig .tc) => W c b) c).arrAt 2 cfg1.N) (c : Dev nD) (w : Fin cfg1.W) :
    (data1 (fun c (b : Ref sig .tc) => W c b) c).arrAt w cfg1.N = Function.update (W c) main_v52 (o c) (Pipeline.arrRef spec1 w) := by
  match w with
  | ⟨0, _⟩ =>
    exact ((data1 (fun c (b : Ref sig .tc) => W c b) c).arrAt_in 0 rfl _).trans ((arrays1 (fun c (b : Ref sig .tc) => W c b) c 0).trans
      (Function.update_of_ne (StableHlo.devRef_ne_of_ne (by decide : (main_v50 : Ref sig .tc) ≠ main_v52) : (Proc.devRef .tc main_v50 : DevRef τ sig) ≠ Proc.devRef .tc main_v52) _ _).symm)
  | ⟨1, _⟩ =>
    exact ((data1 (fun c (b : Ref sig .tc) => W c b) c).arrAt_in 1 rfl _).trans ((arrays1 (fun c (b : Ref sig .tc) => W c b) c 1).trans
      (Function.update_of_ne (StableHlo.devRef_ne_of_ne (by decide : (main_v51 : Ref sig .tc) ≠ main_v52) : (Proc.devRef .tc main_v51 : DevRef τ sig) ≠ Proc.devRef .tc main_v52) _ _).symm)
  | ⟨2, _⟩ =>
    show _ = Function.update (W c) (Proc.devRef .tc main_v52) (o c) (Proc.devRef .tc main_v52)
    rw [Function.update_self]; exact (ho c).symm

set_option maxHeartbeats 4000000 in
/-- At region 2's exit, whatever contents W it is entered with: each operand's array holds its entry contents, the
    output's the fold of the write-backs, when that is what is put at the output's reference. -/
theorem exit2_any (W : Dev nD → Valuation τ sig (Elt F)) (o : (c : Dev nD) → Buf (Elt F) ((c : Thread nD τ).loc main_v76))
    (ho : ∀ c, o c = (data2 (fun c (b : Ref sig .tc) => W c b) c).arrAt 2 cfg2.N) (c : Dev nD) (w : Fin cfg2.W) :
    (data2 (fun c (b : Ref sig .tc) => W c b) c).arrAt w cfg2.N = Function.update (W c) main_v76 (o c) (Pipeline.arrRef spec2 w) := by
  match w with
  | ⟨0, _⟩ =>
    exact ((data2 (fun c (b : Ref sig .tc) => W c b) c).arrAt_in 0 rfl _).trans ((arrays2 (fun c (b : Ref sig .tc) => W c b) c 0).trans
      (Function.update_of_ne (StableHlo.devRef_ne_of_ne (by decide : (main_v75 : Ref sig .tc) ≠ main_v76) : (Proc.devRef .tc main_v75 : DevRef τ sig) ≠ Proc.devRef .tc main_v76) _ _).symm)
  | ⟨1, _⟩ =>
    exact ((data2 (fun c (b : Ref sig .tc) => W c b) c).arrAt_in 1 rfl _).trans ((arrays2 (fun c (b : Ref sig .tc) => W c b) c 1).trans
      (Function.update_of_ne (StableHlo.devRef_ne_of_ne (by decide : (main_v74 : Ref sig .tc) ≠ main_v76) : (Proc.devRef .tc main_v74 : DevRef τ sig) ≠ Proc.devRef .tc main_v76) _ _).symm)
  | ⟨2, _⟩ =>
    show _ = Function.update (W c) (Proc.devRef .tc main_v76) (o c) (Proc.devRef .tc main_v76)
    rw [Function.update_self]; exact (ho c).symm

set_option maxHeartbeats 4000000 in
/-- At region 3's exit, whatever contents W it is entered with: each operand's array holds its entry contents, the
    output's the fold of the write-backs, when that is what is put at the output's reference. -/
theorem exit3_any (W : Dev nD → Valuation τ sig (Elt F)) (o : (c : Dev nD) → Buf (Elt F) ((c : Thread nD τ).loc main_v82))
    (ho : ∀ c, o c = (data3 (fun c (b : Ref sig .tc) => W c b) c).arrAt 5 cfg3.N) (c : Dev nD) (w : Fin cfg3.W) :
    (data3 (fun c (b : Ref sig .tc) => W c b) c).arrAt w cfg3.N = Function.update (W c) main_v82 (o c) (Pipeline.arrRef spec3 w) := by
  match w with
  | ⟨0, _⟩ =>
    exact ((data3 (fun c (b : Ref sig .tc) => W c b) c).arrAt_in 0 rfl _).trans ((arrays3 (fun c (b : Ref sig .tc) => W c b) c 0).trans
      (Function.update_of_ne (StableHlo.devRef_ne_of_ne (by decide : (main_v81 : Ref sig .tc) ≠ main_v82) : (Proc.devRef .tc main_v81 : DevRef τ sig) ≠ Proc.devRef .tc main_v82) _ _).symm)
  | ⟨1, _⟩ =>
    exact ((data3 (fun c (b : Ref sig .tc) => W c b) c).arrAt_in 1 rfl _).trans ((arrays3 (fun c (b : Ref sig .tc) => W c b) c 1).trans
      (Function.update_of_ne (StableHlo.devRef_ne_of_ne (by decide : (main_arg8 : Ref sig .tc) ≠ main_v82) : (Proc.devRef .tc main_arg8 : DevRef τ sig) ≠ Proc.devRef .tc main_v82) _ _).symm)
  | ⟨2, _⟩ =>
    exact ((data3 (fun c (b : Ref sig .tc) => W c b) c).arrAt_in 2 rfl _).trans ((arrays3 (fun c (b : Ref sig .tc) => W c b) c 2).trans
      (Function.update_of_ne (StableHlo.devRef_ne_of_ne (by decide : (main_arg9 : Ref sig .tc) ≠ main_v82) : (Proc.devRef .tc main_arg9 : DevRef τ sig) ≠ Proc.devRef .tc main_v82) _ _).symm)
  | ⟨3, _⟩ =>
    exact ((data3 (fun c (b : Ref sig .tc) => W c b) c).arrAt_in 3 rfl _).trans ((arrays3 (fun c (b : Ref sig .tc) => W c b) c 3).trans
      (Function.update_of_ne (StableHlo.devRef_ne_of_ne (by decide : (main_arg10 : Ref sig .tc) ≠ main_v82) : (Proc.devRef .tc main_arg10 : DevRef τ sig) ≠ Proc.devRef .tc main_v82) _ _).symm)
  | ⟨4, _⟩ =>
    exact ((data3 (fun c (b : Ref sig .tc) => W c b) c).arrAt_in 4 rfl _).trans ((arrays3 (fun c (b : Ref sig .tc) => W c b) c 4).trans
      (Function.update_of_ne (StableHlo.devRef_ne_of_ne (by decide : (main_arg11 : Ref sig .tc) ≠ main_v82) : (Proc.devRef .tc main_arg11 : DevRef τ sig) ≠ Proc.devRef .tc main_v82) _ _).symm)
  | ⟨5, _⟩ =>
    show _ = Function.update (W c) (Proc.devRef .tc main_v82) (o c) (Proc.devRef .tc main_v82)
    rw [Function.update_self]; exact (ho c).symm

variable (hfit : Fits m outs)

include hfit in
theorem out0_at (c : Dev nD) : V4 m outs c main_v33 = (pdats m outs 0 c).arrAt 2 cfg0.N := by
  dsimp only [V4]
  rw [Function.update_self]
  exact hfit.first c
include hfit in
theorem out1_at (c : Dev nD) : V8 m outs c main_v52 = (pdats m outs 1 c).arrAt 2 cfg1.N := by
  dsimp only [V8]
  rw [Function.update_self]
  exact hfit.second c
include hfit in
theorem out2_at (c : Dev nD) : V17 m outs c main_v76 = (pdats m outs 2 c).arrAt 2 cfg2.N := by
  dsimp only [V17]
  rw [Function.update_self]
  exact hfit.pooled c
include hfit in
theorem out3_at (c : Dev nD) : V19 m outs c main_v82 = (pdats m outs 3 c).arrAt 5 cfg3.N := by
  dsimp only [V19]
  rw [Function.update_self]
  exact hfit.logits c

include hfit in
/-- Region 0's exit contents at its arrays, -/
theorem exit0_arrays (c : Dev nD) (w : Fin cfg0.W) :
    (pdats m outs 0 c).arrAt w cfg0.N = V4 m outs c (Pipeline.arrRef spec0 w) :=
  exit0_any (fun c => V3 m c) (fun c => outs 4 main_v33 c) hfit.first c w
/-- and at every other buffer: what it held at entry. -/
theorem exit0_rest (c : Dev nD) : ∀ b, b ∉ Finset.univ.image (Pipeline.arrRef spec0) → V4 m outs c b = V3 m c b :=
  fun b hb => V4_of m outs c b (by
    intro h; rw [List.mem_singleton] at h; subst h
    exact hb (Finset.mem_image.mpr ⟨2, Finset.mem_univ _, rfl⟩))

include hfit in
/-- Region 1's exit contents at its arrays, -/
theorem exit1_arrays (c : Dev nD) (w : Fin cfg1.W) :
    (pdats m outs 1 c).arrAt w cfg1.N = V8 m outs c (Pipeline.arrRef spec1 w) :=
  exit1_any (fun c => V7 m outs c) (fun c => outs 8 main_v52 c) hfit.second c w
/-- and at every other buffer: what it held at entry. -/
theorem exit1_rest (c : Dev nD) : ∀ b, b ∉ Finset.univ.image (Pipeline.arrRef spec1) → V8 m outs c b = V7 m outs c b :=
  fun b hb => V8_of m outs c b (by
    intro h; rw [List.mem_singleton] at h; subst h
    exact hb (Finset.mem_image.mpr ⟨2, Finset.mem_univ _, rfl⟩))

include hfit in
/-- Region 2's exit contents at its arrays, -/
theorem exit2_arrays (c : Dev nD) (w : Fin cfg2.W) :
    (pdats m outs 2 c).arrAt w cfg2.N = V17 m outs c (Pipeline.arrRef spec2 w) :=
  exit2_any (fun c => V16 m outs c) (fun c => outs 17 main_v76 c) hfit.pooled c w
/-- and at every other buffer: what it held at entry. -/
theorem exit2_rest (c : Dev nD) : ∀ b, b ∉ Finset.univ.image (Pipeline.arrRef spec2) → V17 m outs c b = V16 m outs c b :=
  fun b hb => V17_of m outs c b (by
    intro h; rw [List.mem_singleton] at h; subst h
    exact hb (Finset.mem_image.mpr ⟨2, Finset.mem_univ _, rfl⟩))

include hfit in
/-- Region 3's exit contents at its arrays, -/
theorem exit3_arrays (c : Dev nD) (w : Fin cfg3.W) :
    (pdats m outs 3 c).arrAt w cfg3.N = V19 m outs c (Pipeline.arrRef spec3 w) :=
  exit3_any (fun c => V18 m outs c) (fun c => outs 19 main_v82 c) hfit.logits c w
/-- and at every other buffer: what it held at entry. -/
theorem exit3_rest (c : Dev nD) : ∀ b, b ∉ Finset.univ.image (Pipeline.arrRef spec3) → V19 m outs c b = V18 m outs c b :=
  fun b hb => V19_of m outs c b (by
    intro h; rw [List.mem_singleton] at h; subst h
    exact hb (Finset.mem_image.mpr ⟨5, Finset.mem_univ _, rfl⟩))

/-! ## The regions as segments -/

/-- No core owes another anything: no level is assigned. -/
abbrev noLevels : GSem nD τ sig → Finset Unit := fun _ => ∅
abbrev noLevel : GSem nD τ sig → Unit → ℕ := fun _ _ => 0
/-- What rides beside the buffers through every item: the generator register at some state, the core owing nothing. -/
abbrev riding (c : Dev nD) : sProp 𝕄 := iprop((∃ r, prngReg c r) ∗ ∃ W, owes (c : Thread nD τ) (0 : CellTallies nD τ sig Unit) W)

set_option backward.isDefEq.respectTransparency.types false in
/-- Region 0 over the thread state: entered from every unscoped buffer at its entry contents, left at its exit
    contents; its arrays split out of the unscoped buffers and put back; the generator register into the invariant and
    out; nothing owed; no semaphore of the kernel's own. -/
def region0 : Pipeline.RegionSeg (pcfgs (F := F)) adm (pdats m outs) () defs₀ Variants.none noLevels noLevel 0 where
  win := launch0.win.to₀
  block_pos := launch0.block_pos
  stage_whole := launch0.stage_whole
  K := PEmpty
  osem k := k.elim
  ho := Pipeline.OwnSemFacts.none _
  hbody c := (obligation0 (in0 m) c).loose
  hwaits := Pipeline.hwaits_of_owed_zero _ _ _ _ noLevels noLevel 0 fun _ _ => rfl
  pre c := iprop(StableHlo.held (c : Thread nD τ) (Pipeline.ucRefs τ sig) (V3 m c) ∗ riding c)
  post c := iprop(StableHlo.held (c : Thread nD τ) (Pipeline.ucRefs τ sig) (V4 m outs c) ∗ riding c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (in0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (in0 m c) (fun b => V4 m outs c b) ((pdats m outs 0 c).arrAt · cfg0.N) (exit0_arrays m outs hfit c) (exit0_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit
    contents; its arrays split out of the unscoped buffers and put back; the generator register into the invariant and
    out; nothing owed; no semaphore of the kernel's own. -/
def region1 : Pipeline.RegionSeg (pcfgs (F := F)) adm (pdats m outs) () defs₀ Variants.none noLevels noLevel 1 where
  win := launch1.win.to₀
  block_pos := launch1.block_pos
  stage_whole := launch1.stage_whole
  K := PEmpty
  osem k := k.elim
  ho := Pipeline.OwnSemFacts.none _
  hbody c := (obligation1 (in1 m outs) c).loose
  hwaits := Pipeline.hwaits_of_owed_zero _ _ _ _ noLevels noLevel 1 fun _ _ => rfl
  pre c := iprop(StableHlo.held (c : Thread nD τ) (Pipeline.ucRefs τ sig) (V7 m outs c) ∗ riding c)
  post c := iprop(StableHlo.held (c : Thread nD τ) (Pipeline.ucRefs τ sig) (V8 m outs c) ∗ riding c)
  X c := iprop(∃ r, prngReg c r)
  Y c := iprop(∃ r, prngReg c r)
  Z c := Pipeline.unscopedRest (Ix := Unit) (Name := ℕ) (U := UR sig nD τ) (Lvl := ℕ) spec1 c (in1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (in1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (in1 m outs c) (fun b => V8 m outs c b) ((pdats m outs 1 c).arrAt · cfg1.N) (exit1_arrays m outs hfit c) (exit1_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left at its exit
    contents; its arrays split out of the unscoped buffers and put back; the generator register into the invariant and
    out; nothing owed; no semaphore of the kernel's own. -/
def region2 : Pipeline.RegionSeg (pcfgs (F := F)) adm (pdats m outs) () defs₀ Variants.none noLevels noLevel 2 where
  win := launch2.win.to₀
  block_pos := launch2.block_pos
  stage_whole := launch2.stage_whole
  K := PEmpty
  osem k := k.elim
  ho := Pipeline.OwnSemFacts.none _
  hbody c := (obligation2 (in2 m outs) c).loose
  hwaits := Pipeline.hwaits_of_owed_zero _ _ _ _ noLevels noLevel 2 fun _ _ => rfl
  pre c := iprop(StableHlo.held (c : Thread nD τ) (Pipeline.ucRefs τ sig) (V16 m outs c) ∗ riding c)
  post c := iprop(StableHlo.held (c : Thread nD τ) (Pipeline.ucRefs τ sig) (V17 m outs c) ∗ riding c)
  X c := iprop(∃ r, prngReg c r)
  Y c := iprop(∃ r, prngReg c r)
  Z c := Pipeline.unscopedRest (Ix := Unit) (Name := ℕ) (U := UR sig nD τ) (Lvl := ℕ) spec2 c (in2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (in2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (enter2 (in2 m outs) c)
    unfold Pipeline.ΦA
    iintro ⟨Hp, -, Hr⟩
    isplitl [Hr]; · iexact Hr
    iexact Hp
  hout c := by
    rw [Pipeline.ownSems0_none]
    refine (leave2 (in2 m outs) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (in2 m outs c) (fun b => V17 m outs c b) ((pdats m outs 2 c).arrAt · cfg2.N) (exit2_arrays m outs hfit c) (exit2_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at its entry contents, left at its exit
    contents; its arrays split out of the unscoped buffers and put back; the generator register into the invariant and
    out; nothing owed; no semaphore of the kernel's own. -/
def region3 : Pipeline.RegionSeg (pcfgs (F := F)) adm (pdats m outs) () defs₀ Variants.none noLevels noLevel 3 where
  win := launch3.win.to₀
  block_pos := launch3.block_pos
  stage_whole := launch3.stage_whole
  K := PEmpty
  osem k := k.elim
  ho := Pipeline.OwnSemFacts.none _
  hbody c := (obligation3 (in3 m outs) c).loose
  hwaits := Pipeline.hwaits_of_owed_zero _ _ _ _ noLevels noLevel 3 fun _ _ => rfl
  pre c := iprop(StableHlo.held (c : Thread nD τ) (Pipeline.ucRefs τ sig) (V18 m outs c) ∗ riding c)
  post c := iprop(StableHlo.held (c : Thread nD τ) (Pipeline.ucRefs τ sig) (V19 m outs c) ∗ riding c)
  X c := iprop(∃ r, prngReg c r)
  Y c := iprop(∃ r, prngReg c r)
  Z c := Pipeline.unscopedRest (Ix := Unit) (Name := ℕ) (U := UR sig nD τ) (Lvl := ℕ) spec3 c (in3 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (in3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (in3 m outs c) (fun b => V19 m outs c b) ((pdats m outs 3 c).arrAt · cfg3.N) (exit3_arrays m outs hfit c) (exit3_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The runs -/

variable (ρ : Dev nD → PrngReg)

include hfit in
-- the launch theorem's implicit arguments are found by unifying its conclusion with this one, which takes unfolding
-- plain definitions in a metavariable's type
set_option backward.isDefEq.respectTransparency.types false in
/-- From any launch memory with zero counters every weakly fair execution of @main terminates, nothing faulting, and
    the final memory holds every unscoped buffer at the last contents of the chain: the launch over the nineteen
    items, each host stretch applying its operations, each region entered and left through its record. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V19 m outs c b) := by
  refine Pipeline.θ_run_regions_kit_dev (pcfgs (F := F)) adm (pdats m outs) () cellOf_inj emb₁ defs₀ Variants.none noLevels noLevel m ρ main
    (segs m outs Variants.none noLevels noLevel (fun _ c => riding c) () (pdats m outs) (region0 m outs hfit) (region1 m outs hfit) (region2 m outs hfit) (region3 m outs hfit))
    (fun c Q => by
      rewrite [main_chain c, Seg.run_eq_chain,
        show ((segs m outs Variants.none noLevels noLevel (fun _ c => riding c) () (pdats m outs) (region0 m outs hfit) (region1 m outs hfit) (region2 m outs hfit) (region3 m outs hfit)) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ riding c))
    (Tₙ := fun c => StableHlo.held (c : Thread nD τ) (Pipeline.ucRefs τ sig) (V19 m outs c))
    (hch := fun c => ⟨.rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := ?_) (QY := fun c s => ∀ b ∈ Pipeline.ucRefs τ sig, s.mem ((c : Thread nD τ).1, b) = V19 m outs c b)
    (hfin := fun c s' => ?_) (hQ := fun _ h => h)
  · -- the launch, core by core: the unscoped buffers are held at the launch contents; the generator register and
    -- the core's dues ride along
    refine Pipeline.initEach noLevels noLevel fun c => ?_
    rw [show unscopedBufs c (fun b => m ((c.tc : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    unfold StableHlo.held
    iintro ⟨Hh, HSI⟩
    ihave Hr := (pointsTo_read_all (Pipeline.ucRefs τ sig) (fun b => ((c : Thread nD τ).1, b)) (V19 m outs c) s') $$ [Hh HSI]
    · isplitl [Hh] <;> iassumption
    icases Hr with ⟨%h, HSI⟩
    imodintro
    isplitr
    · ipureintro
      exact h
    · iexact HSI

/-- An unscoped TensorCore reference is among those the thread state holds. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hfit in
/-- The result: the logits' buffer ends at what the last region leaves, and the arguments as launched (no item of
    @main writes an argument). -/
theorem result_of : θ_run defs (onTc (τ := τ) (main (F := F))) ⟨m, fun _ => 0, ρ⟩ (fun r => ∀ c : Dev nD,
      r.2.mem ((c.tc : Thread nD τ).loc main_v82) = (data3 (in3 m outs) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (held_ref main_v82 (by decide))).trans (out3_at m outs hfit c),
    (h c _ (held_ref main_arg0 (by decide))).trans (V19_main_arg0 m outs c),
    (h c _ (held_ref main_arg1 (by decide))).trans (V19_main_arg1 m outs c),
    (h c _ (held_ref main_arg2 (by decide))).trans (V19_main_arg2 m outs c),
    (h c _ (held_ref main_arg3 (by decide))).trans (V19_main_arg3 m outs c),
    (h c _ (held_ref main_arg4 (by decide))).trans (V19_main_arg4 m outs c),
    (h c _ (held_ref main_arg5 (by decide))).trans (V19_main_arg5 m outs c),
    (h c _ (held_ref main_arg6 (by decide))).trans (V19_main_arg6 m outs c),
    (h c _ (held_ref main_arg7 (by decide))).trans (V19_main_arg7 m outs c),
    (h c _ (held_ref main_arg8 (by decide))).trans (V19_main_arg8 m outs c),
    (h c _ (held_ref main_arg9 (by decide))).trans (V19_main_arg9 m outs c),
    (h c _ (held_ref main_arg10 (by decide))).trans (V19_main_arg10 m outs c),
    (h c _ (held_ref main_arg11 (by decide))).trans (V19_main_arg11 m outs c)⟩) (run_all m outs hfit ρ)

/-! ## Fitting contents exist -/

section Staged

/-- The contents region 1 is entered with read the regions' leavings only at the first product, -/
theorem V7_congr (o o' : Outs (F := F)) (h : ∀ c, o 4 main_v33 c = o' 4 main_v33 c) (c : Dev nD) : V7 m o c = V7 m o' c := by
  show StableHlo.after hostOps1_2 (StableHlo.after hostOps1_1 (StableHlo.after hostOps1 (Function.update (V3 m c) main_v33 (o 4 main_v33 c)))) = _
  rw [h c]
/-- region 2's only at the two products, -/
theorem V16_congr (o o' : Outs (F := F)) (h : ∀ c, o 4 main_v33 c = o' 4 main_v33 c) (h' : ∀ c, o 8 main_v52 c = o' 8 main_v52 c) (c : Dev nD) :
    V16 m o c = V16 m o' c := by
  show StableHlo.after hostOps2_7 (StableHlo.after hostOps2_6 (StableHlo.after hostOps2_5 (StableHlo.after hostOps2_4 (StableHlo.after hostOps2_3
    (StableHlo.after hostOps2_2 (StableHlo.after hostOps2_1 (StableHlo.after hostOps2 (Function.update (V7 m o c) main_v52 (o 8 main_v52 c))))))))) = _
  rw [V7_congr m o o' h c, h' c]
/-- region 3's only at the two products and the pooled sums. -/
theorem V18_congr (o o' : Outs (F := F)) (h : ∀ c, o 4 main_v33 c = o' 4 main_v33 c) (h' : ∀ c, o 8 main_v52 c = o' 8 main_v52 c)
    (h'' : ∀ c, o 17 main_v76 c = o' 17 main_v76 c) (c : Dev nD) : V18 m o c = V18 m o' c := by
  show StableHlo.after hostOps3 (Function.update (V16 m o c) main_v76 (o 17 main_v76 c)) = _
  rw [V16_congr m o o' h h' c, h'' c]
theorem in1_congr (o o' : Outs (F := F)) (h : ∀ c, o 4 main_v33 c = o' 4 main_v33 c) : in1 m o = in1 m o' := by
  funext c b; show V7 m o c b = V7 m o' c b; rw [V7_congr m o o' h c]
theorem in2_congr (o o' : Outs (F := F)) (h : ∀ c, o 4 main_v33 c = o' 4 main_v33 c) (h' : ∀ c, o 8 main_v52 c = o' 8 main_v52 c) :
    in2 m o = in2 m o' := by
  funext c b; show V16 m o c b = V16 m o' c b; rw [V16_congr m o o' h h' c]
theorem in3_congr (o o' : Outs (F := F)) (h : ∀ c, o 4 main_v33 c = o' 4 main_v33 c) (h' : ∀ c, o 8 main_v52 c = o' 8 main_v52 c)
    (h'' : ∀ c, o 17 main_v76 c = o' 17 main_v76 c) : in3 m o = in3 m o' := by
  funext c b; show V18 m o c b = V18 m o' c b; rw [V18_congr m o o' h h' h'' c]

/-- The regions' leavings built in order: each region's output from the contents it is entered with, which read only
    what the regions before it left. -/
def stage1 : Outs (F := F) := fun _ r c => Function.update (V3 m c) main_v33 ((data0 (in0 m) c).arrAt 2 cfg0.N) r
def stage2 : Outs (F := F) := fun J r c =>
  if J = 4 then stage1 m J r c else Function.update (V7 m (stage1 m) c) main_v52 ((data1 (in1 m (stage1 m)) c).arrAt 2 cfg1.N) r
def stage3 : Outs (F := F) := fun J r c =>
  if J = 4 ∨ J = 8 then stage2 m J r c else Function.update (V16 m (stage2 m) c) main_v76 ((data2 (in2 m (stage2 m)) c).arrAt 2 cfg2.N) r
def stage4 : Outs (F := F) := fun J r c =>
  if J = 4 ∨ J = 8 ∨ J = 17 then stage3 m J r c else Function.update (V18 m (stage3 m) c) main_v82 ((data3 (in3 m (stage3 m)) c).arrAt 5 cfg3.N) r

theorem stage1_first (c : Dev nD) : stage1 m 4 main_v33 c = (data0 (in0 m) c).arrAt 2 cfg0.N := by
  unfold stage1; rw [Function.update_self]
theorem stage2_first (c : Dev nD) : stage2 m 4 main_v33 c = stage1 m 4 main_v33 c := by
  unfold stage2; rw [if_pos rfl]
theorem stage2_second (c : Dev nD) : stage2 m 8 main_v52 c = (data1 (in1 m (stage1 m)) c).arrAt 2 cfg1.N := by
  unfold stage2; rw [if_neg (by decide), Function.update_self]
theorem stage3_first (c : Dev nD) : stage3 m 4 main_v33 c = stage2 m 4 main_v33 c := by
  unfold stage3; rw [if_pos (Or.inl rfl)]
theorem stage3_second (c : Dev nD) : stage3 m 8 main_v52 c = stage2 m 8 main_v52 c := by
  unfold stage3; rw [if_pos (Or.inr rfl)]
theorem stage3_pooled (c : Dev nD) : stage3 m 17 main_v76 c = (data2 (in2 m (stage2 m)) c).arrAt 2 cfg2.N := by
  unfold stage3; rw [if_neg (by decide), Function.update_self]
theorem stage4_first (c : Dev nD) : stage4 m 4 main_v33 c = stage3 m 4 main_v33 c := by
  unfold stage4; rw [if_pos (Or.inl rfl)]
theorem stage4_second (c : Dev nD) : stage4 m 8 main_v52 c = stage3 m 8 main_v52 c := by
  unfold stage4; rw [if_pos (Or.inr (Or.inl rfl))]
theorem stage4_pooled (c : Dev nD) : stage4 m 17 main_v76 c = stage3 m 17 main_v76 c := by
  unfold stage4; rw [if_pos (Or.inr (Or.inr rfl))]
theorem stage4_logits (c : Dev nD) : stage4 m 19 main_v82 c = (data3 (in3 m (stage3 m)) c).arrAt 5 cfg3.N := by
  unfold stage4; rw [if_neg (by decide), Function.update_self]

/-- The contents built in order fit. -/
theorem stage4_fits : Fits m (stage4 m) where
  first c := (stage4_first m c).trans ((stage3_first m c).trans ((stage2_first m c).trans (stage1_first m c)))
  second c := by
    rw [in1_congr m (stage4 m) (stage1 m) fun c => (stage4_first m c).trans ((stage3_first m c).trans (stage2_first m c))]
    exact (stage4_second m c).trans ((stage3_second m c).trans (stage2_second m c))
  pooled c := by
    rw [in2_congr m (stage4 m) (stage2 m) (fun c => (stage4_first m c).trans (stage3_first m c))
      (fun c => (stage4_second m c).trans (stage3_second m c))]
    exact (stage4_pooled m c).trans (stage3_pooled m c)
  logits c := by
    rw [in3_congr m (stage4 m) (stage3 m) (stage4_first m) (stage4_second m) (stage4_pooled m)]
    exact stage4_logits m c

end Staged

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (result_of m (stage4 m) (stage4_fits m) ρ)

end Cert.KernelIdeal.Hand

end
-- ==== Proof.Word.Dense0.lean ====
/-
  The first dense layer's product, one pallas_call on a grid of 25 row blocks: at block t the body
  loads 2000 rows of the left operand and the whole 128 x 128 right operand, multiplies them into a zero
  accumulator and stores the 2000 x 128 product into the output block. Stated at any contents V of the core's
  buffers at the region's entry: the blocks the body finds, what it leaves in the output's staging buffer, its
  triple, the pipeline's proof data and the body obligation at every grid point.
-/
import proofs.«405348_j60988535603684_1_alg».proof.Proof.Gen.Kernel.Launch
import proofs.«405348_j60988535603684_1_alg».proof.Proof.Gen.Kernel.Skeleton
import proofs.«405348_j60988535603684_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks the body finds -/

/-- Window w's block at grid point t, read off its array as the region finds it. -/
def block0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its row block at every point. -/
theorem found0_0_of {c : Dev nD} (dat : Dat τ (Elt F) Unit ℕ (UR sig nD τ) ℕ cfg0 c) (hA : dat.A 0 = V c (Pipeline.arrRef spec0 0))
    (hafter : ∀ t, dat.after 0 t = block0 V c 0 t) (t : Fin cfg0.N) (d) : dat.before 0 t d = block0 V c 0 t :=
  (dat.before_in_eq_fetched 0 rfl (fun _ => rfl) (fun _ _ _ => rfl) (fun t => by rw [hafter]; unfold Dat.blockOf block0; rw [hA]; try rfl) t d).trans
    (by unfold Dat.fetched Dat.blockOf block0; rw [hA]; try rfl)

/-- The right operand's staging buffer holds the whole matrix at every point, although it is fetched at the first only:
    its block index never moves. -/
theorem found0_1_of {c : Dev nD} (dat : Dat τ (Elt F) Unit ℕ (UR sig nD τ) ℕ cfg0 c) (hA : dat.A 1 = V c (Pipeline.arrRef spec0 1))
    (hafter : ∀ t, dat.after 1 t = block0 V c 1 t) (t : Fin cfg0.N) (d) : dat.before 1 t d = block0 V c 1 t :=
  (dat.before_in_eq_fetched 1 rfl (fun _ => rfl) (fun _ _ _ => rfl) (fun t => by rw [hafter]; unfold Dat.blockOf block0; rw [hA]; try rfl) t d).trans
    (by unfold Dat.fetched Dat.blockOf block0; rw [hA]; try rfl)

/-! ## What the body leaves in the output's staging buffer -/

abbrev rows0 : Rect S2000x128 := Rect.unit (s := S2000x128) ![0, 0] S2000x128.size inb_S2000x128_S2000x128_0_0
abbrev weights0 : Rect S128x128 := Rect.unit (s := S128x128) ![0, 0] S128x128.size inb_S128x128_S128x128_0_0

/-- The one store, of the product of the two loaded blocks, as the buffer's contents. -/
def product0 (x : Vec F S2000x128 .f32) (w : Vec F S128x128 .f32) : Vec F S2000x128 .f32 :=
  View.canon [⟨rows0, k0_pay1 (View.ld x rows0) (View.ld w weights0)⟩]

/-- The store's rectangle is the whole buffer. -/
theorem product_covers0 (p : Vec F S2000x128 .f32) (y : S2000x128.Idx) :
    ∃ pc ∈ ([⟨rows0, p⟩] : List (View.Piece (Elt F) S2000x128 .f32)), y ∈ pc.1.set :=
  View.cover_of_tiled [⟨rows0, p⟩] S2000x128.size (by rfl) y

/-! ## The body's triple -/

set_option maxHeartbeats 1000000 in
/-- On whole staging memrefs, the operands' at contents x and w and the output's at anything, the body runs to the
    continuation with the operands' as they were and the output's at the product. -/
theorem run_matmul0 (c : Dev nD) (E : Set ℕ) (i : grid0.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x : Vec F S2000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (product0 x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (product_covers0 _)

/-! ## The pipeline's proof data -/

/-- The arrays as the region finds them; after the body at point t each operand's buffer at its block and the
    output's at the product of the two; the scoped rest and the generator register untouched; nothing owed. -/
def data0 (c : Dev nD) : Dat τ (Elt F) Unit ℕ (UR sig nD τ) ℕ cfg0 c where
  A w := V c (Pipeline.arrRef spec0 w)
  after w t := match w with
    | ⟨0, _⟩ => block0 V c 0 t
    | ⟨1, _⟩ => block0 V c 1 t
    | ⟨2, _⟩ => product0 (block0 V c 0 t) (block0 V c 1 t)
  Φ _ := Pipeline.ΦA spec0 c
  q _ := fullShare
  owed _ := 0

theorem arrays0 (c : Dev nD) (w : Fin cfg0.W) : (data0 V c).A w = V c (Pipeline.arrRef spec0 w) := by
  dsimp only [data0]

theorem left0_0 (c : Dev nD) (t : Fin cfg0.N) : (data0 V c).after 0 t = block0 V c 0 t := by dsimp only [data0]
theorem left0_1 (c : Dev nD) (t : Fin cfg0.N) : (data0 V c).after 1 t = block0 V c 1 t := by dsimp only [data0]
theorem left0_2 (c : Dev nD) (t : Fin cfg0.N) :
    (data0 V c).after 2 t = product0 (block0 V c 0 t) (block0 V c 1 t) := by dsimp only [data0]

theorem found0_0 (c : Dev nD) (t : Fin cfg0.N) (d) : (data0 V c).before 0 t d = block0 V c 0 t :=
  found0_0_of V (data0 V c) (arrays0 V c 0) (left0_0 V c) t d
theorem found0_1 (c : Dev nD) (t : Fin cfg0.N) (d) : (data0 V c).before 1 t d = block0 V c 1 t :=
  found0_1_of V (data0 V c) (arrays0 V c 1) (left0_1 V c) t d

/-! ## The body obligation, at a generic point -/

def bodyPre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d)))

def bodyPost0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t))

/-- The body at any point: the operands' memrefs hold their blocks, so the triple applies; the invariant and the
    core's dues pass through unread. -/
theorem body_at0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1]
  rw [show (data0 V c).Φ t.succ = (data0 V c).Φ t.castSucc from rfl,
    show (data0 V c).owesAt () t.succ = (data0 V c).owesAt () t.castSucc from rfl,
    left0_0, left0_1, left0_2]
  iintro ⟨HΦ, Ho, ⟨%d0, H0⟩, ⟨%d1, H1⟩, ⟨%d2, H2⟩⟩
  iapply (run_matmul0 c Set.univ _ _ _ _ _ _ _ (block0 V c 0 t) (block0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation0 (c : Dev nD) : BodyObligation (data0 (F := F) V c) (defs₀ (F := F)) Variants.none () Set.univ := fun t => by
  rw [bigSep_W0, bigSep_W0]
  exact body_at0 V c t

end Cert.Kernel.Hand

end
-- ==== Proof.Word.Dense1.lean ====
/-
  The second dense layer's product, one pallas_call on a grid of 25 row blocks: at block t the body
  loads 2000 rows of the left operand and the whole 128 x 128 right operand, multiplies them into a zero
  accumulator and stores the 2000 x 128 product into the output block. Stated at any contents V of the core's
  buffers at the region's entry: the blocks the body finds, what it leaves in the output's staging buffer, its
  triple, the pipeline's proof data and the body obligation at every grid point.
-/
import proofs.«405348_j60988535603684_1_alg».proof.Proof.Gen.Kernel.Launch
import proofs.«405348_j60988535603684_1_alg».proof.Proof.Gen.Kernel.Skeleton
import proofs.«405348_j60988535603684_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks the body finds -/

/-- Window w's block at grid point t, read off its array as the region finds it. -/
def block1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its row block at every point. -/
theorem found1_0_of {c : Dev nD} (dat : Dat τ (Elt F) Unit ℕ (UR sig nD τ) ℕ cfg1 c) (hA : dat.A 0 = V c (Pipeline.arrRef spec1 0))
    (hafter : ∀ t, dat.after 0 t = block1 V c 0 t) (t : Fin cfg1.N) (d) : dat.before 0 t d = block1 V c 0 t :=
  (dat.before_in_eq_fetched 0 rfl (fun _ => rfl) (fun _ _ _ => rfl) (fun t => by rw [hafter]; unfold Dat.blockOf block1; rw [hA]; try rfl) t d).trans
    (by unfold Dat.fetched Dat.blockOf block1; rw [hA]; try rfl)

/-- The right operand's staging buffer holds the whole matrix at every point, although it is fetched at the first only:
    its block index never moves. -/
theorem found1_1_of {c : Dev nD} (dat : Dat τ (Elt F) Unit ℕ (UR sig nD τ) ℕ cfg1 c) (hA : dat.A 1 = V c (Pipeline.arrRef spec1 1))
    (hafter : ∀ t, dat.after 1 t = block1 V c 1 t) (t : Fin cfg1.N) (d) : dat.before 1 t d = block1 V c 1 t :=
  (dat.before_in_eq_fetched 1 rfl (fun _ => rfl) (fun _ _ _ => rfl) (fun t => by rw [hafter]; unfold Dat.blockOf block1; rw [hA]; try rfl) t d).trans
    (by unfold Dat.fetched Dat.blockOf block1; rw [hA]; try rfl)

/-! ## What the body leaves in the output's staging buffer -/

abbrev rows1 : Rect S2000x128 := Rect.unit (s := S2000x128) ![0, 0] S2000x128.size inb_S2000x128_S2000x128_0_0
abbrev weights1 : Rect S128x128 := Rect.unit (s := S128x128) ![0, 0] S128x128.size inb_S128x128_S128x128_0_0

/-- The one store, of the product of the two loaded blocks, as the buffer's contents. -/
def product1 (x : Vec F S2000x128 .f32) (w : Vec F S128x128 .f32) : Vec F S2000x128 .f32 :=
  View.canon [⟨rows1, k1_pay1 (View.ld x rows1) (View.ld w weights1)⟩]

/-- The store's rectangle is the whole buffer. -/
theorem product_covers1 (p : Vec F S2000x128 .f32) (y : S2000x128.Idx) :
    ∃ pc ∈ ([⟨rows1, p⟩] : List (View.Piece (Elt F) S2000x128 .f32)), y ∈ pc.1.set :=
  View.cover_of_tiled [⟨rows1, p⟩] S2000x128.size (by rfl) y

/-! ## The body's triple -/

set_option maxHeartbeats 1000000 in
/-- On whole staging memrefs, the operands' at contents x and w and the output's at anything, the body runs to the
    continuation with the operands' as they were and the output's at the product. -/
theorem run_matmul1 (c : Dev nD) (E : Set ℕ) (i : grid1.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x : Vec F S2000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (product1 x w)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (product_covers1 _)

/-! ## The pipeline's proof data -/

/-- The arrays as the region finds them; after the body at point t each operand's buffer at its block and the
    output's at the product of the two; the scoped rest and the generator register untouched; nothing owed. -/
def data1 (c : Dev nD) : Dat τ (Elt F) Unit ℕ (UR sig nD τ) ℕ cfg1 c where
  A w := V c (Pipeline.arrRef spec1 w)
  after w t := match w with
    | ⟨0, _⟩ => block1 V c 0 t
    | ⟨1, _⟩ => block1 V c 1 t
    | ⟨2, _⟩ => product1 (block1 V c 0 t) (block1 V c 1 t)
  Φ _ := Pipeline.ΦA spec1 c
  q _ := fullShare
  owed _ := 0

theorem arrays1 (c : Dev nD) (w : Fin cfg1.W) : (data1 V c).A w = V c (Pipeline.arrRef spec1 w) := by
  dsimp only [data1]

theorem left1_0 (c : Dev nD) (t : Fin cfg1.N) : (data1 V c).after 0 t = block1 V c 0 t := by dsimp only [data1]
theorem left1_1 (c : Dev nD) (t : Fin cfg1.N) : (data1 V c).after 1 t = block1 V c 1 t := by dsimp only [data1]
theorem left1_2 (c : Dev nD) (t : Fin cfg1.N) :
    (data1 V c).after 2 t = product1 (block1 V c 0 t) (block1 V c 1 t) := by dsimp only [data1]

theorem found1_0 (c : Dev nD) (t : Fin cfg1.N) (d) : (data1 V c).before 0 t d = block1 V c 0 t :=
  found1_0_of V (data1 V c) (arrays1 V c 0) (left1_0 V c) t d
theorem found1_1 (c : Dev nD) (t : Fin cfg1.N) (d) : (data1 V c).before 1 t d = block1 V c 1 t :=
  found1_1_of V (data1 V c) (arrays1 V c 1) (left1_1 V c) t d

/-! ## The body obligation, at a generic point -/

def bodyPre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d)))

def bodyPost1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t))

/-- The body at any point: the operands' memrefs hold their blocks, so the triple applies; the invariant and the
    core's dues pass through unread. -/
theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1]
  rw [show (data1 V c).Φ t.succ = (data1 V c).Φ t.castSucc from rfl,
    show (data1 V c).owesAt () t.succ = (data1 V c).owesAt () t.castSucc from rfl,
    left1_0, left1_1, left1_2]
  iintro ⟨HΦ, Ho, ⟨%d0, H0⟩, ⟨%d1, H1⟩, ⟨%d2, H2⟩⟩
  iapply (run_matmul1 c Set.univ _ _ _ _ _ _ _ (block1 V c 0 t) (block1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation1 (c : Dev nD) : BodyObligation (data1 (F := F) V c) (defs₀ (F := F)) Variants.none () Set.univ := fun t => by
  rw [bigSep_W1, bigSep_W1]
  exact body_at1 V c t

end Cert.Kernel.Hand

end
-- ==== Proof.Word.Pool.lean ====
/-
  The pooling layer, one pallas_call on a grid of 25 column blocks: at block t the body loads 2048 columns of the
  100 x 51200 one-hot assignment matrix and the matching 2048 rows of the node features, and adds their 100 x 128
  product to an accumulator kept in a scratch buffer across the grid — zeroed at the first block, copied into the
  output's staging buffer at the last, which alone is written back. Stated at any contents V of the core's buffers
  at the region's entry: the blocks the body finds, the accumulator after each block by recursion on the block, the
  body's triple in each of its three control cases, the invariant that carries the accumulator from block to block,
  the pipeline's proof data, the body obligation at every grid point, and the invariant's two ends.
-/
import proofs.«405348_j60988535603684_1_alg».proof.Proof.Gen.Kernel.Launch
import proofs.«405348_j60988535603684_1_alg».proof.Proof.Gen.Kernel.Skeleton
import proofs.«405348_j60988535603684_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks the body finds -/

/-- Window w's block at grid point t, read off its array as the region finds it. -/
def block2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The one-hot matrix's staging buffer holds its column block at every point. -/
theorem found2_0_of {c : Dev nD} (dat : Dat τ (Elt F) Unit ℕ (UR sig nD τ) ℕ cfg2 c) (hA : dat.A 0 = V c (Pipeline.arrRef spec2 0))
    (hafter : ∀ t, dat.after 0 t = block2 V c 0 t) (t : Fin cfg2.N) (d) : dat.before 0 t d = block2 V c 0 t :=
  (dat.before_in_eq_fetched 0 rfl (fun _ => rfl) (fun _ _ _ => rfl) (fun t => by rw [hafter]; unfold Dat.blockOf block2; rw [hA]; try rfl) t d).trans
    (by unfold Dat.fetched Dat.blockOf block2; rw [hA]; try rfl)

/-- The node features' staging buffer holds its row block at every point. -/
theorem found2_1_of {c : Dev nD} (dat : Dat τ (Elt F) Unit ℕ (UR sig nD τ) ℕ cfg2 c) (hA : dat.A 1 = V c (Pipeline.arrRef spec2 1))
    (hafter : ∀ t, dat.after 1 t = block2 V c 1 t) (t : Fin cfg2.N) (d) : dat.before 1 t d = block2 V c 1 t :=
  (dat.before_in_eq_fetched 1 rfl (fun _ => rfl) (fun _ _ _ => rfl) (fun t => by rw [hafter]; unfold Dat.blockOf block2; rw [hA]; try rfl) t d).trans
    (by unfold Dat.fetched Dat.blockOf block2; rw [hA]; try rfl)

/-! ## Where the body branches, and where the output window rests -/

/-- The body resets the accumulator where the grid coordinate is zero, -/
abbrev first2 (i : grid2.Coords) : Prop :=
  (Scalar.cmpi .ne (Scalar.extui (Scalar.cmpi .eq (BitVec.ofNat 32 (i 0).val) 0#32)) 0#32) = 1#1
/-- and copies it out where the coordinate is 24. -/
abbrev last2 (i : grid2.Coords) : Prop := k2_cond2 i = 1#1

theorem first2_iff : ∀ t : Fin cfg2.N, first2 (grid2.coords t) ↔ t.val = 0 :=
  (by decide +kernel : ∀ t : Fin grid2.N, first2 (grid2.coords t) ↔ t.val = 0)
theorem last2_iff : ∀ t : Fin cfg2.N, last2 (grid2.coords t) ↔ t.val = 24 :=
  (by decide +kernel : ∀ t : Fin grid2.N, last2 (grid2.coords t) ↔ t.val = 24)

/-- The two operand windows are stored into nowhere and rest nowhere. -/
theorem live2_0 : ∀ t : Fin cfg2.N, cfg2.idle 0 (grid2.coords t) = false := by decide +kernel
theorem live2_1 : ∀ t : Fin cfg2.N, cfg2.idle 1 (grid2.coords t) = false := by decide +kernel
/-- Away from the last point the output window rests: nothing is stored into it and it is not written back; -/
theorem rests2_2 : ∀ t : Fin cfg2.N, ¬last2 (grid2.coords t) → cfg2.idle 2 (grid2.coords t) = true := by decide +kernel
theorem unflushed2_2 : ∀ t : Fin cfg2.N, ¬last2 (grid2.coords t) → (cfg2.win 2).flush t = false := by decide +kernel
/-- at the last point it is stored. -/
theorem live2_2 : ∀ t : Fin cfg2.N, last2 (grid2.coords t) → cfg2.idle 2 (grid2.coords t) = false := by decide +kernel

/-! ## Whole-buffer loads and stores -/

theorem origin2 : (![0, 0] : Fin 2 → ℕ) = fun _ => 0 := funext fun a => by fin_cases a <;> rfl

abbrev pool2 : Rect S100x128 := Rect.unit (s := S100x128) ![0, 0] S100x128.size inb_S100x128_S100x128_0_0
abbrev onehot2 : Rect S100x2048 := Rect.unit (s := S100x2048) ![0, 0] S100x2048.size inb_S100x2048_S100x2048_0_0
abbrev feats2 : Rect S2048x128 := Rect.unit (s := S2048x128) ![0, 0] S2048x128.size inb_S2048x128_S2048x128_0_0

/-- Every index of the accumulator's shape lies in the whole rectangle, -/
theorem inside2 (y : S100x128.Idx) : y ∈ pool2.set :=
  View.mem_set_unit_zero (S := S100x128) origin2 inb_S100x128_S100x128_0_0 y

/-- so a list of stores headed by one through it covers the buffer, -/
theorem covered2 (p : Vec F S100x128 .f32) (L : List (View.Piece (Elt F) S100x128 .f32)) (y : S100x128.Idx) :
    ∃ pc ∈ ((⟨pool2, p⟩ : View.Piece (Elt F) S100x128 .f32) :: L), y ∈ pc.1.set :=
  ⟨⟨pool2, p⟩, List.mem_cons_self, inside2 y⟩

/-- and that store, made last, leaves its payload as the buffer's contents. -/
theorem stored2 (v : View sig .tc .vmem S100x128 .f32) (f : v.ty.Contents (Elt F)) (p : Vec F S100x128 .f32)
    (L : List (View.Piece (Elt F) S100x128 .f32)) : v.read (Elt F) (v.writes (Elt F) f (⟨pool2, p⟩ :: L)) = p := by
  rw [View.read_writes_eq_canon _ _ _ (covered2 p L)]
  exact View.canon_cons_unit_zero (S := S100x128) origin2 inb_S100x128_S100x128_0_0 p L

/-- A load through the whole rectangle reads the buffer's contents. -/
theorem loaded2 {S : Shape} {e : EltTy} (v : View sig .tc .vmem S e) (f : v.ty.Contents (Elt F))
    {off : Fin S.rank → ℕ} (h : off = fun _ => 0) (inb : ∀ a, off a + S.size a ≤ S.size a) :
    View.readAt (Elt F) v (Rect.unit off S.size inb).toLoadRect f = v.read (Elt F) f :=
  (View.readAt_eq_ld v f _).trans (View.ld_unit_zero h inb _)

/-- The scratch operand, a whole scoped buffer of the kernel's own. -/
abbrev acc2 : Memref sig .tc .vmem S100x128 .f32 := Memref.whole cc2_scratch0

/-! ## The body's triples, one per control case -/

set_option maxHeartbeats 1000000 in
/-- At the first point: the accumulator, at anything, is zeroed and then takes the first product. -/
theorem run_first2 (c : Dev nD) (E : Set ℕ) (i : grid2.Coords) (hf : first2 i) (hl : ¬last2 i)
    (arg1 : Memref sig .tc .vmem S100x2048 .bf16) (harg1 : arg1.IsWhole)
    (arg2 : Memref sig .tc .vmem S2048x128 .f32) (harg2 : arg2.IsWhole)
    (arg3 : Memref sig .tc .vmem S100x128 .f32) (harg3 : arg3.IsWhole)
    (arg4 : Memref sig .tc .vmem S100x128 .f32) (harg4 : arg4.IsWhole)
    (x : Vec F S100x2048 .bf16) (w : Vec F S2048x128 .f32) (K : PUnit → sProp 𝕄) :
    iprop(owns (c : Thread nD τ) arg1 fullShare x ∗ owns (c : Thread nD τ) arg2 fullShare w
        ∗ (∃ d, owns (c : Thread nD τ) arg4 fullShare d)
        ∗ (iprop(owns (c : Thread nD τ) arg1 fullShare x ∗ owns (c : Thread nD τ) arg2 fullShare w
            ∗ owns (c : Thread nD τ) arg4 fullShare (k2_pay2 x w (k2_pay1 (F := F)))) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f1, %hf1, H1⟩, ⟨%f2, %hf2, H2⟩, ⟨%d4, %f4, -, H4⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  rw [stored2]; sl_unfold_run_names
  rw [View.readCov_unit_zero (S := S100x128) _ origin2, loaded2 (S := S100x2048) _ _ origin2, loaded2 (S := S2048x128) _ _ origin2]

set_option maxHeartbeats 1000000 in
/-- At a point neither first nor last: the accumulator at a takes the product on top of a. -/
theorem run_mid2 (c : Dev nD) (E : Set ℕ) (i : grid2.Coords) (hf : ¬first2 i) (hl : ¬last2 i)
    (arg1 : Memref sig .tc .vmem S100x2048 .bf16) (harg1 : arg1.IsWhole)
    (arg2 : Memref sig .tc .vmem S2048x128 .f32) (harg2 : arg2.IsWhole)
    (arg3 : Memref sig .tc .vmem S100x128 .f32) (harg3 : arg3.IsWhole)
    (arg4 : Memref sig .tc .vmem S100x128 .f32) (harg4 : arg4.IsWhole)
    (x : Vec F S100x2048 .bf16) (w : Vec F S2048x128 .f32) (a : Vec F S100x128 .f32) (K : PUnit → sProp 𝕄) :
    iprop(owns (c : Thread nD τ) arg1 fullShare x ∗ owns (c : Thread nD τ) arg2 fullShare w
        ∗ owns (c : Thread nD τ) arg4 fullShare a
        ∗ (iprop(owns (c : Thread nD τ) arg1 fullShare x ∗ owns (c : Thread nD τ) arg2 fullShare w
            ∗ owns (c : Thread nD τ) arg4 fullShare (k2_pay2 x w a)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f1, %hf1, H1⟩, ⟨%f2, %hf2, H2⟩, ⟨%f4, %hf4, H4⟩, Hk⟩
  subst hf1; subst hf2; subst hf4
  sl_exec
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  rw [stored2, loaded2 (S := S100x2048) _ _ origin2, loaded2 (S := S2048x128) _ _ origin2, loaded2 (S := S100x128) _ _ origin2]

set_option maxHeartbeats 1000000 in
/-- At the last point: the accumulator at a takes the product on top of a, and the output's buffer, at anything,
    takes a copy of the result. -/
theorem run_last2 (c : Dev nD) (E : Set ℕ) (i : grid2.Coords) (hf : ¬first2 i) (hl : last2 i)
    (arg1 : Memref sig .tc .vmem S100x2048 .bf16) (harg1 : arg1.IsWhole)
    (arg2 : Memref sig .tc .vmem S2048x128 .f32) (harg2 : arg2.IsWhole)
    (arg3 : Memref sig .tc .vmem S100x128 .f32) (harg3 : arg3.IsWhole)
    (arg4 : Memref sig .tc .vmem S100x128 .f32) (harg4 : arg4.IsWhole)
    (x : Vec F S100x2048 .bf16) (w : Vec F S2048x128 .f32) (a : Vec F S100x128 .f32) (K : PUnit → sProp 𝕄) :
    iprop(owns (c : Thread nD τ) arg1 fullShare x ∗ owns (c : Thread nD τ) arg2 fullShare w
        ∗ (∃ d, owns (c : Thread nD τ) arg3 fullShare d) ∗ owns (c : Thread nD τ) arg4 fullShare a
        ∗ (iprop(owns (c : Thread nD τ) arg1 fullShare x ∗ owns (c : Thread nD τ) arg2 fullShare w
            ∗ owns (c : Thread nD τ) arg3 fullShare (k2_pay2 x w a)
            ∗ owns (c : Thread nD τ) arg4 fullShare (k2_pay2 x w a)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [stored2]; sl_unfold_run_names
    rw [View.readCov_unit_zero (S := S100x128) _ origin2, loaded2 (S := S100x2048) _ _ origin2, loaded2 (S := S2048x128) _ _ origin2, loaded2 (S := S100x128) _ _ origin2]
  iexists _; isplitr
  swap; · iexact H4
  ipureintro
  sl_unfold_run_names
  rw [stored2, loaded2 (S := S100x2048) _ _ origin2, loaded2 (S := S2048x128) _ _ origin2, loaded2 (S := S100x128) _ _ origin2]

/-! ## The accumulator, point by point -/

/-- the scratch accumulator after grid point n -/
def pooled2 (c : Dev nD) : (n : ℕ) → n < cfg2.N → Vec F S100x128 .f32
  | 0, h => k2_pay2 (block2 V c 0 ⟨0, h⟩) (block2 V c 1 ⟨0, h⟩) (k2_pay1 (F := F))
  | n + 1, h => k2_pay2 (block2 V c 0 ⟨n + 1, h⟩) (block2 V c 1 ⟨n + 1, h⟩) (pooled2 c n (Nat.lt_of_succ_lt h))

theorem pooled2_first (c : Dev nD) (t : Fin cfg2.N) (h : t.val = 0) :
    pooled2 V c t.val t.isLt = k2_pay2 (block2 V c 0 t) (block2 V c 1 t) (k2_pay1 (F := F)) := by
  obtain ⟨n, hn⟩ := t
  cases n with
  | zero => rfl
  | succ n => exact absurd h (Nat.succ_ne_zero n)

theorem pooled2_later (c : Dev nD) (t : Fin cfg2.N) (h : t.val ≠ 0) :
    pooled2 V c t.val t.isLt
      = k2_pay2 (block2 V c 0 t) (block2 V c 1 t) (pooled2 V c (t.val - 1) (Nat.lt_of_le_of_lt (Nat.sub_le _ _) t.isLt)) := by
  obtain ⟨n, hn⟩ := t
  cases n with
  | zero => exact absurd rfl h
  | succ n => rfl

/-! ## The region's invariant -/

/-- A scoped buffer of the core held whole at some contents. -/
abbrev held (c : Dev nD) (b : Ref sig .tc) : sProp 𝕄 :=
  iprop(∃ f : Buf (Elt F) ((c : Thread nD τ).loc b), ((c : Thread nD τ).loc b) ↦{fullShare} f)

/-- What the region holds of the core beside the accumulator: the other regions' staging buffers, each at some
    contents, and the generator register at some state. -/
def others2 (c : Dev nD) : sProp 𝕄 :=
  iprop(held (F := F) c cc0_stg0_0 ∗ held (F := F) c cc0_stg0_1 ∗ held (F := F) c cc0_stg1_0 ∗ held (F := F) c cc0_stg2_0 ∗ held (F := F) c cc0_stg2_1 ∗ held (F := F) c cc1_stg0_0 ∗ held (F := F) c cc1_stg0_1 ∗ held (F := F) c cc1_stg1_0 ∗ held (F := F) c cc1_stg2_0 ∗ held (F := F) c cc1_stg2_1 ∗ held (F := F) c cc3_stg0_0 ∗ held (F := F) c cc3_stg1_0 ∗ held (F := F) c cc3_stg2_0 ∗ held (F := F) c cc3_stg3_0 ∗ held (F := F) c cc3_stg4_0 ∗ held (F := F) c cc3_stg5_0 ∗ ∃ r, prngReg c r)

/-- What the region is entered with gives up the accumulator at some contents, -/
theorem scratch_out2 (c : Dev nD) :
    (Pipeline.ΦA spec2 c : sProp 𝕄) ⊢ iprop((∃ d, owns (c : Thread nD τ) acc2 fullShare d) ∗ others2 (F := F) c) := by
  unfold Pipeline.ΦA others2; rw [scopedRest2_eq]; simp only [acc2, owns_whole]
  iintro ⟨⟨B0, B1, B2, B3, B4, B5, B6, B7, B8, B9, B10, B11, B12, B13, B14, B15, B16⟩, Hg⟩
  isplitl [B10]; · iexact B10
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B11]; · iexact B11
  isplitl [B12]; · iexact B12
  isplitl [B13]; · iexact B13
  isplitl [B14]; · iexact B14
  isplitl [B15]; · iexact B15
  isplitl [B16]; · iexact B16
  iexact Hg

/-- and takes it back at any. -/
theorem scratch_in2 (c : Dev nD) :
    iprop((∃ d, owns (c : Thread nD τ) acc2 fullShare d) ∗ others2 (F := F) c) ⊢ (Pipeline.ΦA spec2 c : sProp 𝕄) := by
  unfold Pipeline.ΦA others2; rw [scopedRest2_eq]; simp only [acc2, owns_whole]
  iintro ⟨B10, B0, B1, B2, B3, B4, B5, B6, B7, B8, B9, B11, B12, B13, B14, B15, B16, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  iexact B16

/-- The invariant before position n: at the region's entry what the region is handed, the accumulator at anything;
    afterwards the accumulator at what the point before left in it, beside the rest. -/
def carried2 (c : Dev nD) : (n : ℕ) → n ≤ cfg2.N → sProp 𝕄
  | 0, _ => Pipeline.ΦA spec2 c
  | n + 1, hn => iprop(owns (c : Thread nD τ) acc2 fullShare (pooled2 V c n hn) ∗ others2 (F := F) c)

theorem carried2_zero (c : Dev nD) (n : ℕ) (h : n ≤ cfg2.N) (hz : n = 0) : carried2 V c n h = Pipeline.ΦA spec2 c := by
  subst hz; rfl

theorem carried2_succ (c : Dev nD) (n : ℕ) (hn : n < cfg2.N) :
    carried2 V c (n + 1) hn = iprop(owns (c : Thread nD τ) acc2 fullShare (pooled2 V c n hn) ∗ others2 (F := F) c) := rfl

theorem carried2_pos (c : Dev nD) (n : ℕ) (h : n ≤ cfg2.N) (hz : n ≠ 0) :
    carried2 V c n h = iprop(owns (c : Thread nD τ) acc2 fullShare (pooled2 V c (n - 1) (by omega)) ∗ others2 (F := F) c) := by
  cases n with
  | zero => exact absurd rfl hz
  | succ n => rfl

/-! ## The pipeline's proof data -/

/-- The arrays as the region finds them; after the body at point t each operand's buffer at its block and, where
    the output is stored, its buffer at the accumulator; the invariant carrying the accumulator; nothing owed. -/
def data2 (c : Dev nD) : Dat τ (Elt F) Unit ℕ (UR sig nD τ) ℕ cfg2 c where
  A w := V c (Pipeline.arrRef spec2 w)
  after w t := match w with
    | ⟨0, _⟩ => block2 V c 0 t
    | ⟨1, _⟩ => block2 V c 1 t
    | ⟨2, _⟩ => pooled2 V c t.val t.isLt
  Φ t := carried2 V c t.val (Nat.le_of_lt_succ t.isLt)
  q _ := fullShare
  owed _ := 0

theorem arrays2 (c : Dev nD) (w : Fin cfg2.W) : (data2 V c).A w = V c (Pipeline.arrRef spec2 w) := by
  dsimp only [data2]

theorem left2_0 (c : Dev nD) (t : Fin cfg2.N) : (data2 V c).after 0 t = block2 V c 0 t := by dsimp only [data2]
theorem left2_1 (c : Dev nD) (t : Fin cfg2.N) : (data2 V c).after 1 t = block2 V c 1 t := by dsimp only [data2]
theorem left2_2 (c : Dev nD) (t : Fin cfg2.N) : (data2 V c).after 2 t = pooled2 V c t.val t.isLt := by dsimp only [data2]
theorem left2_2_last (c : Dev nD) (t : Fin cfg2.N) (ht : t.val = 24) : (data2 V c).after 2 t = pooled2 V c t.val t.isLt :=
  left2_2 V c t

theorem found2_0 (c : Dev nD) (t : Fin cfg2.N) (d) : (data2 V c).before 0 t d = block2 V c 0 t :=
  found2_0_of V (data2 V c) (arrays2 V c 0) (left2_0 V c) t d
theorem found2_1 (c : Dev nD) (t : Fin cfg2.N) (d) : (data2 V c).before 1 t d = block2 V c 1 t :=
  found2_1_of V (data2 V c) (arrays2 V c 1) (left2_1 V c) t d

theorem invariant_at2 (c : Dev nD) (t : Fin cfg2.N) :
    (data2 V c).Φ t.castSucc = carried2 V c t.val (Nat.le_of_lt t.isLt) := by
  dsimp only [data2]; simp only [Fin.coe_castSucc]

/-! ## The body obligation, at a generic point -/

def bodyPre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d)))

def bodyPost2 (c : Dev nD) (t : Fin cfg2.N) : sProp 𝕄 :=
  iprop((data2 V c).Φ t.succ ∗ (data2 V c).owesAt () t.succ
    ∗ (data2 V c).leavesExact 0 t
    ∗ (data2 V c).leavesExact 1 t
    ∗ (data2 V c).leavesExact 2 t)

set_option maxHeartbeats 4000000 in
/-- The body at any point. The operands' buffers hold their blocks. At the first point the entry invariant gives up
    the accumulator at anything and the reset-and-add run leaves it at the first partial sum; later the invariant
    holds it at the previous partial sum and the run adds this point's product. Away from the last point the output's
    buffer goes back as it came; at the last it takes the total. The core owes nothing throughout. -/
theorem body_at2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [found2_0, found2_1]
  rw [show (data2 V c).owesAt () t.succ = (data2 V c).owesAt () t.castSucc from rfl]
  rw [show (data2 V c).Φ t.succ = carried2 V c (t.val + 1) t.isLt from rfl, carried2_succ, invariant_at2]
  rw [show (data2 V c).leavesExact 0 t = owns (c : Thread nD τ) (st2_0 t) fullShare ((data2 V c).after 0 t) from by
    unfold Dat.leavesExact; rw [live2_0 t], left2_0]
  rw [show (data2 V c).leavesExact 1 t = owns (c : Thread nD τ) (st2_1 t) fullShare ((data2 V c).after 1 t) from by
    unfold Dat.leavesExact; rw [live2_1 t], left2_1]
  have hN : t.val < 25 := lt_of_lt_of_eq t.isLt (show cfg2.N = 25 from N_2)
  by_cases hl : t.val = 24
  · have hz : t.val ≠ 0 := by omega
    have hnf : ¬first2 (grid2.coords t) := fun h => hz ((first2_iff t).mp h)
    have hla : last2 (grid2.coords t) := (last2_iff t).mpr hl
    rw [show (data2 V c).leavesExact 2 t = owns (c : Thread nD τ) (st2_2 t) fullShare ((data2 V c).after 2 t) from by
      unfold Dat.leavesExact; rw [live2_2 t hla], left2_2]
    rw [carried2_pos V c _ _ hz, pooled2_later V c t hz]
    iintro ⟨⟨HS, Hr⟩, Ho, ⟨%d0, H0⟩, ⟨%d1, H1⟩, ⟨%d2, H2⟩⟩
    iapply (run_last2 c Set.univ (grid2.coords t) hnf hla _ _ _ _ _ _ _ _ (block2 V c 0 t) (block2 V c 1 t) _ _)
    isplitl [H0]; · iexact H0
    isplitl [H1]; · iexact H1
    isplitl [H2]; · iexists _; iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexact H2
  · have hnl : ¬last2 (grid2.coords t) := fun h => hl ((last2_iff t).mp h)
    rw [Dat.leavesExact_idle (data2 V c) 2 t (rests2_2 t hnl) (unflushed2_2 t hnl)]
    by_cases hz : t.val = 0
    · have hfi : first2 (grid2.coords t) := (first2_iff t).mpr hz
      rw [carried2_zero V c _ _ hz, pooled2_first V c t hz]
      iintro ⟨HA, Ho, ⟨%d0, H0⟩, ⟨%d1, H1⟩, ⟨%d2, H2⟩⟩
      icases (scratch_out2 c) $$ HA with ⟨HS, Hr⟩
      iapply (run_first2 c Set.univ (grid2.coords t) hfi hnl _ _ _ _ _ _ _ _ (block2 V c 0 t) (block2 V c 1 t) _)
      isplitl [H0]; · iexact H0
      isplitl [H1]; · iexact H1
      isplitl [HS]; · iexact HS
      iintro ⟨H0, H1, HS⟩
      isplitl [HS Hr]
      · isplitl [HS]; · iexact HS
        iexact Hr
      isplitl [Ho]; · iexact Ho
      isplitl [H0]; · iexact H0
      isplitl [H1]; · iexact H1
      iexists _; iexact H2
    · have hnf : ¬first2 (grid2.coords t) := fun h => hz ((first2_iff t).mp h)
      rw [carried2_pos V c _ _ hz, pooled2_later V c t hz]
      iintro ⟨⟨HS, Hr⟩, Ho, ⟨%d0, H0⟩, ⟨%d1, H1⟩, ⟨%d2, H2⟩⟩
      iapply (run_mid2 c Set.univ (grid2.coords t) hnf hnl _ _ _ _ _ _ _ _ (block2 V c 0 t) (block2 V c 1 t) _ _)
      isplitl [H0]; · iexact H0
      isplitl [H1]; · iexact H1
      isplitl [HS]; · iexact HS
      iintro ⟨H0, H1, HS⟩
      isplitl [HS Hr]
      · isplitl [HS]; · iexact HS
        iexact Hr
      isplitl [Ho]; · iexact Ho
      isplitl [H0]; · iexact H0
      isplitl [H1]; · iexact H1
      iexists _; iexact H2

theorem obligation2 (c : Dev nD) : BodyObligation (data2 (F := F) V c) (defs₀ (F := F)) Variants.none () Set.univ := fun t => by
  rw [bigSep_W2, bigSep_W2]
  exact body_at2 V c t

/-! ## Entering and leaving the region -/

/-- What the launch hands the region is the invariant before the first point. -/
theorem enter2 (c : Dev nD) : Pipeline.ΦA spec2 c ⊢ (data2 V c).Φ 0 := by
  rw [show (data2 V c).Φ 0 = carried2 V c 0 (Nat.zero_le _) from rfl, carried2_zero V c 0 _ rfl]
  try exact Idealize.SL.BI.Entails.refl _

/-- After the last point the invariant gives the entry one back: what the accumulator holds is forgotten. -/
theorem leave2 (c : Dev nD) : (data2 V c).Φ (Fin.last cfg2.N) ⊢ Pipeline.ΦA spec2 c := by
  rw [show (data2 V c).Φ (Fin.last cfg2.N) = carried2 V c (Fin.last cfg2.N).val (Nat.le_of_lt_succ (Fin.last cfg2.N).isLt) from rfl,
    carried2_pos V c _ _ (by rw [Fin.val_last]; have : cfg2.N = 25 := N_2; omega)]
  iintro ⟨HS, Hr⟩
  iapply (scratch_in2 c)
  isplitl [HS]
  · iexists _; iexact HS
  iexact Hr

end Cert.Kernel.Hand

end
-- ==== Proof.Word.Head.lean ====
/-
  The classifier head, one pallas_call on a grid of a single point: the body loads the 100 x 128 pooled features,
  the 128 x 128 first weight with its bias of 128, the 2 x 128 second weight with its bias of 2, and the 100 x 2
  output buffer, and stores into the whole output buffer the two-layer value: features times the first weight
  transposed plus bias, clamped below at zero, times the second weight transposed plus bias. Stated at any
  contents V of the core's buffers at the region's entry: the blocks the body finds, what it leaves in the
  output's staging buffer, its triple, the pipeline's proof data and the body obligation at the grid point.
-/
import proofs.«405348_j60988535603684_1_alg».proof.Proof.Gen.Kernel.Launch
import proofs.«405348_j60988535603684_1_alg».proof.Proof.Gen.Kernel.Skeleton
import proofs.«405348_j60988535603684_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks the body finds -/

/-- Window w's block at grid point t, read off its array as the region finds it. -/
def block3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The features' staging buffer holds their block at the point. -/
theorem found3_0_of {c : Dev nD} (dat : Dat τ (Elt F) Unit ℕ (UR sig nD τ) ℕ cfg3 c) (hA : dat.A 0 = V c (Pipeline.arrRef spec3 0))
    (hafter : ∀ t, dat.after 0 t = block3 V c 0 t) (t : Fin cfg3.N) (d) : dat.before 0 t d = block3 V c 0 t :=
  (dat.before_in_eq_fetched 0 rfl (fun _ => rfl) (fun _ _ _ => rfl) (fun t => by rw [hafter]; unfold Dat.blockOf block3; rw [hA]; try rfl) t d).trans
    (by unfold Dat.fetched Dat.blockOf block3; rw [hA]; try rfl)

/-- The first weight's staging buffer holds its block at the point. -/
theorem found3_1_of {c : Dev nD} (dat : Dat τ (Elt F) Unit ℕ (UR sig nD τ) ℕ cfg3 c) (hA : dat.A 1 = V c (Pipeline.arrRef spec3 1))
    (hafter : ∀ t, dat.after 1 t = block3 V c 1 t) (t : Fin cfg3.N) (d) : dat.before 1 t d = block3 V c 1 t :=
  (dat.before_in_eq_fetched 1 rfl (fun _ => rfl) (fun _ _ _ => rfl) (fun t => by rw [hafter]; unfold Dat.blockOf block3; rw [hA]; try rfl) t d).trans
    (by unfold Dat.fetched Dat.blockOf block3; rw [hA]; try rfl)

/-- The first bias's staging buffer holds its block at the point. -/
theorem found3_2_of {c : Dev nD} (dat : Dat τ (Elt F) Unit ℕ (UR sig nD τ) ℕ cfg3 c) (hA : dat.A 2 = V c (Pipeline.arrRef spec3 2))
    (hafter : ∀ t, dat.after 2 t = block3 V c 2 t) (t : Fin cfg3.N) (d) : dat.before 2 t d = block3 V c 2 t :=
  (dat.before_in_eq_fetched 2 rfl (fun _ => rfl) (fun _ _ _ => rfl) (fun t => by rw [hafter]; unfold Dat.blockOf block3; rw [hA]; try rfl) t d).trans
    (by unfold Dat.fetched Dat.blockOf block3; rw [hA]; try rfl)

/-- The second weight's staging buffer holds its block at the point. -/
theorem found3_3_of {c : Dev nD} (dat : Dat τ (Elt F) Unit ℕ (UR sig nD τ) ℕ cfg3 c) (hA : dat.A 3 = V c (Pipeline.arrRef spec3 3))
    (hafter : ∀ t, dat.after 3 t = block3 V c 3 t) (t : Fin cfg3.N) (d) : dat.before 3 t d = block3 V c 3 t :=
  (dat.before_in_eq_fetched 3 rfl (fun _ => rfl) (fun _ _ _ => rfl) (fun t => by rw [hafter]; unfold Dat.blockOf block3; rw [hA]; try rfl) t d).trans
    (by unfold Dat.fetched Dat.blockOf block3; rw [hA]; try rfl)

/-- The second bias's staging buffer holds its block at the point. -/
theorem found3_4_of {c : Dev nD} (dat : Dat τ (Elt F) Unit ℕ (UR sig nD τ) ℕ cfg3 c) (hA : dat.A 4 = V c (Pipeline.arrRef spec3 4))
    (hafter : ∀ t, dat.after 4 t = block3 V c 4 t) (t : Fin cfg3.N) (d) : dat.before 4 t d = block3 V c 4 t :=
  (dat.before_in_eq_fetched 4 rfl (fun _ => rfl) (fun _ _ _ => rfl) (fun t => by rw [hafter]; unfold Dat.blockOf block3; rw [hA]; try rfl) t d).trans
    (by unfold Dat.fetched Dat.blockOf block3; rw [hA]; try rfl)

/-! ## What the body leaves in the output's staging buffer -/

abbrev feats3 : Rect S100x128 := Rect.unit (s := S100x128) ![0, 0] S100x128.size inb_S100x128_S100x128_0_0
abbrev weightA3 : Rect S128x128 := Rect.unit (s := S128x128) ![0, 0] S128x128.size inb_S128x128_S128x128_0_0
abbrev biasA3 : Rect S128 := Rect.unit (s := S128) ![0] S128.size inb_S128_S128_0
abbrev weightB3 : Rect S2x128 := Rect.unit (s := S2x128) ![0, 0] S2x128.size inb_S2x128_S2x128_0_0
abbrev biasB3 : Rect S2 := Rect.unit (s := S2) ![0] S2.size inb_S2_S2_0
abbrev logits3 : Rect S100x2 := Rect.unit (s := S100x2) ![0, 0] S100x2.size inb_S100x2_S100x2_0_0

/-- The one store, of the two-layer value of the five loaded blocks, as the buffer's contents. -/
def head3 (x0 : Vec F S100x128 .f32) (x1 : Vec F S128x128 .f32) (x2 : Vec F S128 .f32) (x3 : Vec F S2x128 .f32)
    (x4 : Vec F S2 .f32) : Vec F S100x2 .f32 :=
  View.canon [⟨logits3, k3_pay1 (View.ld x0 feats3) (View.ld x1 weightA3) (View.ld x2 biasA3) (View.ld x3 weightB3) (View.ld x4 biasB3)⟩]

/-- The store's rectangle is the whole buffer. -/
theorem head_covers3 (p : Vec F S100x2 .f32) (y : S100x2.Idx) :
    ∃ pc ∈ ([⟨logits3, p⟩] : List (View.Piece (Elt F) S100x2 .f32)), y ∈ pc.1.set :=
  View.cover_of_tiled [⟨logits3, p⟩] S100x2.size (by rfl) y

/-! ## The body's triple -/

set_option maxHeartbeats 1000000 in
/-- On whole staging memrefs, the five inputs' at contents x0 .. x4 and the output's at anything, the body runs to the
    continuation with the inputs' as they were and the output's at the two-layer value. -/
theorem run_head3 (c : Dev nD) (E : Set ℕ) (i : grid3.Coords)
    (arg1 : Memref sig .tc .vmem S100x128 .f32) (harg1 : arg1.IsWhole)
    (arg2 : Memref sig .tc .vmem S128x128 .f32) (harg2 : arg2.IsWhole)
    (arg3 : Memref sig .tc .vmem S128 .f32) (harg3 : arg3.IsWhole)
    (arg4 : Memref sig .tc .vmem S2x128 .f32) (harg4 : arg4.IsWhole)
    (arg5 : Memref sig .tc .vmem S2 .f32) (harg5 : arg5.IsWhole)
    (arg6 : Memref sig .tc .vmem S100x2 .f32) (harg6 : arg6.IsWhole)
    (x0 : Vec F S100x128 .f32) (x1 : Vec F S128x128 .f32) (x2 : Vec F S128 .f32) (x3 : Vec F S2x128 .f32)
    (x4 : Vec F S2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (head3 x0 x1 x2 x3 x4)) -∗ K ⟨⟩))
      ⊢ wp frame (wpE (defs₀ (F := F)) Variants.none c none) E
          (cc3__mlp_head_kernel i arg1 harg1 arg2 harg2 arg3 harg3 arg4 harg4 arg5 harg5 arg6 harg6) K := by
  simp only [cc3__mlp_head_kernel_eq_skeleton]; unfold cc3__mlp_head_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (head_covers3 _)

/-! ## The pipeline's proof data -/

/-- The arrays as the region finds them; after the body at the point each input's buffer at its block and the
    output's at the two-layer value of the five; the scoped rest and the generator register untouched; nothing owed. -/
def data3 (c : Dev nD) : Dat τ (Elt F) Unit ℕ (UR sig nD τ) ℕ cfg3 c where
  A w := V c (Pipeline.arrRef spec3 w)
  after w t := match w with
    | ⟨0, _⟩ => block3 V c 0 t
    | ⟨1, _⟩ => block3 V c 1 t
    | ⟨2, _⟩ => block3 V c 2 t
    | ⟨3, _⟩ => block3 V c 3 t
    | ⟨4, _⟩ => block3 V c 4 t
    | ⟨5, _⟩ => head3 (block3 V c 0 t) (block3 V c 1 t) (block3 V c 2 t) (block3 V c 3 t) (block3 V c 4 t)
  Φ _ := Pipeline.ΦA spec3 c
  q _ := fullShare
  owed _ := 0

theorem arrays3 (c : Dev nD) (w : Fin cfg3.W) : (data3 V c).A w = V c (Pipeline.arrRef spec3 w) := by
  dsimp only [data3]

theorem left3_0 (c : Dev nD) (t : Fin cfg3.N) : (data3 V c).after 0 t = block3 V c 0 t := by dsimp only [data3]
theorem left3_1 (c : Dev nD) (t : Fin cfg3.N) : (data3 V c).after 1 t = block3 V c 1 t := by dsimp only [data3]
theorem left3_2 (c : Dev nD) (t : Fin cfg3.N) : (data3 V c).after 2 t = block3 V c 2 t := by dsimp only [data3]
theorem left3_3 (c : Dev nD) (t : Fin cfg3.N) : (data3 V c).after 3 t = block3 V c 3 t := by dsimp only [data3]
theorem left3_4 (c : Dev nD) (t : Fin cfg3.N) : (data3 V c).after 4 t = block3 V c 4 t := by dsimp only [data3]
theorem left3_5 (c : Dev nD) (t : Fin cfg3.N) :
    (data3 V c).after 5 t
      = head3 (block3 V c 0 t) (block3 V c 1 t) (block3 V c 2 t) (block3 V c 3 t) (block3 V c 4 t) := by
  dsimp only [data3]

theorem found3_0 (c : Dev nD) (t : Fin cfg3.N) (d) : (data3 V c).before 0 t d = block3 V c 0 t :=
  found3_0_of V (data3 V c) (arrays3 V c 0) (left3_0 V c) t d
theorem found3_1 (c : Dev nD) (t : Fin cfg3.N) (d) : (data3 V c).before 1 t d = block3 V c 1 t :=
  found3_1_of V (data3 V c) (arrays3 V c 1) (left3_1 V c) t d
theorem found3_2 (c : Dev nD) (t : Fin cfg3.N) (d) : (data3 V c).before 2 t d = block3 V c 2 t :=
  found3_2_of V (data3 V c) (arrays3 V c 2) (left3_2 V c) t d
theorem found3_3 (c : Dev nD) (t : Fin cfg3.N) (d) : (data3 V c).before 3 t d = block3 V c 3 t :=
  found3_3_of V (data3 V c) (arrays3 V c 3) (left3_3 V c) t d
theorem found3_4 (c : Dev nD) (t : Fin cfg3.N) (d) : (data3 V c).before 4 t d = block3 V c 4 t :=
  found3_4_of V (data3 V c) (arrays3 V c 4) (left3_4 V c) t d

/-! ## The body obligation, at a generic point -/

def bodyPre3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d))
    ∗ (∃ d, owns (c : Thread nD τ) (st3_3 t) fullShare ((data3 V c).before 3 t d))
    ∗ (∃ d, owns (c : Thread nD τ) (st3_4 t) fullShare ((data3 V c).before 4 t d))
    ∗ (∃ d, owns (c : Thread nD τ) (st3_5 t) fullShare ((data3 V c).before 5 t d)))

def bodyPost3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t)
    ∗ owns (c : Thread nD τ) (st3_3 t) fullShare ((data3 V c).after 3 t)
    ∗ owns (c : Thread nD τ) (st3_4 t) fullShare ((data3 V c).after 4 t)
    ∗ owns (c : Thread nD τ) (st3_5 t) fullShare ((data3 V c).after 5 t))

/-- The body at the point: the inputs' memrefs hold their blocks, so the triple applies; the invariant and the
    core's dues pass through unread. -/
theorem body_at3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [found3_0, found3_1, found3_2, found3_3, found3_4]
  rw [show (data3 V c).Φ t.succ = (data3 V c).Φ t.castSucc from rfl,
    show (data3 V c).owesAt () t.succ = (data3 V c).owesAt () t.castSucc from rfl,
    left3_0, left3_1, left3_2, left3_3, left3_4, left3_5]
  iintro ⟨HΦ, Ho, ⟨%d0, H0⟩, ⟨%d1, H1⟩, ⟨%d2, H2⟩, ⟨%d3, H3⟩, ⟨%d4, H4⟩, ⟨%d5, H5⟩⟩
  iapply (run_head3 c Set.univ _ _ _ _ _ _ _ _ _ _ _ _ _ (block3 V c 0 t) (block3 V c 1 t) (block3 V c 2 t)
    (block3 V c 3 t) (block3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem obligation3 (c : Dev nD) : BodyObligation (data3 (F := F) V c) (defs₀ (F := F)) Variants.none () Set.univ := fun t => by
  rw [bigSep_W3, bigSep_W3]
  exact body_at3 V c t

end Cert.Kernel.Hand

end
-- ==== Proof.Word.Chain.lean ====
/-
  The whole program's run. Between two items of @main the core holds every unscoped buffer whole; a host stretch
  applies its operations to those contents; a pallas_call changes one array, its output, to the fold of its
  write-backs. Here, for any contents the regions leave that FIT — each region's output reference holding the fold
  of that region's write-backs from the contents the region is entered with —: the four regions' records over these
  thread states and the run of @main from any launch memory, its post reading every unscoped buffer at the last
  contents; then the frame claim and the result's value read off it; and last, that fitting contents exist, built
  region after region.
-/
import proofs.«405348_j60988535603684_1_alg».proof.Proof.Word.Dense0
import proofs.«405348_j60988535603684_1_alg».proof.Proof.Word.Dense1
import proofs.«405348_j60988535603684_1_alg».proof.Proof.Word.Pool
import proofs.«405348_j60988535603684_1_alg».proof.Proof.Word.Head
import proofs.«405348_j60988535603684_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents each region is entered with, and contents that fit -/

abbrev in0 : (c : Dev nD) → (b : Ref sig .tc) → Buf (Elt F) ((c : Thread nD τ).loc b) := fun c b => V3 m c b
abbrev in1 : (c : Dev nD) → (b : Ref sig .tc) → Buf (Elt F) ((c : Thread nD τ).loc b) := fun c b => V7 m outs c b
abbrev in2 : (c : Dev nD) → (b : Ref sig .tc) → Buf (Elt F) ((c : Thread nD τ).loc b) := fun c b => V16 m outs c b
abbrev in3 : (c : Dev nD) → (b : Ref sig .tc) → Buf (Elt F) ((c : Thread nD τ).loc b) := fun c b => V18 m outs c b

/-- The contents the regions leave FIT when each region's output reference holds the fold of that region's
    write-backs, computed from the contents the region is entered with. -/
structure Fits : Prop where
  first : ∀ c : Dev nD, outs 4 main_v33 c = (data0 (in0 m) c).arrAt 2 cfg0.N
  second : ∀ c : Dev nD, outs 8 main_v52 c = (data1 (in1 m outs) c).arrAt 2 cfg1.N
  pooled : ∀ c : Dev nD, outs 17 main_v76 c = (data2 (in2 m outs) c).arrAt 2 cfg2.N
  logits : ∀ c : Dev nD, outs 19 main_v82 c = (data3 (in3 m outs) c).arrAt 5 cfg3.N

/-- Every pipeline's proof data, each at its region's entry contents. -/
def pdats : (p : Fin 4) → (c : Dev nD) → Dat τ (Elt F) Unit ℕ (UR sig nD τ) ℕ (cfgs p) c
  | ⟨0, _⟩ => fun c => data0 (in0 m) c
  | ⟨1, _⟩ => fun c => data1 (in1 m outs) c
  | ⟨2, _⟩ => fun c => data2 (in2 m outs) c
  | ⟨3, _⟩ => fun c => data3 (in3 m outs) c

/-! ## What a region leaves, at any entry contents -/

set_option maxHeartbeats 4000000 in
/-- At region 0's exit, whatever contents W it is entered with: each operand's array holds its entry contents, the
    output's the fold of the write-backs, when that is what is put at the output's reference. -/
theorem exit0_any (W : Dev nD → Valuation τ sig (Elt F)) (o : (c : Dev nD) → Buf (Elt F) ((c : Thread nD τ).loc main_v33))
    (ho : ∀ c, o c = (data0 (fun c (b : Ref sig .tc) => W c b) c).arrAt 2 cfg0.N) (c : Dev nD) (w : Fin cfg0.W) :
    (data0 (fun c (b : Ref sig .tc) => W c b) c).arrAt w cfg0.N = Function.update (W c) main_v33 (o c) (Pipeline.arrRef spec0 w) := by
  match w with
  | ⟨0, _⟩ =>
    exact ((data0 (fun c (b : Ref sig .tc) => W c b) c).arrAt_in 0 rfl _).trans ((arrays0 (fun c (b : Ref sig .tc) => W c b) c 0).trans
      (Function.update_of_ne (StableHlo.devRef_ne_of_ne (by decide : (main_arg0 : Ref sig .tc) ≠ main_v33) : (Proc.devRef .tc main_arg0 : DevRef τ sig) ≠ Proc.devRef .tc main_v33) _ _).symm)
  | ⟨1, _⟩ =>
    exact ((data0 (fun c (b : Ref sig .tc) => W c b) c).arrAt_in 1 rfl _).trans ((arrays0 (fun c (b : Ref sig .tc) => W c b) c 1).trans
      (Function.update_of_ne (StableHlo.devRef_ne_of_ne (by decide : (main_v32 : Ref sig .tc) ≠ main_v33) : (Proc.devRef .tc main_v32 : DevRef τ sig) ≠ Proc.devRef .tc main_v33) _ _).symm)
  | ⟨2, _⟩ =>
    show _ = Function.update (W c) (Proc.devRef .tc main_v33) (o c) (Proc.devRef .tc main_v33)
    rw [Function.update_self]; exact (ho c).symm

set_option maxHeartbeats 4000000 in
/-- At region 1's exit, whatever contents W it is entered with: each operand's array holds its entry contents, the
    output's the fold of the write-backs, when that is what is put at the output's reference. -/
theorem exit1_any (W : Dev nD → Valuation τ sig (Elt F)) (o : (c : Dev nD) → Buf (Elt F) ((c : Thread nD τ).loc main_v52))
    (ho : ∀ c, o c = (data1 (fun c (b : Ref sig .tc) => W c b) c).arrAt 2 cfg1.N) (c : Dev nD) (w : Fin cfg1.W) :
    (data1 (fun c (b : Ref sig .tc) => W c b) c).arrAt w cfg1.N = Function.update (W c) main_v52 (o c) (Pipeline.arrRef spec1 w) := by
  match w with
  | ⟨0, _⟩ =>
    exact ((data1 (fun c (b : Ref sig .tc) => W c b) c).arrAt_in 0 rfl _).trans ((arrays1 (fun c (b : Ref sig .tc) => W c b) c 0).trans
      (Function.update_of_ne (StableHlo.devRef_ne_of_ne (by decide : (main_v50 : Ref sig .tc) ≠ main_v52) : (Proc.devRef .tc main_v50 : DevRef τ sig) ≠ Proc.devRef .tc main_v52) _ _).symm)
  | ⟨1, _⟩ =>
    exact ((data1 (fun c (b : Ref sig .tc) => W c b) c).arrAt_in 1 rfl _).trans ((arrays1 (fun c (b : Ref sig .tc) => W c b) c 1).trans
      (Function.update_of_ne (StableHlo.devRef_ne_of_ne (by decide : (main_v51 : Ref sig .tc) ≠ main_v52) : (Proc.devRef .tc main_v51 : DevRef τ sig) ≠ Proc.devRef .tc main_v52) _ _).symm)
  | ⟨2, _⟩ =>
    show _ = Function.update (W c) (Proc.devRef .tc main_v52) (o c) (Proc.devRef .tc main_v52)
    rw [Function.update_self]; exact (ho c).symm

set_option maxHeartbeats 4000000 in
/-- At region 2's exit, whatever contents W it is entered with: each operand's array holds its entry contents, the
    output's the fold of the write-backs, when that is what is put at the output's reference. -/
theorem exit2_any (W : Dev nD → Valuation τ sig (Elt F)) (o : (c : Dev nD) → Buf (Elt F) ((c : Thread nD τ).loc main_v76))
    (ho : ∀ c, o c = (data2 (fun c (b : Ref sig .tc) => W c b) c).arrAt 2 cfg2.N) (c : Dev nD) (w : Fin cfg2.W) :
    (data2 (fun c (b : Ref sig .tc) => W c b) c).arrAt w cfg2.N = Function.update (W c) main_v76 (o c) (Pipeline.arrRef spec2 w) := by
  match w with
  | ⟨0, _⟩ =>
    exact ((data2 (fun c (b : Ref sig .tc) => W c b) c).arrAt_in 0 rfl _).trans ((arrays2 (fun c (b : Ref sig .tc) => W c b) c 0).trans
      (Function.update_of_ne (StableHlo.devRef_ne_of_ne (by decide : (main_v75 : Ref sig .tc) ≠ main_v76) : (Proc.devRef .tc main_v75 : DevRef τ sig) ≠ Proc.devRef .tc main_v76) _ _).symm)
  | ⟨1, _⟩ =>
    exact ((data2 (fun c (b : Ref sig .tc) => W c b) c).arrAt_in 1 rfl _).trans ((arrays2 (fun c (b : Ref sig .tc) => W c b) c 1).trans
      (Function.update_of_ne (StableHlo.devRef_ne_of_ne (by decide : (main_v74 : Ref sig .tc) ≠ main_v76) : (Proc.devRef .tc main_v74 : DevRef τ sig) ≠ Proc.devRef .tc main_v76) _ _).symm)
  | ⟨2, _⟩ =>
    show _ = Function.update (W c) (Proc.devRef .tc main_v76) (o c) (Proc.devRef .tc main_v76)
    rw [Function.update_self]; exact (ho c).symm

set_option maxHeartbeats 4000000 in
/-- At region 3's exit, whatever contents W it is entered with: each operand's array holds its entry contents, the
    output's the fold of the write-backs, when that is what is put at the output's reference. -/
theorem exit3_any (W : Dev nD → Valuation τ sig (Elt F)) (o : (c : Dev nD) → Buf (Elt F) ((c : Thread nD τ).loc main_v82))
    (ho : ∀ c, o c = (data3 (fun c (b : Ref sig .tc) => W c b) c).arrAt 5 cfg3.N) (c : Dev nD) (w : Fin cfg3.W) :
    (data3 (fun c (b : Ref sig .tc) => W c b) c).arrAt w cfg3.N = Function.update (W c) main_v82 (o c) (Pipeline.arrRef spec3 w) := by
  match w with
  | ⟨0, _⟩ =>
    exact ((data3 (fun c (b : Ref sig .tc) => W c b) c).arrAt_in 0 rfl _).trans ((arrays3 (fun c (b : Ref sig .tc) => W c b) c 0).trans
      (Function.update_of_ne (StableHlo.devRef_ne_of_ne (by decide : (main_v81 : Ref sig .tc) ≠ main_v82) : (Proc.devRef .tc main_v81 : DevRef τ sig) ≠ Proc.devRef .tc main_v82) _ _).symm)
  | ⟨1, _⟩ =>
    exact ((data3 (fun c (b : Ref sig .tc) => W c b) c).arrAt_in 1 rfl _).trans ((arrays3 (fun c (b : Ref sig .tc) => W c b) c 1).trans
      (Function.update_of_ne (StableHlo.devRef_ne_of_ne (by decide : (main_arg8 : Ref sig .tc) ≠ main_v82) : (Proc.devRef .tc main_arg8 : DevRef τ sig) ≠ Proc.devRef .tc main_v82) _ _).symm)
  | ⟨2, _⟩ =>
    exact ((data3 (fun c (b : Ref sig .tc) => W c b) c).arrAt_in 2 rfl _).trans ((arrays3 (fun c (b : Ref sig .tc) => W c b) c 2).trans
      (Function.update_of_ne (StableHlo.devRef_ne_of_ne (by decide : (main_arg9 : Ref sig .tc) ≠ main_v82) : (Proc.devRef .tc main_arg9 : DevRef τ sig) ≠ Proc.devRef .tc main_v82) _ _).symm)
  | ⟨3, _⟩ =>
    exact ((data3 (fun c (b : Ref sig .tc) => W c b) c).arrAt_in 3 rfl _).trans ((arrays3 (fun c (b : Ref sig .tc) => W c b) c 3).trans
      (Function.update_of_ne (StableHlo.devRef_ne_of_ne (by decide : (main_arg10 : Ref sig .tc) ≠ main_v82) : (Proc.devRef .tc main_arg10 : DevRef τ sig) ≠ Proc.devRef .tc main_v82) _ _).symm)
  | ⟨4, _⟩ =>
    exact ((data3 (fun c (b : Ref sig .tc) => W c b) c).arrAt_in 4 rfl _).trans ((arrays3 (fun c (b : Ref sig .tc) => W c b) c 4).trans
      (Function.update_of_ne (StableHlo.devRef_ne_of_ne (by decide : (main_arg11 : Ref sig .tc) ≠ main_v82) : (Proc.devRef .tc main_arg11 : DevRef τ sig) ≠ Proc.devRef .tc main_v82) _ _).symm)
  | ⟨5, _⟩ =>
    show _ = Function.update (W c) (Proc.devRef .tc main_v82) (o c) (Proc.devRef .tc main_v82)
    rw [Function.update_self]; exact (ho c).symm

variable (hfit : Fits m outs)

include hfit in
theorem out0_at (c : Dev nD) : V4 m outs c main_v33 = (pdats m outs 0 c).arrAt 2 cfg0.N := by
  dsimp only [V4]
  rw [Function.update_self]
  exact hfit.first c
include hfit in
theorem out1_at (c : Dev nD) : V8 m outs c main_v52 = (pdats m outs 1 c).arrAt 2 cfg1.N := by
  dsimp only [V8]
  rw [Function.update_self]
  exact hfit.second c
include hfit in
theorem out2_at (c : Dev nD) : V17 m outs c main_v76 = (pdats m outs 2 c).arrAt 2 cfg2.N := by
  dsimp only [V17]
  rw [Function.update_self]
  exact hfit.pooled c
include hfit in
theorem out3_at (c : Dev nD) : V19 m outs c main_v82 = (pdats m outs 3 c).arrAt 5 cfg3.N := by
  dsimp only [V19]
  rw [Function.update_self]
  exact hfit.logits c

include hfit in
/-- Region 0's exit contents at its arrays, -/
theorem exit0_arrays (c : Dev nD) (w : Fin cfg0.W) :
    (pdats m outs 0 c).arrAt w cfg0.N = V4 m outs c (Pipeline.arrRef spec0 w) :=
  exit0_any (fun c => V3 m c) (fun c => outs 4 main_v33 c) hfit.first c w
/-- and at every other buffer: what it held at entry. -/
theorem exit0_rest (c : Dev nD) : ∀ b, b ∉ Finset.univ.image (Pipeline.arrRef spec0) → V4 m outs c b = V3 m c b :=
  fun b hb => V4_of m outs c b (by
    intro h; rw [List.mem_singleton] at h; subst h
    exact hb (Finset.mem_image.mpr ⟨2, Finset.mem_univ _, rfl⟩))

include hfit in
/-- Region 1's exit contents at its arrays, -/
theorem exit1_arrays (c : Dev nD) (w : Fin cfg1.W) :
    (pdats m outs 1 c).arrAt w cfg1.N = V8 m outs c (Pipeline.arrRef spec1 w) :=
  exit1_any (fun c => V7 m outs c) (fun c => outs 8 main_v52 c) hfit.second c w
/-- and at every other buffer: what it held at entry. -/
theorem exit1_rest (c : Dev nD) : ∀ b, b ∉ Finset.univ.image (Pipeline.arrRef spec1) → V8 m outs c b = V7 m outs c b :=
  fun b hb => V8_of m outs c b (by
    intro h; rw [List.mem_singleton] at h; subst h
    exact hb (Finset.mem_image.mpr ⟨2, Finset.mem_univ _, rfl⟩))

include hfit in
/-- Region 2's exit contents at its arrays, -/
theorem exit2_arrays (c : Dev nD) (w : Fin cfg2.W) :
    (pdats m outs 2 c).arrAt w cfg2.N = V17 m outs c (Pipeline.arrRef spec2 w) :=
  exit2_any (fun c => V16 m outs c) (fun c => outs 17 main_v76 c) hfit.pooled c w
/-- and at every other buffer: what it held at entry. -/
theorem exit2_rest (c : Dev nD) : ∀ b, b ∉ Finset.univ.image (Pipeline.arrRef spec2) → V17 m outs c b = V16 m outs c b :=
  fun b hb => V17_of m outs c b (by
    intro h; rw [List.mem_singleton] at h; subst h
    exact hb (Finset.mem_image.mpr ⟨2, Finset.mem_univ _, rfl⟩))

include hfit in
/-- Region 3's exit contents at its arrays, -/
theorem exit3_arrays (c : Dev nD) (w : Fin cfg3.W) :
    (pdats m outs 3 c).arrAt w cfg3.N = V19 m outs c (Pipeline.arrRef spec3 w) :=
  exit3_any (fun c => V18 m outs c) (fun c => outs 19 main_v82 c) hfit.logits c w
/-- and at every other buffer: what it held at entry. -/
theorem exit3_rest (c : Dev nD) : ∀ b, b ∉ Finset.univ.image (Pipeline.arrRef spec3) → V19 m outs c b = V18 m outs c b :=
  fun b hb => V19_of m outs c b (by
    intro h; rw [List.mem_singleton] at h; subst h
    exact hb (Finset.mem_image.mpr ⟨5, Finset.mem_univ _, rfl⟩))

/-! ## The regions as segments -/

/-- No core owes another anything: no level is assigned. -/
abbrev noLevels : GSem nD τ sig → Finset Unit := fun _ => ∅
abbrev noLevel : GSem nD τ sig → Unit → ℕ := fun _ _ => 0
/-- What rides beside the buffers through every item: the generator register at some state, the core owing nothing. -/
abbrev riding (c : Dev nD) : sProp 𝕄 := iprop((∃ r, prngReg c r) ∗ ∃ W, owes (c : Thread nD τ) (0 : CellTallies nD τ sig Unit) W)

set_option backward.isDefEq.respectTransparency.types false in
/-- Region 0 over the thread state: entered from every unscoped buffer at its entry contents, left at its exit
    contents; its arrays split out of the unscoped buffers and put back; the generator register into the invariant and
    out; nothing owed; no semaphore of the kernel's own. -/
def region0 : Pipeline.RegionSeg (pcfgs (F := F)) adm (pdats m outs) () defs₀ Variants.none noLevels noLevel 0 where
  win := launch0.win.to₀
  block_pos := launch0.block_pos
  stage_whole := launch0.stage_whole
  K := PEmpty
  osem k := k.elim
  ho := Pipeline.OwnSemFacts.none _
  hbody c := (obligation0 (in0 m) c).loose
  hwaits := Pipeline.hwaits_of_owed_zero _ _ _ _ noLevels noLevel 0 fun _ _ => rfl
  pre c := iprop(StableHlo.held (c : Thread nD τ) (Pipeline.ucRefs τ sig) (V3 m c) ∗ riding c)
  post c := iprop(StableHlo.held (c : Thread nD τ) (Pipeline.ucRefs τ sig) (V4 m outs c) ∗ riding c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (in0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (in0 m c) (fun b => V4 m outs c b) ((pdats m outs 0 c).arrAt · cfg0.N) (exit0_arrays m outs hfit c) (exit0_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit
    contents; its arrays split out of the unscoped buffers and put back; the generator register into the invariant and
    out; nothing owed; no semaphore of the kernel's own. -/
def region1 : Pipeline.RegionSeg (pcfgs (F := F)) adm (pdats m outs) () defs₀ Variants.none noLevels noLevel 1 where
  win := launch1.win.to₀
  block_pos := launch1.block_pos
  stage_whole := launch1.stage_whole
  K := PEmpty
  osem k := k.elim
  ho := Pipeline.OwnSemFacts.none _
  hbody c := (obligation1 (in1 m outs) c).loose
  hwaits := Pipeline.hwaits_of_owed_zero _ _ _ _ noLevels noLevel 1 fun _ _ => rfl
  pre c := iprop(StableHlo.held (c : Thread nD τ) (Pipeline.ucRefs τ sig) (V7 m outs c) ∗ riding c)
  post c := iprop(StableHlo.held (c : Thread nD τ) (Pipeline.ucRefs τ sig) (V8 m outs c) ∗ riding c)
  X c := iprop(∃ r, prngReg c r)
  Y c := iprop(∃ r, prngReg c r)
  Z c := Pipeline.unscopedRest (Ix := Unit) (Name := ℕ) (U := UR sig nD τ) (Lvl := ℕ) spec1 c (in1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (in1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (in1 m outs c) (fun b => V8 m outs c b) ((pdats m outs 1 c).arrAt · cfg1.N) (exit1_arrays m outs hfit c) (exit1_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left at its exit
    contents; its arrays split out of the unscoped buffers and put back; the generator register into the invariant and
    out; nothing owed; no semaphore of the kernel's own. -/
def region2 : Pipeline.RegionSeg (pcfgs (F := F)) adm (pdats m outs) () defs₀ Variants.none noLevels noLevel 2 where
  win := launch2.win.to₀
  block_pos := launch2.block_pos
  stage_whole := launch2.stage_whole
  K := PEmpty
  osem k := k.elim
  ho := Pipeline.OwnSemFacts.none _
  hbody c := (obligation2 (in2 m outs) c).loose
  hwaits := Pipeline.hwaits_of_owed_zero _ _ _ _ noLevels noLevel 2 fun _ _ => rfl
  pre c := iprop(StableHlo.held (c : Thread nD τ) (Pipeline.ucRefs τ sig) (V16 m outs c) ∗ riding c)
  post c := iprop(StableHlo.held (c : Thread nD τ) (Pipeline.ucRefs τ sig) (V17 m outs c) ∗ riding c)
  X c := iprop(∃ r, prngReg c r)
  Y c := iprop(∃ r, prngReg c r)
  Z c := Pipeline.unscopedRest (Ix := Unit) (Name := ℕ) (U := UR sig nD τ) (Lvl := ℕ) spec2 c (in2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (in2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (enter2 (in2 m outs) c)
    unfold Pipeline.ΦA
    iintro ⟨Hp, -, Hr⟩
    isplitl [Hr]; · iexact Hr
    iexact Hp
  hout c := by
    rw [Pipeline.ownSems0_none]
    refine (leave2 (in2 m outs) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (in2 m outs c) (fun b => V17 m outs c b) ((pdats m outs 2 c).arrAt · cfg2.N) (exit2_arrays m outs hfit c) (exit2_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at its entry contents, left at its exit
    contents; its arrays split out of the unscoped buffers and put back; the generator register into the invariant and
    out; nothing owed; no semaphore of the kernel's own. -/
def region3 : Pipeline.RegionSeg (pcfgs (F := F)) adm (pdats m outs) () defs₀ Variants.none noLevels noLevel 3 where
  win := launch3.win.to₀
  block_pos := launch3.block_pos
  stage_whole := launch3.stage_whole
  K := PEmpty
  osem k := k.elim
  ho := Pipeline.OwnSemFacts.none _
  hbody c := (obligation3 (in3 m outs) c).loose
  hwaits := Pipeline.hwaits_of_owed_zero _ _ _ _ noLevels noLevel 3 fun _ _ => rfl
  pre c := iprop(StableHlo.held (c : Thread nD τ) (Pipeline.ucRefs τ sig) (V18 m outs c) ∗ riding c)
  post c := iprop(StableHlo.held (c : Thread nD τ) (Pipeline.ucRefs τ sig) (V19 m outs c) ∗ riding c)
  X c := iprop(∃ r, prngReg c r)
  Y c := iprop(∃ r, prngReg c r)
  Z c := Pipeline.unscopedRest (Ix := Unit) (Name := ℕ) (U := UR sig nD τ) (Lvl := ℕ) spec3 c (in3 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (in3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (in3 m outs c) (fun b => V19 m outs c b) ((pdats m outs 3 c).arrAt · cfg3.N) (exit3_arrays m outs hfit c) (exit3_rest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The runs -/

variable (ρ : Dev nD → PrngReg)

include hfit in
-- the launch theorem's implicit arguments are found by unifying its conclusion with this one, which takes unfolding
-- plain definitions in a metavariable's type
set_option backward.isDefEq.respectTransparency.types false in
/-- From any launch memory with zero counters every weakly fair execution of @main terminates, nothing faulting, and
    the final memory holds every unscoped buffer at the last contents of the chain: the launch over the nineteen
    items, each host stretch applying its operations, each region entered and left through its record. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V19 m outs c b) := by
  refine Pipeline.θ_run_regions_kit_dev (pcfgs (F := F)) adm (pdats m outs) () cellOf_inj emb₁ defs₀ Variants.none noLevels noLevel m ρ main
    (segs m outs Variants.none noLevels noLevel (fun _ c => riding c) () (pdats m outs) (region0 m outs hfit) (region1 m outs hfit) (region2 m outs hfit) (region3 m outs hfit))
    (fun c Q => by
      rewrite [main_chain c, Seg.run_eq_chain,
        show ((segs m outs Variants.none noLevels noLevel (fun _ c => riding c) () (pdats m outs) (region0 m outs hfit) (region1 m outs hfit) (region2 m outs hfit) (region3 m outs hfit)) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ riding c))
    (Tₙ := fun c => StableHlo.held (c : Thread nD τ) (Pipeline.ucRefs τ sig) (V19 m outs c))
    (hch := fun c => ⟨.rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := ?_) (QY := fun c s => ∀ b ∈ Pipeline.ucRefs τ sig, s.mem ((c : Thread nD τ).1, b) = V19 m outs c b)
    (hfin := fun c s' => ?_) (hQ := fun _ h => h)
  · -- the launch, core by core: the unscoped buffers are held at the launch contents; the generator register and
    -- the core's dues ride along
    refine Pipeline.initEach noLevels noLevel fun c => ?_
    rw [show unscopedBufs c (fun b => m ((c.tc : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    unfold StableHlo.held
    iintro ⟨Hh, HSI⟩
    ihave Hr := (pointsTo_read_all (Pipeline.ucRefs τ sig) (fun b => ((c : Thread nD τ).1, b)) (V19 m outs c) s') $$ [Hh HSI]
    · isplitl [Hh] <;> iassumption
    icases Hr with ⟨%h, HSI⟩
    imodintro
    isplitr
    · ipureintro
      exact h
    · iexact HSI

/-- An unscoped TensorCore reference is among those the thread state holds. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hfit in
/-- The result: the logits' buffer ends at what the last region leaves, and the arguments as launched (no item of
    @main writes an argument). -/
theorem result_of : θ_run defs (onTc (τ := τ) (main (F := F))) ⟨m, fun _ => 0, ρ⟩ (fun r => ∀ c : Dev nD,
      r.2.mem ((c.tc : Thread nD τ).loc main_v82) = (data3 (in3 m outs) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (held_ref main_v82 (by decide))).trans (out3_at m outs hfit c),
    (h c _ (held_ref main_arg0 (by decide))).trans (V19_main_arg0 m outs c),
    (h c _ (held_ref main_arg1 (by decide))).trans (V19_main_arg1 m outs c),
    (h c _ (held_ref main_arg2 (by decide))).trans (V19_main_arg2 m outs c),
    (h c _ (held_ref main_arg3 (by decide))).trans (V19_main_arg3 m outs c),
    (h c _ (held_ref main_arg4 (by decide))).trans (V19_main_arg4 m outs c),
    (h c _ (held_ref main_arg5 (by decide))).trans (V19_main_arg5 m outs c),
    (h c _ (held_ref main_arg6 (by decide))).trans (V19_main_arg6 m outs c),
    (h c _ (held_ref main_arg7 (by decide))).trans (V19_main_arg7 m outs c),
    (h c _ (held_ref main_arg8 (by decide))).trans (V19_main_arg8 m outs c),
    (h c _ (held_ref main_arg9 (by decide))).trans (V19_main_arg9 m outs c),
    (h c _ (held_ref main_arg10 (by decide))).trans (V19_main_arg10 m outs c),
    (h c _ (held_ref main_arg11 (by decide))).trans (V19_main_arg11 m outs c)⟩) (run_all m outs hfit ρ)

/-! ## Fitting contents exist -/

section Staged

/-- The contents region 1 is entered with read the regions' leavings only at the first product, -/
theorem V7_congr (o o' : Outs (F := F)) (h : ∀ c, o 4 main_v33 c = o' 4 main_v33 c) (c : Dev nD) : V7 m o c = V7 m o' c := by
  show StableHlo.after hostOps1_2 (StableHlo.after hostOps1_1 (StableHlo.after hostOps1 (Function.update (V3 m c) main_v33 (o 4 main_v33 c)))) = _
  rw [h c]
/-- region 2's only at the two products, -/
theorem V16_congr (o o' : Outs (F := F)) (h : ∀ c, o 4 main_v33 c = o' 4 main_v33 c) (h' : ∀ c, o 8 main_v52 c = o' 8 main_v52 c) (c : Dev nD) :
    V16 m o c = V16 m o' c := by
  show StableHlo.after hostOps2_7 (StableHlo.after hostOps2_6 (StableHlo.after hostOps2_5 (StableHlo.after hostOps2_4 (StableHlo.after hostOps2_3
    (StableHlo.after hostOps2_2 (StableHlo.after hostOps2_1 (StableHlo.after hostOps2 (Function.update (V7 m o c) main_v52 (o 8 main_v52 c))))))))) = _
  rw [V7_congr m o o' h c, h' c]
/-- region 3's only at the two products and the pooled sums. -/
theorem V18_congr (o o' : Outs (F := F)) (h : ∀ c, o 4 main_v33 c = o' 4 main_v33 c) (h' : ∀ c, o 8 main_v52 c = o' 8 main_v52 c)
    (h'' : ∀ c, o 17 main_v76 c = o' 17 main_v76 c) (c : Dev nD) : V18 m o c = V18 m o' c := by
  show StableHlo.after hostOps3 (Function.update (V16 m o c) main_v76 (o 17 main_v76 c)) = _
  rw [V16_congr m o o' h h' c, h'' c]
theorem in1_congr (o o' : Outs (F := F)) (h : ∀ c, o 4 main_v33 c = o' 4 main_v33 c) : in1 m o = in1 m o' := by
  funext c b; show V7 m o c b = V7 m o' c b; rw [V7_congr m o o' h c]
theorem in2_congr (o o' : Outs (F := F)) (h : ∀ c, o 4 main_v33 c = o' 4 main_v33 c) (h' : ∀ c, o 8 main_v52 c = o' 8 main_v52 c) :
    in2 m o = in2 m o' := by
  funext c b; show V16 m o c b = V16 m o' c b; rw [V16_congr m o o' h h' c]
theorem in3_congr (o o' : Outs (F := F)) (h : ∀ c, o 4 main_v33 c = o' 4 main_v33 c) (h' : ∀ c, o 8 main_v52 c = o' 8 main_v52 c)
    (h'' : ∀ c, o 17 main_v76 c = o' 17 main_v76 c) : in3 m o = in3 m o' := by
  funext c b; show V18 m o c b = V18 m o' c b; rw [V18_congr m o o' h h' h'' c]

/-- The regions' leavings built in order: each region's output from the contents it is entered with, which read only
    what the regions before it left. -/
def stage1 : Outs (F := F) := fun _ r c => Function.update (V3 m c) main_v33 ((data0 (in0 m) c).arrAt 2 cfg0.N) r
def stage2 : Outs (F := F) := fun J r c =>
  if J = 4 then stage1 m J r c else Function.update (V7 m (stage1 m) c) main_v52 ((data1 (in1 m (stage1 m)) c).arrAt 2 cfg1.N) r
def stage3 : Outs (F := F) := fun J r c =>
  if J = 4 ∨ J = 8 then stage2 m J r c else Function.update (V16 m (stage2 m) c) main_v76 ((data2 (in2 m (stage2 m)) c).arrAt 2 cfg2.N) r
def stage4 : Outs (F := F) := fun J r c =>
  if J = 4 ∨ J = 8 ∨ J = 17 then stage3 m J r c else Function.update (V18 m (stage3 m) c) main_v82 ((data3 (in3 m (stage3 m)) c).arrAt 5 cfg3.N) r

theorem stage1_first (c : Dev nD) : stage1 m 4 main_v33 c = (data0 (in0 m) c).arrAt 2 cfg0.N := by
  unfold stage1; rw [Function.update_self]
theorem stage2_first (c : Dev nD) : stage2 m 4 main_v33 c = stage1 m 4 main_v33 c := by
  unfold stage2; rw [if_pos rfl]
theorem stage2_second (c : Dev nD) : stage2 m 8 main_v52 c = (data1 (in1 m (stage1 m)) c).arrAt 2 cfg1.N := by
  unfold stage2; rw [if_neg (by decide), Function.update_self]
theorem stage3_first (c : Dev nD) : stage3 m 4 main_v33 c = stage2 m 4 main_v33 c := by
  unfold stage3; rw [if_pos (Or.inl rfl)]
theorem stage3_second (c : Dev nD) : stage3 m 8 main_v52 c = stage2 m 8 main_v52 c := by
  unfold stage3; rw [if_pos (Or.inr rfl)]
theorem stage3_pooled (c : Dev nD) : stage3 m 17 main_v76 c = (data2 (in2 m (stage2 m)) c).arrAt 2 cfg2.N := by
  unfold stage3; rw [if_neg (by decide), Function.update_self]
theorem stage4_first (c : Dev nD) : stage4 m 4 main_v33 c = stage3 m 4 main_v33 c := by
  unfold stage4; rw [if_pos (Or.inl rfl)]
theorem stage4_second (c : Dev nD) : stage4 m 8 main_v52 c = stage3 m 8 main_v52 c := by
  unfold stage4; rw [if_pos (Or.inr (Or.inl rfl))]
theorem stage4_pooled (c : Dev nD) : stage4 m 17 main_v76 c = stage3 m 17 main_v76 c := by
  unfold stage4; rw [if_pos (Or.inr (Or.inr rfl))]
theorem stage4_logits (c : Dev nD) : stage4 m 19 main_v82 c = (data3 (in3 m (stage3 m)) c).arrAt 5 cfg3.N := by
  unfold stage4; rw [if_neg (by decide), Function.update_self]

/-- The contents built in order fit. -/
theorem stage4_fits : Fits m (stage4 m) where
  first c := (stage4_first m c).trans ((stage3_first m c).trans ((stage2_first m c).trans (stage1_first m c)))
  second c := by
    rw [in1_congr m (stage4 m) (stage1 m) fun c => (stage4_first m c).trans ((stage3_first m c).trans (stage2_first m c))]
    exact (stage4_second m c).trans ((stage3_second m c).trans (stage2_second m c))
  pooled c := by
    rw [in2_congr m (stage4 m) (stage2 m) (fun c => (stage4_first m c).trans (stage3_first m c))
      (fun c => (stage4_second m c).trans (stage3_second m c))]
    exact (stage4_pooled m c).trans (stage3_pooled m c)
  logits c := by
    rw [in3_congr m (stage4 m) (stage3 m) (stage4_first m) (stage4_second m) (stage4_pooled m)]
    exact stage4_logits m c

end Staged

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (result_of m (stage4 m) (stage4_fits m) ρ)

end Cert.Kernel.Hand

end
-- ==== Proof.RefSide.lean ====
/-
  The reference program's side: its run read back and its operations read at an index.
-/
import proofs.«405348_j60988535603684_1_alg».proof.Proof.Gen.ReferenceIdeal.Run
import proofs.«405348_j60988535603684_1_alg».proof.Proof.Gen.ReferenceIdeal.Read
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.DenseValue.lean ====
/-
  The value of the two dense layers on the extended reals. Each layer runs on a grid of 25 row blocks: at block t
  the body multiplies rows 2000 t .. 2000 t + 1999 of its left operand by the whole 128 x 128 right operand and
  the pipeline writes the 2000 x 128 product back to the same rows of the output. Rounding the operands to bf16
  is the identity on the extended reals and the product is taken into a zero accumulator, so each stored entry is
  the sum over k of x(r, k) * w(k, j); the 25 blocks tile the 50000 rows, so after the run the output array is the
  whole product of the two operand arrays as the layer found them.
-/
import proofs.«405348_j60988535603684_1_alg».proof.Proof.Dense0
import proofs.«405348_j60988535603684_1_alg».proof.Proof.Dense1
import proofs.«405348_j60988535603684_1_alg».proof.Proof.LibPlainDot
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The specification -/

/-- x·w on the extended reals: entry (r, j) is the sum over k of x(r,k)·w(k,j). -/
def rowsTimes (x : S50000x128.Idx → EReal) (w : S128x128.Idx → EReal) : S50000x128.Idx → EReal :=
  fun i => ∑ k : Fin 128, x (ix2 (⟨(i 0).val, (i 0).isLt⟩ : Fin 50000) k) * w (ix2 k (⟨(i 1).val, (i 1).isLt⟩ : Fin 128))

/-- At an entry given by its two coordinates. -/
theorem rowsTimes_apply (x : S50000x128.Idx → EReal) (w : S128x128.Idx → EReal) (r : Fin 50000) (j : Fin 128) :
    rowsTimes x w (ix2 r j) = ∑ k : Fin 128, x (ix2 r k) * w (ix2 k j) := rfl

/-! ## The body's arithmetic at an entry -/

/-- Rounding both operands to bf16 is the identity on the extended reals, the reshape is to the same shape, and the
    product into the zero accumulator is the textbook sum: the first layer's payload at entry (p, q). -/
theorem pay0_apply (x : Vec Ideal S2000x128 .f32) (w : Vec Ideal S128x128 .f32) (p : Fin 2000) (q : Fin 128) :
    k0_pay1 x w (ix2 p q) = ∑ k : Fin 128, x (ix2 p k) * w (ix2 k q) := by
  unfold k0_pay1
  refine (PlainDot.matmul_zero_apply (M := 2000) (K := 128) (N := 128) dot_S2000x128_S128x128_S2000x128_1_0_0_1_n_n
    rfl rfl rfl rfl rfl rfl rfl rfl none _ _ p q).trans ?_
  simp only [truncf_apply, shapeCast_self]

/-- The second layer's payload at entry (p, q): the same sum (its left operand passes one more reshape to its own shape). -/
theorem pay1_apply (x : Vec Ideal S2000x128 .f32) (w : Vec Ideal S128x128 .f32) (p : Fin 2000) (q : Fin 128) :
    k1_pay1 x w (ix2 p q) = ∑ k : Fin 128, x (ix2 p k) * w (ix2 k q) := by
  unfold k1_pay1
  refine (PlainDot.matmul_zero_apply (M := 2000) (K := 128) (N := 128) dot_S2000x128_S128x128_S2000x128_1_0_0_1_n_n
    rfl rfl rfl rfl rfl rfl rfl rfl none _ _ p q).trans ?_
  simp only [truncf_apply, shapeCast_self]

/-! ## The blocks as rows of the arrays -/

theorem zeros2 : (![0, 0] : Fin 2 → Nat) = fun _ => 0 := funext fun a => by fin_cases a <;> rfl

section Blocks

variable {F : FTy → Type} [FloatOps F]
variable (V : (c : Dev nD) → (b : Ref sig .tc) → Buf (Elt F) ((c : Thread nD τ).loc b))

/-! ### The first layer -/

/-- The index maps of the first layer's three windows, decided over the grid: the two row-blocked windows are at
    block (t, 0) at point t, the right operand's at block (0, 0) throughout. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left operand's block at point t is entry (2000 t + p, k) of the array. -/
theorem leftBlock0_apply (c : Dev nD) (t : Fin cfg0.N) (p : Fin 2000) (k : Fin 128) (r : Fin 50000)
    (hr : r.val = 2000 * t.val + p.val) :
    (block0 V c 0 t : Vec F S2000x128 .f32) (ix2 p k) = (V c (Pipeline.arrRef spec0 0) : S50000x128.Idx → Elt F .f32) (ix2 r k) := by
  obtain ⟨e0, e1, -, -, -, -⟩ := blockIndex0 t
  unfold block0
  rw [View.read_apply]
  show V c main_arg0 (((cfg0.win 0).blk t).view.emb (ix2 p k)) = V c main_arg0 (ix2 r k)
  congr 1
  funext a
  apply Fin.ext
  match a with
  | ⟨0, _⟩ => show win0_0.index t (0 : Fin 2) * 2000 + 1 * p.val = r.val; omega
  | ⟨1, _⟩ => show win0_0.index t (1 : Fin 2) * 128 + 1 * k.val = k.val; omega

/-- The right operand's block at any point is the whole matrix. -/
theorem rightBlock0_apply (c : Dev nD) (t : Fin cfg0.N) (k : Fin 128) (q : Fin 128) :
    (block0 V c 1 t : Vec F S128x128 .f32) (ix2 k q) = (V c (Pipeline.arrRef spec0 1) : S128x128.Idx → Elt F .f32) (ix2 k q) := by
  obtain ⟨-, -, e2, e3, -, -⟩ := blockIndex0 t
  unfold block0
  rw [View.read_apply]
  show V c main_v32 (((cfg0.win 1).blk t).view.emb (ix2 k q)) = V c main_v32 (ix2 k q)
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- Entry (p, q) of the output's block at point t sits at entry (2000 t + p, q) of the array. -/
theorem outBlock0_emb (t : Fin cfg0.N) (p : Fin 2000) (q : Fin 128) (r : Fin 50000) (hr : r.val = 2000 * t.val + p.val) :
    ((cfg0.win 2).blk t).view.emb (ix2 p q) = (ix2 r q : S50000x128.Idx) := by
  obtain ⟨-, -, -, -, e4, e5⟩ := blockIndex0 t
  funext a
  apply Fin.ext
  match a with
  | ⟨0, _⟩ => show win0_2.index t (0 : Fin 2) * 2000 + 1 * p.val = r.val; omega
  | ⟨1, _⟩ => show win0_2.index t (1 : Fin 2) * 128 + 1 * q.val = q.val; omega

/-! ### The second layer -/

/-- The index maps of the second layer's three windows, decided over the grid: the two row-blocked windows are at
    block (t, 0) at point t, the right operand's at block (0, 0) throughout. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, k) of the left operand's block at point t is entry (2000 t + p, k) of the array. -/
theorem leftBlock1_apply (c : Dev nD) (t : Fin cfg1.N) (p : Fin 2000) (k : Fin 128) (r : Fin 50000)
    (hr : r.val = 2000 * t.val + p.val) :
    (block1 V c 0 t : Vec F S2000x128 .f32) (ix2 p k) = (V c (Pipeline.arrRef spec1 0) : S50000x128.Idx → Elt F .f32) (ix2 r k) := by
  obtain ⟨e0, e1, -, -, -, -⟩ := blockIndex1 t
  unfold block1
  rw [View.read_apply]
  show V c main_v50 (((cfg1.win 0).blk t).view.emb (ix2 p k)) = V c main_v50 (ix2 r k)
  congr 1
  funext a
  apply Fin.ext
  match a with
  | ⟨0, _⟩ => show win1_0.index t (0 : Fin 2) * 2000 + 1 * p.val = r.val; omega
  | ⟨1, _⟩ => show win1_0.index t (1 : Fin 2) * 128 + 1 * k.val = k.val; omega

/-- The right operand's block at any point is the whole matrix. -/
theorem rightBlock1_apply (c : Dev nD) (t : Fin cfg1.N) (k : Fin 128) (q : Fin 128) :
    (block1 V c 1 t : Vec F S128x128 .f32) (ix2 k q) = (V c (Pipeline.arrRef spec1 1) : S128x128.Idx → Elt F .f32) (ix2 k q) := by
  obtain ⟨-, -, e2, e3, -, -⟩ := blockIndex1 t
  unfold block1
  rw [View.read_apply]
  show V c main_v51 (((cfg1.win 1).blk t).view.emb (ix2 k q)) = V c main_v51 (ix2 k q)
  congr 1
  funext a
  apply Fin.ext
  match a with
  | ⟨0, _⟩ => show win1_1.index t (0 : Fin 2) * 128 + 1 * k.val = k.val; omega
  | ⟨1, _⟩ => show win1_1.index t (1 : Fin 2) * 128 + 1 * q.val = q.val; omega

/-- Entry (p, q) of the output's block at point t sits at entry (2000 t + p, q) of the array. -/
theorem outBlock1_emb (t : Fin cfg1.N) (p : Fin 2000) (q : Fin 128) (r : Fin 50000) (hr : r.val = 2000 * t.val + p.val) :
    ((cfg1.win 2).blk t).view.emb (ix2 p q) = (ix2 r q : S50000x128.Idx) := by
  obtain ⟨-, -, -, -, e4, e5⟩ := blockIndex1 t
  funext a
  apply Fin.ext
  match a with
  | ⟨0, _⟩ => show win1_2.index t (0 : Fin 2) * 2000 + 1 * p.val = r.val; omega
  | ⟨1, _⟩ => show win1_2.index t (1 : Fin 2) * 128 + 1 * q.val = q.val; omega

end Blocks

/-! ## What a point writes back, and the array after the run -/

section Value

variable (V : (c : Dev nD) → (b : Ref sig .tc) → Buf (Elt Ideal) ((c : Thread nD τ).loc b))

/-! ### The first layer -/

/-- Point t writes back block t of the whole product: entry (p, q) of the stored product is the sum over k of the
    left block's (p, k) times the right block's (k, q), which are the arrays' (2000 t + p, k) and (k, q). -/
theorem writeback0 (c : Dev nD) (t : Fin cfg0.N) :
    (data0 V c).flushed 2 t = ((cfg0.win 2).blk t).view.read (Elt Ideal)
      (rowsTimes (V c (Pipeline.arrRef spec0 0)) (V c (Pipeline.arrRef spec0 1))) := by
  show (cfg0.win 2).cut (grid0.coords t) ((data0 V c).after 2 t) = _
  rw [left0_2]
  unfold product0
  rw [View.canon_unit_zero zeros2]
  simp only [View.ld_unit_zero (S := S2000x128) zeros2, View.ld_unit_zero (S := S128x128) zeros2]
  funext j
  obtain ⟨p, q, rfl⟩ : ∃ (p : Fin 2000) (q : Fin 128), j = ix2 p q := ⟨j 0, j 1, eq_ix2 j⟩
  have ht : t.val < 25 := t.isLt
  have hr : 2000 * t.val + p.val < 50000 := by have := p.isLt; omega
  show k0_pay1 (block0 V c 0 t) (block0 V c 1 t) (ix2 p q)
    = rowsTimes (V c (Pipeline.arrRef spec0 0)) (V c (Pipeline.arrRef spec0 1)) (((cfg0.win 2).blk t).view.emb (ix2 p q))
  rw [outBlock0_emb t p q ⟨2000 * t.val + p.val, hr⟩ rfl, rowsTimes_apply]
  refine (pay0_apply _ _ p q).trans (Finset.sum_congr rfl fun k _ => ?_)
  rw [leftBlock0_apply V c t p k ⟨2000 * t.val + p.val, hr⟩ rfl, rightBlock0_apply V c t k q]

/-- An entry of the output array is in point t's block iff each coordinate is in the block's range on its axis. -/
theorem mem_outBlock0 (t : Fin cfg0.N) (i : S50000x128.Idx) :
    i ∈ ((cfg0.win 2).blk t).view.set
      ↔ ∀ a : Fin 2, win0_2.index t a * S2000x128.size a ≤ (i a).val ∧ (i a).val < win0_2.index t a * S2000x128.size a + S2000x128.size a := by
  show i ∈ ((View.whole main_v33).slice (win0_2.rect t)).set ↔ _
  rw [View.set_slice_whole, Rect.mem_set_unit]
  exact Iff.rfl

/-- Row r of the output is in the block of point r / 2000. -/
theorem rows_tiled0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 2000 < 25 := by omega
  obtain ⟨-, -, -, -, e4, e5⟩ := blockIndex0 ⟨(i 0).val / 2000, ht⟩
  have e4' : win0_2.index ⟨(i 0).val / 2000, ht⟩ (0 : Fin 2) = (i 0).val / 2000 := e4
  refine ⟨⟨(i 0).val / 2000, ht⟩, flush0_2 _, ?_⟩
  rw [mem_outBlock0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    omega

/-- THE FIRST LAYER: after the run its output array is the product of its two operand arrays as it found them. -/
theorem dense0_value (c : Dev nD) :
    (data0 V c).arrAt 2 cfg0.N = rowsTimes (V c (Pipeline.arrRef spec0 0)) (V c (Pipeline.arrRef spec0 1)) :=
  (data0 V c).arrAt_eq_of_cover 2 (rowsTimes (V c (Pipeline.arrRef spec0 0)) (V c (Pipeline.arrRef spec0 1)))
    (fun t _ => writeback0 V c t) rows_tiled0

/-! ### The second layer -/

/-- Point t writes back block t of the whole product: entry (p, q) of the stored product is the sum over k of the
    left block's (p, k) times the right block's (k, q), which are the arrays' (2000 t + p, k) and (k, q). -/
theorem writeback1 (c : Dev nD) (t : Fin cfg1.N) :
    (data1 V c).flushed 2 t = ((cfg1.win 2).blk t).view.read (Elt Ideal)
      (rowsTimes (V c (Pipeline.arrRef spec1 0)) (V c (Pipeline.arrRef spec1 1))) := by
  show (cfg1.win 2).cut (grid1.coords t) ((data1 V c).after 2 t) = _
  rw [left1_2]
  unfold product1
  rw [View.canon_unit_zero zeros2]
  simp only [View.ld_unit_zero (S := S2000x128) zeros2, View.ld_unit_zero (S := S128x128) zeros2]
  funext j
  obtain ⟨p, q, rfl⟩ : ∃ (p : Fin 2000) (q : Fin 128), j = ix2 p q := ⟨j 0, j 1, eq_ix2 j⟩
  have ht : t.val < 25 := t.isLt
  have hr : 2000 * t.val + p.val < 50000 := by have := p.isLt; omega
  show k1_pay1 (block1 V c 0 t) (block1 V c 1 t) (ix2 p q)
    = rowsTimes (V c (Pipeline.arrRef spec1 0)) (V c (Pipeline.arrRef spec1 1)) (((cfg1.win 2).blk t).view.emb (ix2 p q))
  rw [outBlock1_emb t p q ⟨2000 * t.val + p.val, hr⟩ rfl, rowsTimes_apply]
  refine (pay1_apply _ _ p q).trans (Finset.sum_congr rfl fun k _ => ?_)
  rw [leftBlock1_apply V c t p k ⟨2000 * t.val + p.val, hr⟩ rfl, rightBlock1_apply V c t k q]

/-- An entry of the output array is in point t's block iff each coordinate is in the block's range on its axis. -/
theorem mem_outBlock1 (t : Fin cfg1.N) (i : S50000x128.Idx) :
    i ∈ ((cfg1.win 2).blk t).view.set
      ↔ ∀ a : Fin 2, win1_2.index t a * S2000x128.size a ≤ (i a).val ∧ (i a).val < win1_2.index t a * S2000x128.size a + S2000x128.size a := by
  show i ∈ ((View.whole main_v52).slice (win1_2.rect t)).set ↔ _
  rw [View.set_slice_whole, Rect.mem_set_unit]
  exact Iff.rfl

/-- Row r of the output is in the block of point r / 2000. -/
theorem rows_tiled1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have ht : (i 0).val / 2000 < 25 := by omega
  obtain ⟨-, -, -, -, e4, e5⟩ := blockIndex1 ⟨(i 0).val / 2000, ht⟩
  have e4' : win1_2.index ⟨(i 0).val / 2000, ht⟩ (0 : Fin 2) = (i 0).val / 2000 := e4
  refine ⟨⟨(i 0).val / 2000, ht⟩, flush1_2 _, ?_⟩
  rw [mem_outBlock1]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    omega
  | ⟨1, _⟩ =>
    show win1_2.index ⟨(i 0).val / 2000, ht⟩ (1 : Fin 2) * 128 ≤ (i 1).val
      ∧ (i 1).val < win1_2.index ⟨(i 0).val / 2000, ht⟩ (1 : Fin 2) * 128 + 128
    omega

/-- THE SECOND LAYER: after the run its output array is the product of its two operand arrays as it found them. -/
theorem dense1_value (c : Dev nD) :
    (data1 V c).arrAt 2 cfg1.N = rowsTimes (V c (Pipeline.arrRef spec1 0)) (V c (Pipeline.arrRef spec1 1)) :=
  (data1 V c).arrAt_eq_of_cover 2 (rowsTimes (V c (Pipeline.arrRef spec1 0)) (V c (Pipeline.arrRef spec1 1)))
    (fun t _ => writeback1 V c t) rows_tiled1

end Value

end Cert.KernelIdeal.Hand

end
-- ==== Proof.PoolValue.lean ====
/-
  The value of the pooling call on the extended reals. The call runs on a grid of 25 points: at point t the body
  multiplies columns 2048 t .. 2048 t + 2047 of the 100 x 51200 left operand by rows 2048 t .. 2048 t + 2047 of the
  51200 x 128 right operand into a zero accumulator and adds the 100 x 128 product to a running total, which starts
  at zero at the first point; the total is copied to the output's one block at the last point, the only one that is
  written back. Rounding to bf16 is the identity on the extended reals, so each point adds, at entry (g, d), the sum
  over j of a(g, 2048 t + j) * b(2048 t + j, d); the 25 column blocks tile the 51200 columns, and addition on the
  extended reals is associative and commutative with 0 neutral, so after the run the output array is the whole
  product  ∑ n, a(g, n) * b(n, d)  of the two operand arrays as the call found them.
-/
import proofs.«405348_j60988535603684_1_alg».proof.Proof.Pool
import proofs.«405348_j60988535603684_1_alg».proof.Proof.LibPlainDot
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The specification -/

/-- a·b on the extended reals for a : 100 x 51200, b : 51200 x 128: entry (g, d) is the sum over n of a(g,n)·b(n,d). -/
def pooledSum (a : S100x51200.Idx → EReal) (b : S51200x128.Idx → EReal) : S100x128.Idx → EReal :=
  fun i => ∑ n : Fin 51200, a (ix2 (⟨(i 0).val, (i 0).isLt⟩ : Fin 100) n) * b (ix2 n (⟨(i 1).val, (i 1).isLt⟩ : Fin 128))

/-- At an entry given by its two coordinates. -/
theorem pooledSum_apply (a : S100x51200.Idx → EReal) (b : S51200x128.Idx → EReal) (g : Fin 100) (d : Fin 128) :
    pooledSum a b (ix2 g d) = ∑ n : Fin 51200, a (ix2 g n) * b (ix2 n d) := rfl

/-! ## The body's arithmetic at an entry -/

/-- The running total starts at zero: the broadcast of the zero word reads 0 at every entry. -/
theorem poolZero_apply (i : S100x128.Idx) : (k2_pay1 (F := Ideal)) i = 0 := by
  unfold k2_pay1
  simp only [shapeCast_self]
  exact Ideal.ofBits_zero_f32

/-- Row g of a 100 x 2048 block times column d of a 2048 x 128 block. -/
def poolDot (x : Vec Ideal S100x2048 .bf16) (y : Vec Ideal S2048x128 .f32) (g : Fin 100) (d : Fin 128) : EReal :=
  ∑ j : Fin 2048, x (ix2 g j) * y (ix2 j d)

/-- One point's step at entry (g, d): the reshapes are to the same shapes, rounding to bf16 is the identity, and the
    product into the zero accumulator is the textbook sum, added to what the total held. -/
theorem poolStep_apply (x : Vec Ideal S100x2048 .bf16) (y : Vec Ideal S2048x128 .f32) (acc : Vec Ideal S100x128 .f32)
    (g : Fin 100) (d : Fin 128) :
    k2_pay2 x y acc (ix2 g d) = acc (ix2 g d) + poolDot x y g d := by
  unfold k2_pay2
  simp only [shapeCast_self]
  refine (congrArg (fun z => acc (ix2 g d) + z) (PlainDot.matmul_zero_apply (M := 100) (K := 2048) (N := 128)
    dot_S100x2048_S2048x128_S100x128_1_0_0_1_n_n rfl rfl rfl rfl rfl rfl rfl rfl none _ _ g d)).trans ?_
  simp only [truncf_apply, poolDot]

/-! ## The blocks as columns of the left operand and rows of the right operand -/

section Blocks

variable {F : FTy → Type} [FloatOps F]
variable (V : (c : Dev nD) → (b : Ref sig .tc) → Buf (Elt F) ((c : Thread nD τ).loc b))

/-- The index maps of the three windows, decided over the grid: at point t the left operand's window is at block
    (0, t), the right operand's at block (t, 0), the output's at block (0, 0). -/
theorem blockIndex2 : ∀ t : Fin cfg2.N, win2_0.index t (0 : Fin 2) = 0 ∧ win2_0.index t (1 : Fin 2) = t.val
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- Entry (g, j) of the left operand's block at point t is entry (g, 2048 t + j) of the array. -/
theorem leftBlock2_apply (c : Dev nD) (t : Fin cfg2.N) (g : Fin 100) (j : Fin 2048) (n : Fin 51200)
    (hn : n.val = 2048 * t.val + j.val) :
    (block2 V c 0 t : Vec F S100x2048 .bf16) (ix2 g j) = (V c (Pipeline.arrRef spec2 0) : S100x51200.Idx → Elt F .bf16) (ix2 g n) := by
  obtain ⟨e0, e1, -, -, -, -⟩ := blockIndex2 t
  unfold block2
  rw [View.read_apply]
  show V c main_v75 (((cfg2.win 0).blk t).view.emb (ix2 g j)) = V c main_v75 (ix2 g n)
  congr 1
  funext a
  apply Fin.ext
  match a with
  | ⟨0, _⟩ => show win2_0.index t (0 : Fin 2) * 100 + 1 * g.val = g.val; omega
  | ⟨1, _⟩ => show win2_0.index t (1 : Fin 2) * 2048 + 1 * j.val = n.val; omega

/-- Entry (j, d) of the right operand's block at point t is entry (2048 t + j, d) of the array. -/
theorem rightBlock2_apply (c : Dev nD) (t : Fin cfg2.N) (j : Fin 2048) (d : Fin 128) (n : Fin 51200)
    (hn : n.val = 2048 * t.val + j.val) :
    (block2 V c 1 t : Vec F S2048x128 .f32) (ix2 j d) = (V c (Pipeline.arrRef spec2 1) : S51200x128.Idx → Elt F .f32) (ix2 n d) := by
  obtain ⟨-, -, e2, e3, -, -⟩ := blockIndex2 t
  unfold block2
  rw [View.read_apply]
  show V c main_v74 (((cfg2.win 1).blk t).view.emb (ix2 j d)) = V c main_v74 (ix2 n d)
  congr 1
  funext a
  apply Fin.ext
  match a with
  | ⟨0, _⟩ => show win2_1.index t (0 : Fin 2) * 2048 + 1 * j.val = n.val; omega
  | ⟨1, _⟩ => show win2_1.index t (1 : Fin 2) * 128 + 1 * d.val = d.val; omega

/-- Entry (g, d) of the output's one block sits at entry (g, d) of the array. -/
theorem outBlock2_emb (t : Fin cfg2.N) (g : Fin 100) (d : Fin 128) :
    ((cfg2.win 2).blk t).view.emb (ix2 g d) = (ix2 g d : S100x128.Idx) := by
  obtain ⟨-, -, -, -, e4, e5⟩ := blockIndex2 t
  funext a
  apply Fin.ext
  match a with
  | ⟨0, _⟩ => show win2_2.index t (0 : Fin 2) * 100 + 1 * g.val = g.val; omega
  | ⟨1, _⟩ => show win2_2.index t (1 : Fin 2) * 128 + 1 * d.val = d.val; omega

end Blocks

/-! ## The accumulator after each point, at an entry -/

/-- The 25 column blocks of 2048 tile the 51200 columns: column 2048 t + j is position j of block t. -/
def poolCols : Fin 25 × Fin 2048 ≃ Fin 51200 where
  toFun p := ⟨2048 * p.1.val + p.2.val, by have := p.1.isLt; have := p.2.isLt; omega⟩
  invFun n := (⟨n.val / 2048, by have := n.isLt; omega⟩, ⟨n.val % 2048, Nat.mod_lt _ (by decide)⟩)
  left_inv p := by
    have h1 := p.1.isLt
    have h2 := p.2.isLt
    refine Prod.ext (Fin.ext ?_) (Fin.ext ?_)
    · show (2048 * p.1.val + p.2.val) / 2048 = p.1.val
      omega
    · show (2048 * p.1.val + p.2.val) % 2048 = p.2.val
      omega
  right_inv n := Fin.ext (by
    show 2048 * (n.val / 2048) + n.val % 2048 = n.val
    omega)

/-- The column a pair names. -/
theorem poolCols_val (t : Fin 25) (j : Fin 2048) : (poolCols (t, j)).val = 2048 * t.val + j.val := rfl

/-- So a sum over all columns is the double sum over the blocks and the positions inside a block. -/
theorem sum_poolCols (f : Fin 51200 → EReal) : ∑ n : Fin 51200, f n = ∑ t : Fin 25, ∑ j : Fin 2048, f (poolCols (t, j)) := by
  rw [← Equiv.sum_comp poolCols f, Fintype.sum_prod_type]

section Value

variable (V : (c : Dev nD) → (b : Ref sig .tc) → Buf (Elt Ideal) ((c : Thread nD τ).loc b))

/-- What point t adds to entry (g, d): row g of its left block times column d of its right block. -/
def addend2 (c : Dev nD) (g : Fin 100) (d : Fin 128) (t : Fin cfg2.N) : EReal :=
  poolDot (block2 V c 0 t) (block2 V c 1 t) g d

/-- After point n the accumulator's entry (g, d) is the sum of the addends of points 0 .. n: the first point adds to
    zero, every later one to what the point before left. -/
theorem pooled2_apply (c : Dev nD) (g : Fin 100) (d : Fin 128) : ∀ (n : ℕ) (h : n < cfg2.N),
    pooled2 V c n h (ix2 g d) = ∑ t : Fin (n + 1), addend2 V c g d ⟨t.val, Nat.lt_of_lt_of_le t.isLt (Nat.succ_le_of_lt h)⟩
  | 0, h => by
    show k2_pay2 (block2 V c 0 ⟨0, h⟩) (block2 V c 1 ⟨0, h⟩) (k2_pay1 (F := Ideal)) (ix2 g d) = _
    rw [poolStep_apply, poolZero_apply, zero_add, Fin.sum_univ_one]
    rfl
  | n + 1, h => by
    show k2_pay2 (block2 V c 0 ⟨n + 1, h⟩) (block2 V c 1 ⟨n + 1, h⟩) (pooled2 V c n (Nat.lt_of_succ_lt h)) (ix2 g d) = _
    rw [Fin.sum_univ_castSucc, poolStep_apply, pooled2_apply c g d n (Nat.lt_of_succ_lt h)]
    rfl

/-- After the last point entry (g, d) is the whole sum over the 51200 columns of the left operand's row g times the
    right operand's column d. -/
theorem pooled2_last_apply (c : Dev nD) (h : 24 < cfg2.N) (g : Fin 100) (d : Fin 128) :
    pooled2 V c 24 h (ix2 g d) = pooledSum (V c (Pipeline.arrRef spec2 0)) (V c (Pipeline.arrRef spec2 1)) (ix2 g d) := by
  rw [pooled2_apply V c g d 24 h, pooledSum_apply, sum_poolCols]
  refine Finset.sum_congr rfl fun t _ => ?_
  have ht : t.val < cfg2.N := Nat.lt_of_lt_of_le t.isLt (Nat.succ_le_of_lt h)
  show poolDot (block2 V c 0 ⟨t.val, ht⟩) (block2 V c 1 ⟨t.val, ht⟩) g d = _
  refine Finset.sum_congr rfl fun j _ => ?_
  rw [leftBlock2_apply V c ⟨t.val, ht⟩ g j (poolCols (t, j)) rfl, rightBlock2_apply V c ⟨t.val, ht⟩ j d (poolCols (t, j)) rfl]

/-! ## What is written back, and the array after the run -/

/-- Only the last point writes the output's block back, and it writes the whole sum. -/
theorem writeback2 (c : Dev nD) (t : Fin cfg2.N) (hf : (cfg2.win 2).flush t = true) :
    (data2 V c).flushed 2 t = ((cfg2.win 2).blk t).view.read (Elt Ideal)
      (pooledSum (V c (Pipeline.arrRef spec2 0)) (V c (Pipeline.arrRef spec2 1))) := by
  have hN : cfg2.N = 25 := N_2
  have h24 : t.val = 24 := by have := (flush2_2 t).mp hf; have := t.isLt; omega
  have key : ∀ (g : Fin 100) (d : Fin 128), pooled2 V c t.val t.isLt (ix2 g d)
      = pooledSum (V c (Pipeline.arrRef spec2 0)) (V c (Pipeline.arrRef spec2 1)) (ix2 g d) := by
    obtain ⟨n, hn⟩ := t
    obtain rfl : n = 24 := h24
    exact pooled2_last_apply V c hn
  show (cfg2.win 2).cut (grid2.coords t) ((data2 V c).after 2 t) = _
  rw [left2_2_last V c t h24]
  generalize pooled2 V c t.val t.isLt = X at key
  generalize pooledSum (V c (Pipeline.arrRef spec2 0)) (V c (Pipeline.arrRef spec2 1)) = G at key
  funext i
  obtain ⟨g, d, rfl⟩ : ∃ (g : Fin 100) (d : Fin 128), i = ix2 g d := ⟨i 0, i 1, eq_ix2 i⟩
  rw [View.read_apply, outBlock2_emb t g d]
  exact key g d

/-- The output's one block is the whole array, so the last point's write-back covers every entry. -/
theorem lastCovers2 (i : S100x128.Idx) :
    ∃ t : Fin cfg2.N, (cfg2.win 2).flush t = true ∧ i ∈ ((cfg2.win 2).blk t).view.set := by
  have h24 : 24 < cfg2.N := by rw [show cfg2.N = 25 from N_2]; decide
  obtain ⟨-, -, -, -, e4, e5⟩ := blockIndex2 ⟨24, h24⟩
  have hi0 : (i 0).val < 100 := (i 0).isLt
  have hi1 : (i 1).val < 128 := (i 1).isLt
  refine ⟨⟨24, h24⟩, (flush2_2 _).mpr rfl, ?_⟩
  show i ∈ ((View.whole main_v76).slice (win2_2.rect ⟨24, h24⟩)).set
  rw [View.set_slice_whole, Rect.mem_set_unit]
  intro a
  match a with
  | ⟨0, _⟩ =>
    show win2_2.index ⟨24, h24⟩ (0 : Fin 2) * 100 ≤ (i 0).val ∧ (i 0).val < win2_2.index ⟨24, h24⟩ (0 : Fin 2) * 100 + 100
    omega
  | ⟨1, _⟩ =>
    show win2_2.index ⟨24, h24⟩ (1 : Fin 2) * 128 ≤ (i 1).val ∧ (i 1).val < win2_2.index ⟨24, h24⟩ (1 : Fin 2) * 128 + 128
    omega

/-- THE POOLING CALL: after the run its output array is the product of its two operand arrays as it found them. -/
theorem pool_value (c : Dev nD) :
    (data2 V c).arrAt 2 cfg2.N = pooledSum (V c (Pipeline.arrRef spec2 0)) (V c (Pipeline.arrRef spec2 1)) :=
  (data2 V c).arrAt_eq_of_cover 2 (pooledSum (V c (Pipeline.arrRef spec2 0)) (V c (Pipeline.arrRef spec2 1)))
    (writeback2 V c) lastCovers2

end Value

end Cert.KernelIdeal.Hand

end
-- ==== Proof.HeadValue.lean ====
/-
  The classifier head's value at the ideal (extended-real) arithmetic, entry by entry, and the output array the
  region leaves.

  At row p and class q the stored value is
      ( sum over j of  max( (sum over k of x0[p,k] * x1[j,k]) + x2[j], 0 ) * x3[q,j] )  +  x4[q]:
  the features times the first weight transposed, plus the first bias, clamped below at zero, times the second
  weight transposed, plus the second bias. The changes of float format are the identity on the extended reals,
  each matrix product into a zero accumulator is its plain sum, a transposed operand swaps its two coordinates,
  and a bias is read along the row it is spread over.

  The grid has one point and every window's block is its whole array at block index zero, so each block the body
  finds is the array itself, and the one block written back is the whole output array.
-/
import proofs.«405348_j60988535603684_1_alg».proof.Proof.Head
import proofs.«405348_j60988535603684_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The stored value at an entry -/

/-- The first product at an entry: row p of the left operand against column j of the right. -/
theorem dot3A_apply {φ₁ φ₂ : FTy} (l : FVec Ideal S100x128 φ₁) (r : FVec Ideal S128x128 φ₂) (p : Fin 100) (j : Fin 128) :
    matmul dot_S100x128_S128x128_S100x128_1_0_0_1_n_n none l r (constant (F := Ideal) S100x128 .f32 0x00000000#32) (ix2 p j)
      = ∑ k : Fin 128, l (ix2 p k) * r (ix2 k j) :=
  PlainDot.matmul_zero_apply dot_S100x128_S128x128_S100x128_1_0_0_1_n_n rfl rfl rfl rfl rfl rfl rfl rfl none l r p j

/-- The second product at an entry: row p of the left operand against column q of the right. -/
theorem dot3B_apply {φ₁ φ₂ : FTy} (l : FVec Ideal S100x128 φ₁) (r : FVec Ideal S128x2 φ₂) (p : Fin 100) (q : Fin 2) :
    matmul dot_S100x128_S128x2_S100x2_1_0_0_1_n_n none l r (constant (F := Ideal) S100x2 .f32 0x00000000#32) (ix2 p q)
      = ∑ j : Fin 128, l (ix2 p j) * r (ix2 j q) :=
  PlainDot.matmul_zero_apply dot_S100x128_S128x2_S100x2_1_0_0_1_n_n rfl rfl rfl rfl rfl rfl rfl rfl none l r p q

/-- The body's arithmetic at row p and class q. The outer sum runs over the 128 hidden units j, the inner over the
    128 features k. -/
theorem pay3_apply (x0 : Vec Ideal S100x128 .f32) (x1 : Vec Ideal S128x128 .f32) (x2 : Vec Ideal S128 .f32)
    (x3 : Vec Ideal S2x128 .f32) (x4 : Vec Ideal S2 .f32) (p : Fin 100) (q : Fin 2) :
    k3_pay1 (F := Ideal) x0 x1 x2 x3 x4 (ix2 p q)
      = (∑ j : Fin 128, (max ((∑ k : Fin 128, x0 (ix2 p k) * x1 (ix2 j k)) + x2 (ix1 j)) 0) * x3 (ix2 q j))
        + x4 (ix1 q) := by
  unfold k3_pay1
  dsimp only
  -- the last addition, the second product, and the second bias spread over the rows
  rw [addf_apply, dot3B_apply, broadcastTo_1b_ab_apply, shapeCast_a_1a_apply]
  refine congrArg (· + x4 (ix1 q)) (Finset.sum_congr rfl fun j _ => ?_)
  -- hidden unit j: the clamp, the first bias, the first product; the second weight transposed
  rw [truncf_apply, maximumf_apply, addf_apply, dot3A_apply, broadcastTo_1b_ab_apply, shapeCast_a_1a_apply,
    broadcast_apply, Ideal.ofBits_def, Ideal.ofBits_zero_f32, transpose_ix2_apply, truncf_apply]
  refine congrArg (fun z => max (z + x2 (ix1 j)) 0 * x3 (ix2 q j)) (Finset.sum_congr rfl fun k _ => ?_)
  -- feature k: the features as loaded; the first weight transposed
  rw [truncf_apply, shapeCast_self, transpose_ix2_apply, truncf_apply]

theorem head_zeros1 : (![0] : Fin 1 → Nat) = fun _ => 0 := funext fun a => by fin_cases a; rfl
theorem head_zeros2 : (![0, 0] : Fin 2 → Nat) = fun _ => 0 := funext fun a => by fin_cases a <;> rfl

/-- What the body leaves in the output's staging buffer, at row p and class q. -/
theorem head3_apply (x0 : Vec Ideal S100x128 .f32) (x1 : Vec Ideal S128x128 .f32) (x2 : Vec Ideal S128 .f32)
    (x3 : Vec Ideal S2x128 .f32) (x4 : Vec Ideal S2 .f32) (p : Fin 100) (q : Fin 2) :
    head3 x0 x1 x2 x3 x4 (ix2 p q)
      = (∑ j : Fin 128, (max ((∑ k : Fin 128, x0 (ix2 p k) * x1 (ix2 j k)) + x2 (ix1 j)) 0) * x3 (ix2 q j))
        + x4 (ix1 q) := by
  unfold head3
  rw [View.canon_unit_zero head_zeros2, View.ld_unit_zero (S := S100x128) head_zeros2, View.ld_unit_zero (S := S128x128) head_zeros2,
    View.ld_unit_zero (S := S128) head_zeros1, View.ld_unit_zero (S := S2x128) head_zeros2, View.ld_unit_zero (S := S2) head_zeros1]
  exact pay3_apply x0 x1 x2 x3 x4 p q

/-! ## Every block is its whole array -/

variable {F : FTy → Type} [FloatOps F]

/-- On the one-point grid every window's block index is zero on every axis. -/
theorem origin3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0 :=
  (by decide +kernel : ∀ t : Fin grid3.N, _)

/-- Reading any contents of the features' array through its block gives the contents back. -/
theorem read3_0 (t : Fin cfg3.N) (X : S100x128.Idx → Elt F .f32) : ((cfg3.win 0).blk t).view.read (Elt F) X = X := by
  funext j
  show X (((cfg3.win 0).blk t).view.emb j) = X j
  refine congrArg X (funext fun a => Fin.ext ?_)
  obtain ⟨e0, e1, -⟩ := origin3 t
  match a with
  | ⟨0, _⟩ => show win3_0.index t (0 : Fin 2) * 100 + 1 * (j 0).val = (j 0).val; rw [e0]; omega
  | ⟨1, _⟩ => show win3_0.index t (1 : Fin 2) * 128 + 1 * (j 1).val = (j 1).val; rw [e1]; omega

/-- The same for the first weight, -/
theorem read3_1 (t : Fin cfg3.N) (X : S128x128.Idx → Elt F .f32) : ((cfg3.win 1).blk t).view.read (Elt F) X = X := by
  funext j
  show X (((cfg3.win 1).blk t).view.emb j) = X j
  refine congrArg X (funext fun a => Fin.ext ?_)
  obtain ⟨-, -, e0, e1, -⟩ := origin3 t
  match a with
  | ⟨0, _⟩ => show win3_1.index t (0 : Fin 2) * 128 + 1 * (j 0).val = (j 0).val; rw [e0]; omega
  | ⟨1, _⟩ => show win3_1.index t (1 : Fin 2) * 128 + 1 * (j 1).val = (j 1).val; rw [e1]; omega

/-- the first bias, -/
theorem read3_2 (t : Fin cfg3.N) (X : S128.Idx → Elt F .f32) : ((cfg3.win 2).blk t).view.read (Elt F) X = X := by
  funext j
  show X (((cfg3.win 2).blk t).view.emb j) = X j
  refine congrArg X (funext fun a => Fin.ext ?_)
  obtain ⟨-, -, -, -, e0, -⟩ := origin3 t
  match a with
  | ⟨0, _⟩ => show win3_2.index t (0 : Fin 1) * 128 + 1 * (j 0).val = (j 0).val; rw [e0]; omega

/-- the second weight, -/
theorem read3_3 (t : Fin cfg3.N) (X : S2x128.Idx → Elt F .f32) : ((cfg3.win 3).blk t).view.read (Elt F) X = X := by
  funext j
  show X (((cfg3.win 3).blk t).view.emb j) = X j
  refine congrArg X (funext fun a => Fin.ext ?_)
  obtain ⟨-, -, -, -, -, e0, e1, -⟩ := origin3 t
  match a with
  | ⟨0, _⟩ => show win3_3.index t (0 : Fin 2) * 2 + 1 * (j 0).val = (j 0).val; rw [e0]; omega
  | ⟨1, _⟩ => show win3_3.index t (1 : Fin 2) * 128 + 1 * (j 1).val = (j 1).val; rw [e1]; omega

/-- the second bias, -/
theorem read3_4 (t : Fin cfg3.N) (X : S2.Idx → Elt F .f32) : ((cfg3.win 4).blk t).view.read (Elt F) X = X := by
  funext j
  show X (((cfg3.win 4).blk t).view.emb j) = X j
  refine congrArg X (funext fun a => Fin.ext ?_)
  obtain ⟨-, -, -, -, -, -, -, e0, -⟩ := origin3 t
  match a with
  | ⟨0, _⟩ => show win3_4.index t (0 : Fin 1) * 2 + 1 * (j 0).val = (j 0).val; rw [e0]; omega

/-- and the output. -/
theorem read3_5 (t : Fin cfg3.N) (X : S100x2.Idx → Elt F .f32) : ((cfg3.win 5).blk t).view.read (Elt F) X = X := by
  funext j
  show X (((cfg3.win 5).blk t).view.emb j) = X j
  refine congrArg X (funext fun a => Fin.ext ?_)
  obtain ⟨-, -, -, -, -, -, -, -, e0, e1⟩ := origin3 t
  match a with
  | ⟨0, _⟩ => show win3_5.index t (0 : Fin 2) * 100 + 1 * (j 0).val = (j 0).val; rw [e0]; omega
  | ⟨1, _⟩ => show win3_5.index t (1 : Fin 2) * 2 + 1 * (j 1).val = (j 1).val; rw [e1]; omega

-- the TensorCore's buffer contents when the region is entered
variable (V : (c : Dev nD) → (b : Ref sig .tc) → Buf (Elt F) ((c : Thread nD τ).loc b))

/-- So each block the body finds is its array as the region finds it. -/
theorem block3_0 (c : Dev nD) (t : Fin cfg3.N) : block3 V c 0 t = V c (Pipeline.arrRef spec3 0) := read3_0 t _
theorem block3_1 (c : Dev nD) (t : Fin cfg3.N) : block3 V c 1 t = V c (Pipeline.arrRef spec3 1) := read3_1 t _
theorem block3_2 (c : Dev nD) (t : Fin cfg3.N) : block3 V c 2 t = V c (Pipeline.arrRef spec3 2) := read3_2 t _
theorem block3_3 (c : Dev nD) (t : Fin cfg3.N) : block3 V c 3 t = V c (Pipeline.arrRef spec3 3) := read3_3 t _
theorem block3_4 (c : Dev nD) (t : Fin cfg3.N) : block3 V c 4 t = V c (Pipeline.arrRef spec3 4) := read3_4 t _

/-! ## The output array after the region -/

/-- Every entry of the output array is in the block the one point writes back. -/
theorem covered3_5 (i : S100x2.Idx) : i ∈ ((cfg3.win 5).blk t3_0).view.set := by
  show i ∈ ((View.whole main_v82).slice (win3_5.rect t3_0)).set
  rw [View.set_slice_whole, Rect.mem_set_unit]
  obtain ⟨-, -, -, -, -, -, -, -, e0, e1⟩ := origin3 t3_0
  have h0 : (i 0).val < 100 := (i 0).isLt
  have h1 : (i 1).val < 2 := (i 1).isLt
  intro a
  match a with
  | ⟨0, _⟩ => show win3_5.index t3_0 (0 : Fin 2) * 100 ≤ (i 0).val ∧ (i 0).val < win3_5.index t3_0 (0 : Fin 2) * 100 + 100; rw [e0]; omega
  | ⟨1, _⟩ => show win3_5.index t3_0 (1 : Fin 2) * 2 ≤ (i 1).val ∧ (i 1).val < win3_5.index t3_0 (1 : Fin 2) * 2 + 2; rw [e1]; omega

/-- After the region's one point the output array holds the two-layer value of the five input arrays as the
    region found them. -/
theorem data3_result (c : Dev nD) :
    (data3 V c).arrAt 5 cfg3.N
      = head3 (V c (Pipeline.arrRef spec3 0)) (V c (Pipeline.arrRef spec3 1)) (V c (Pipeline.arrRef spec3 2))
          (V c (Pipeline.arrRef spec3 3)) (V c (Pipeline.arrRef spec3 4)) := by
  refine (data3 V c).arrAt_eq_of_cover 5 _ (fun t _ => ?_) (fun i => ⟨t3_0, flush3_5 t3_0, covered3_5 i⟩)
  show (cfg3.win 5).cut (grid3.coords t) ((data3 V c).after 5 t) = _
  rw [left3_5, block3_0, block3_1, block3_2, block3_3, block3_4, read3_5]
  rfl

/-- The same with the six arrays by name: the pooled features, the two weights and the two biases in, the logits out. -/
theorem data3_result_named (c : Dev nD) :
    (data3 V c).arrAt 5 cfg3.N
      = head3 (V c main_v81) (V c main_arg8) (V c main_arg9) (V c main_arg10) (V c main_arg11) :=
  data3_result V c

end Cert.KernelIdeal.Hand

end
-- ==== Proof.HeadBridge.lean ====
/-
  The kernel's classifier head and the reference's last stages are the same function of the arguments.

  The reference transposes the first weight, multiplies the pooled features by it, adds the first bias spread over the
  rows, clamps below at zero, transposes the second weight, multiplies, and adds the second bias spread over the rows.
  Entry by entry that is
      ( sum over j of  max( (sum over k of pooled[p,k] * w1[j,k]) + b1[j], 0 ) * w2[q,j] )  +  b2[q],
  which is what the kernel's body stores. Both sides are read at an entry and the reference's composed index maps
  are identified with the plain coordinates; the sums then agree term by term, with no rearrangement.
-/
import proofs.«405348_j60988535603684_1_alg».proof.Proof.HeadValue
import proofs.«405348_j60988535603684_1_alg».proof.Proof.Gen.ReferenceIdeal.Read

set_option maxRecDepth 16384

noncomputable section

namespace Cert.Bridge

open Cert.ReferenceIdeal Cert.ReferenceIdeal.Read
open Idealize.ShloMosaic Idealize.ShloMosaic.ValueIdx
open scoped BigOperators

/-! ## The reference's index maps, by coordinates -/

/-- The second product reads its left operand at row p, position j, -/
theorem left112 (p : Fin 100) (q : Fin 2) (j : Fin 128) : lidx_main_v112 (ix2 p q) j = ix2 p j :=
  funext fun a => Fin.ext (by match a with | ⟨0, _⟩ => rfl | ⟨1, _⟩ => rfl)
/-- and its right operand at position j, column q; -/
theorem right112 (p : Fin 100) (q : Fin 2) (j : Fin 128) : ridx_main_v112 (ix2 p q) j = ix2 j q :=
  funext fun a => Fin.ext (by match a with | ⟨0, _⟩ => rfl | ⟨1, _⟩ => rfl)
/-- the second weight transposed, at (j, q), is the weight at (q, j). -/
theorem swap111 (j : Fin 128) (q : Fin 2) : idx_main_v111 (ix2 j q) = ix2 q j :=
  funext fun a => Fin.ext (by match a with | ⟨0, _⟩ => rfl | ⟨1, _⟩ => rfl)
/-- The first product reads its left operand at row p, position k, -/
theorem left106 (p : Fin 100) (j k : Fin 128) : lidx_main_v106 (ix2 p j) k = ix2 p k :=
  funext fun a => Fin.ext (by match a with | ⟨0, _⟩ => rfl | ⟨1, _⟩ => rfl)
/-- and its right operand at position k, column j; -/
theorem right106 (p : Fin 100) (j k : Fin 128) : ridx_main_v106 (ix2 p j) k = ix2 k j :=
  funext fun a => Fin.ext (by match a with | ⟨0, _⟩ => rfl | ⟨1, _⟩ => rfl)
/-- the first weight transposed, at (k, j), is the weight at (j, k). -/
theorem swap105 (k j : Fin 128) : idx_main_v105 (ix2 k j) = ix2 j k :=
  funext fun a => Fin.ext (by match a with | ⟨0, _⟩ => rfl | ⟨1, _⟩ => rfl)
/-- The first bias spread over the rows is read, at (p, j), in its one row at j, -/
theorem row108 (p : Fin 100) (j : Fin 128) : idx_main_v108 (ix2 p j) = ix2 (0 : Fin 1) j :=
  funext fun a => Fin.ext (by match a with | ⟨0, _⟩ => rfl | ⟨1, _⟩ => rfl)
/-- which is the bias at j. -/
theorem entry107 (u : Fin 1) (j : Fin 128) : idx_main_v107 (ix2 u j) = ix1 j :=
  funext fun a => Fin.ext (by match a with | ⟨0, _⟩ => rfl)
/-- The second bias spread over the rows is read, at (p, q), in its one row at q, -/
theorem row114 (p : Fin 100) (q : Fin 2) : idx_main_v114 (ix2 p q) = ix2 (0 : Fin 1) q :=
  funext fun a => Fin.ext (by match a with | ⟨0, _⟩ => rfl | ⟨1, _⟩ => rfl)
/-- which is the bias at q. -/
theorem entry113 (u : Fin 1) (q : Fin 2) : idx_main_v113 (ix2 u q) = ix1 q :=
  funext fun a => Fin.ext (by match a with | ⟨0, _⟩ => rfl)

/-! ## The two heads agree -/

/-- The kernel's head, applied to the reference's pooled features and the four head parameters, is the reference's
    result. -/
theorem head_eq_reference (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S50000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S2x128, .f32⟩ : BufTy).Contents (Elt Ideal)) (x11 : (⟨S2, .f32⟩ : BufTy).Contents (Elt Ideal)) :
    Cert.KernelIdeal.Hand.head3 (val_main_v104 (F := Ideal) x0 x1 x2 x3 x4 x5 x6 x7) x8 x9 x10 x11
      = val_main_v115 (F := Ideal) x0 x1 x2 x3 x4 x5 x6 x7 x8 x9 x10 x11 := by
  funext i
  obtain ⟨p, q, rfl⟩ : ∃ (p : Fin 100) (q : Fin 2), i = ix2 p q := ⟨i 0, i 1, eq_ix2 i⟩
  -- the last addition, the second product, and the second bias along its row
  rw [Cert.KernelIdeal.Hand.head3_apply, val_main_v115_apply, val_main_v112_apply, val_main_v114_apply,
    val_main_v113_apply, row114, entry113, Ideal.addf_def]
  refine congrArg (· + x11 (ix1 q)) (Finset.sum_congr rfl fun j _ => ?_)
  -- hidden unit j: the clamp, the first bias along its row, the first product; the second weight transposed
  rw [left112, right112, val_main_v110_apply, val_main_v109_apply, val_main_v106_apply, val_main_v108_apply,
    val_main_v107_apply, row108, entry107, val_main_call4_v0_apply, val_main_call4_cst_apply, val_main_v111_apply,
    swap111, Ideal.ofBits_def, Ideal.ofBits_zero_f32, Ideal.maximumf_def, Ideal.addf_def]
  refine congrArg (fun z => max (z + x9 (ix1 j)) 0 * x10 (ix2 q j)) (Finset.sum_congr rfl fun k _ => ?_)
  -- feature k: the pooled features as they are; the first weight transposed
  rw [left106, right106, val_main_v105_apply, swap105]

end Cert.Bridge

end
-- ==== Proof.HostSide.lean ====
/-
  The host operations of the two programs agree. Between the four kernels the kernel program applies to its buffers
  the very operations the reference applies to its values: the self loops appended to the two endpoint lists, the
  symmetric normalisation of the edge weights, the transposed weight matrices, and after each dense product the gather
  along the sources, the scaling by the normalised weights, the scatter-add along the targets, the bias and the
  rectifier. Each buffer after a stretch is therefore the reference's stage of the same arguments, and the dense
  products themselves are the reference's dot products read entry by entry. Stated for any float values; the
  dot products are read on the extended reals.
-/
import proofs.«405348_j60988535603684_1_alg».proof.Proof.Gen.KernelIdeal.Regions
import proofs.«405348_j60988535603684_1_alg».proof.Proof.Gen.ReferenceIdeal.Read
import proofs.«405348_j60988535603684_1_alg».proof.Proof.DenseValue

set_option maxRecDepth 16384

noncomputable section

namespace Cert.Bridge

open Cert.KernelIdeal Cert.KernelIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (outs : Outs (F := F))

/-! ## Before the first layer: the edge weights, the two endpoint lists, the transposed weight matrix -/

set_option maxHeartbeats 4000000 in
/-- The symmetric normalisation of the edge weights (self loops appended, degrees scattered, inverse square roots
    gathered at both endpoints and multiplied) is computed by the same operations in both programs. -/
theorem edgeNorm_eq (c : Dev nD) :
    V3 m c main_v31 = ReferenceIdeal.Read.val_main_v31 (m ((c.tc : Thread nD τ).loc main_arg1)) (m ((c.tc : Thread nD τ).loc main_arg2)) := by
  dsimp only [V3, V2, V1, V0]
  after_results_simp
  rfl

set_option maxHeartbeats 4000000 in
/-- The source endpoints with the self loops appended. -/
theorem sources_eq (c : Dev nD) :
    V3 m c main_v3 = ReferenceIdeal.Read.val_main_v3 (m ((c.tc : Thread nD τ).loc main_arg1)) := by
  dsimp only [V3, V2, V1, V0]
  after_results_simp
  rfl

set_option maxHeartbeats 4000000 in
/-- The target endpoints with the self loops appended. -/
theorem targets_eq (c : Dev nD) :
    V3 m c main_v6 = ReferenceIdeal.Read.val_main_v6 (m ((c.tc : Thread nD τ).loc main_arg1)) := by
  dsimp only [V3, V2, V1, V0]
  after_results_simp
  rfl

set_option maxHeartbeats 4000000 in
/-- The first layer's weight matrix, transposed. -/
theorem weights0_eq (c : Dev nD) :
    V3 m c main_v32 = ReferenceIdeal.Read.val_main_v32 (m ((c.tc : Thread nD τ).loc main_arg4)) := by
  dsimp only [V3, V2, V1, V0]
  after_results_simp
  rfl

/-- The node features are as launched. -/
theorem features_eq (c : Dev nD) : V3 m c main_arg0 = m ((c.tc : Thread nD τ).loc main_arg0) := by
  rw [V3_of m c main_arg0 (by decide), V2_of m c main_arg0 (by decide), V1_of m c main_arg0 (by decide)]

/-- The first layer's bias is as launched. -/
theorem bias0_eq (c : Dev nD) : V3 m c main_arg5 = m ((c.tc : Thread nD τ).loc main_arg5) := by
  rw [V3_of m c main_arg5 (by decide), V2_of m c main_arg5 (by decide), V1_of m c main_arg5 (by decide)]

/-- The second layer's weight matrix is as launched. -/
theorem rawWeights1_eq (c : Dev nD) : V3 m c main_arg6 = m ((c.tc : Thread nD τ).loc main_arg6) := by
  rw [V3_of m c main_arg6 (by decide), V2_of m c main_arg6 (by decide), V1_of m c main_arg6 (by decide)]

/-- The reference computes the normalisation a second time, by the same operations of the same arguments. -/
theorem edgeNorm_again (x1 : (⟨ReferenceIdeal.S2x800000, .i32⟩ : BufTy).Contents (Elt F)) (x2 : (⟨ReferenceIdeal.S800000, .f32⟩ : BufTy).Contents (Elt F)) :
    ReferenceIdeal.Read.val_main_v73 x1 x2 = ReferenceIdeal.Read.val_main_v31 x1 x2 := rfl

/-! ## Between the two layers: aggregation, bias and rectifier -/

set_option maxHeartbeats 4000000 in
/-- If the first kernel leaves the first dense product, the buffer the second kernel multiplies is the reference's first
    hidden layer: the product gathered along the sources, scaled by the normalised edge weights, scatter-added along the
    targets, the bias added and the rectifier applied. -/
theorem hidden1_eq (c : Dev nD)
    (h : outs 4 main_v33 c = ReferenceIdeal.Read.val_main_v33 (m ((c.tc : Thread nD τ).loc main_arg0)) (m ((c.tc : Thread nD τ).loc main_arg4))) :
    V7 m outs c main_v50 = ReferenceIdeal.Read.val_main_v50 (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5)) := by
  have e31 : V4 m outs c main_v31 = _ := (V4_of m outs c main_v31 (by decide)).trans (edgeNorm_eq m c)
  have e3 : V4 m outs c main_v3 = _ := (V4_of m outs c main_v3 (by decide)).trans (sources_eq m c)
  have e6 : V4 m outs c main_v6 = _ := (V4_of m outs c main_v6 (by decide)).trans (targets_eq m c)
  have e5 : V4 m outs c main_arg5 = _ := (V4_of m outs c main_arg5 (by decide)).trans (bias0_eq m c)
  have e33 : V4 m outs c main_v33 = _ := (Function.update_self _ _ _).trans h
  rw [V7_of m outs c main_v50 (by decide)]
  dsimp only [V6, V5]
  generalize V4 m outs c = W at e31 e3 e6 e5 e33 ⊢
  after_results_simp
  rw [e31, e3, e6, e5, e33]
  rfl

set_option maxHeartbeats 4000000 in
/-- The second layer's weight matrix, transposed. -/
theorem weights1_eq (c : Dev nD) :
    V7 m outs c main_v51 = ReferenceIdeal.Read.val_main_v74 (m ((c.tc : Thread nD τ).loc main_arg6)) := by
  have e : V6 m outs c main_arg6 = _ :=
    (V6_of m outs c main_arg6 (by decide)).trans ((V5_of m outs c main_arg6 (by decide)).trans
      ((V4_of m outs c main_arg6 (by decide)).trans (rawWeights1_eq m c)))
  dsimp only [V7]
  generalize V6 m outs c = W at e ⊢
  after_results_simp
  rw [e]
  rfl

/-! ## The dense products, entry by entry -/

section Products

open Idealize.ShloMosaic.ValueIdx

/-- The reference's first dot product is the product of the features by the transposed first weight matrix. -/
theorem dense0_ref (x : (⟨ReferenceIdeal.S50000x128, .f32⟩ : BufTy).Contents (Elt Ideal))
    (w : (⟨ReferenceIdeal.S128x128, .f32⟩ : BufTy).Contents (Elt Ideal)) :
    Hand.rowsTimes x (ReferenceIdeal.Read.val_main_v32 w) = ReferenceIdeal.Read.val_main_v33 x w := by
  funext i
  obtain ⟨r, j, rfl⟩ : ∃ (r : Fin 50000) (j : Fin 128), i = ix2 r j := ⟨i 0, i 1, eq_ix2 i⟩
  rw [ReferenceIdeal.Read.val_main_v33_apply, Hand.rowsTimes_apply]
  refine Finset.sum_congr rfl fun k _ => ?_
  have el : ReferenceIdeal.Read.lidx_main_v33 (ix2 r j) k = ix2 r k :=
    funext fun a => Fin.ext (by match a with | ⟨0, _⟩ => rfl | ⟨1, _⟩ => rfl)
  have er : ReferenceIdeal.Read.ridx_main_v33 (ix2 r j) k = ix2 k j :=
    funext fun a => Fin.ext (by match a with | ⟨0, _⟩ => rfl | ⟨1, _⟩ => rfl)
  rw [el, er]

/-- The reference's second dot product is the product of its first hidden layer by the transposed second weight matrix. -/
theorem dense1_ref (x0 : (⟨ReferenceIdeal.S50000x128, .f32⟩ : BufTy).Contents (Elt Ideal))
    (x1 : (⟨ReferenceIdeal.S2x800000, .i32⟩ : BufTy).Contents (Elt Ideal)) (x2 : (⟨ReferenceIdeal.S800000, .f32⟩ : BufTy).Contents (Elt Ideal))
    (x4 : (⟨ReferenceIdeal.S128x128, .f32⟩ : BufTy).Contents (Elt Ideal)) (x5 : (⟨ReferenceIdeal.S128, .f32⟩ : BufTy).Contents (Elt Ideal))
    (x6 : (⟨ReferenceIdeal.S128x128, .f32⟩ : BufTy).Contents (Elt Ideal)) :
    ReferenceIdeal.Read.val_main_v75 x0 x1 x2 x4 x5 x6
      = Hand.rowsTimes (ReferenceIdeal.Read.val_main_v50 x0 x1 x2 x4 x5) (ReferenceIdeal.Read.val_main_v74 x6) := by
  funext i
  obtain ⟨r, j, rfl⟩ : ∃ (r : Fin 50000) (j : Fin 128), i = ix2 r j := ⟨i 0, i 1, eq_ix2 i⟩
  rw [ReferenceIdeal.Read.val_main_v75_apply, Hand.rowsTimes_apply]
  refine Finset.sum_congr rfl fun k _ => ?_
  have el : ReferenceIdeal.Read.lidx_main_v75 (ix2 r j) k = ix2 r k :=
    funext fun a => Fin.ext (by match a with | ⟨0, _⟩ => rfl | ⟨1, _⟩ => rfl)
  have er : ReferenceIdeal.Read.ridx_main_v75 (ix2 r j) k = ix2 k j :=
    funext fun a => Fin.ext (by match a with | ⟨0, _⟩ => rfl | ⟨1, _⟩ => rfl)
  rw [el, er]

end Products

end Cert.Bridge

end
-- ==== Proof.LibScatterRows.lean ====
/-
  ROW SCATTER-ADD READ AT AN ENTRY.

  A segment sum over the leading axis is the accumulating scatter whose dimension numbers are
  update window axes [1] (or none, for a vector), inserted window axes [0], scatter-dims-to-operand-dims
  [0] and index vector axis 1, over an operand [C, A] (or [C]), scatter indices [N, 1] and updates [N, A]
  (or [N]). Update row n carries ONE start index, the word idx[n, 0] read as a signed integer; it is the
  start on operand axis 0, where the window coordinate is 0 because that axis is inserted. On operand axis 1
  the start is 0 (the map does not name the axis) and the window coordinate is the update's own column. So
  update element (n, a') lands at operand element (idx[n, 0], a') when 0 ≤ idx[n, 0] < C and is dropped
  otherwise; the column is always in range, being below A on both sides.

  Hence the result at (c, a) is the operand there plus the sum, over the rows n whose index word reads
  exactly c, of upd[n, a]:

      scatter(x, idx, upd)[c, a] = x[c, a] + ∑ n, if idx[n, 0] = c then upd[n, a] else 0 .

  An index word that is negative or at least C matches no c below C, so the dropped updates need no
  separate clause. The statements hold at every extent C, N, A and every index width w, for any record of
  dimension numbers whose four lists are the ones above. The rank-1 form (operand [C], updates [N]) is the
  same with the column removed.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-! ## Operand [C, A], scatter indices [N, 1], updates [N, A] -/

section Rows2
variable {C N A w : ℕ}

/-- The row scatter's dimension numbers as a record of literal lists: update window axes [1], inserted
    window axes [0], scatter-dims-to-operand-dims [0], index vector axis 1. -/
abbrev rows2 (wf : ScatterDims.WF ⟨2, ![C, A]⟩ ⟨2, ![N, 1]⟩ ⟨2, ![N, A]⟩ [1] [0] [0] 1) :
    ScatterDims ⟨2, ![C, A]⟩ ⟨2, ![N, 1]⟩ ⟨2, ![N, A]⟩ := ⟨[1], [0], [0], 1, wf⟩

/-- On operand axis 0 the window of update (n, a') starts at the index word idx[n, 0], read signed. -/
theorem rows2_start0 (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) :
    (rows2 wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- On operand axis 1, which the map does not name, the window starts at 0. -/
theorem rows2_start1 (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) :
    (rows2 wf).start j idx 1 = 0 := by
  unfold ScatterDims.start
  rw [dif_neg (show ¬ ((1 : Fin 2) ∈ ([0] : List (Fin 2))) by decide)]

/-- Operand axis 0 is inserted: the window coordinate there is 0. -/
theorem rows2_window0 (wf : ScatterDims.WF ⟨2, ![C, A]⟩ ⟨2, ![N, 1]⟩ ⟨2, ![N, A]⟩ [1] [0] [0] 1)
    (j : (⟨2, ![N, A]⟩ : Shape).Idx) :
    (rows2 wf).window j 0 = 0 := by
  unfold ScatterDims.window
  have h : ¬ ((0 : Fin 2) ∈ (rows2 wf).sKept) := by
    show ¬ ((0 : Fin 2) ∈ ([1] : List (Fin 2)))
    decide
  rw [dif_neg h]

/-- Operand axis 1 is the one kept axis: the window coordinate there is the update's column. -/
theorem rows2_window1 (wf : ScatterDims.WF ⟨2, ![C, A]⟩ ⟨2, ![N, 1]⟩ ⟨2, ![N, A]⟩ [1] [0] [0] 1)
    (j : (⟨2, ![N, A]⟩ : Shape).Idx) :
    (rows2 wf).window j 1 = (j 1).val := by
  unfold ScatterDims.window
  have h : (1 : Fin 2) ∈ (rows2 wf).sKept := by
    show (1 : Fin 2) ∈ ([1] : List (Fin 2))
    decide
  rw [dif_pos h]
  rfl

/-- WHERE AN UPDATE LANDS: update (n, a') lands at operand element (c, a) exactly when its row's index word
    reads c and its column is a. (An index word outside [0, C) lands nowhere, and equals no c below C.) -/
theorem rows2_resultIdx?_eq_some (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) (c : Fin C) (a : Fin A) :
    (rows2 wf).resultIdx? j idx = some (ix2 c a) ↔
      (idx (ix2 (j 0) (0 : Fin 1))).toInt = (c.val : ℤ) ∧ j 1 = a := by
  have e0 : (rows2 wf).start j idx 0 + ((rows2 wf).window j 0 : ℕ) = (idx (ix2 (j 0) (0 : Fin 1))).toInt := by
    rw [rows2_start0, rows2_window0]; simp
  have e1 : (rows2 wf).start j idx 1 + ((rows2 wf).window j 1 : ℕ) = ((j 1).val : ℤ) := by
    rw [rows2_start1, rows2_window1]; simp
  unfold ScatterDims.resultIdx?
  split_ifs with h
  · rw [Option.some.injEq]
    constructor
    · intro hf
      have h0 : ((rows2 wf).start j idx 0 + ((rows2 wf).window j 0 : ℕ)).toNat = c.val :=
        congrArg Fin.val (congrFun hf 0)
      have h1 : ((rows2 wf).start j idx 1 + ((rows2 wf).window j 1 : ℕ)).toNat = a.val :=
        congrArg Fin.val (congrFun hf 1)
      have hp := (h 0).1
      rw [e0] at h0 hp
      rw [e1] at h1
      refine ⟨by omega, Fin.ext (by omega)⟩
    · rintro ⟨hc, ha⟩
      funext b
      refine Fin.ext ?_
      match b with
      | ⟨0, _⟩ =>
        show ((rows2 wf).start j idx 0 + ((rows2 wf).window j 0 : ℕ)).toNat = c.val
        rw [e0, hc]; simp
      | ⟨1, _⟩ =>
        show ((rows2 wf).start j idx 1 + ((rows2 wf).window j 1 : ℕ)).toNat = a.val
        rw [e1, ha]; simp
  · constructor
    · intro hf; cases hf
    · rintro ⟨hc, ha⟩
      refine absurd ?_ h
      intro b
      match b with
      | ⟨0, _⟩ =>
        show 0 ≤ (rows2 wf).start j idx 0 + ((rows2 wf).window j 0 : ℕ) ∧
          (rows2 wf).start j idx 0 + ((rows2 wf).window j 0 : ℕ) < ((C : ℕ) : ℤ)
        rw [e0, hc]
        have := c.isLt
        omega
      | ⟨1, _⟩ =>
        show 0 ≤ (rows2 wf).start j idx 1 + ((rows2 wf).window j 1 : ℕ) ∧
          (rows2 wf).start j idx 1 + ((rows2 wf).window j 1 : ℕ) < ((A : ℕ) : ℤ)
        rw [e1, ha]
        have := a.isLt
        omega

/-- The same, for an update index given by its coordinates. -/
theorem rows2_resultIdx?_ix2 (wf : ScatterDims.WF ⟨2, ![C, A]⟩ ⟨2, ![N, 1]⟩ ⟨2, ![N, A]⟩ [1] [0] [0] 1)
    (n : Fin N) (b : Fin A) (idx : IVec ⟨2, ![N, 1]⟩ w) (c : Fin C) (a : Fin A) :
    (rows2 wf).resultIdx? (ix2 n b) idx = some (ix2 c a) ↔
      (idx (ix2 n (0 : Fin 1))).toInt = (c.val : ℤ) ∧ b = a :=
  rows2_resultIdx?_eq_some wf (ix2 n b) idx c a

/-- The row scatter-add of the literal record, read at (c, a). -/
theorem rows2_apply (wf : ScatterDims.WF ⟨2, ![C, A]⟩ ⟨2, ![N, 1]⟩ ⟨2, ![N, A]⟩ [1] [0] [0] 1)
    (x : (⟨2, ![C, A]⟩ : Shape).Idx → EReal) (idx : IVec ⟨2, ![N, 1]⟩ w)
    (upd : (⟨2, ![N, A]⟩ : Shape).Idx → EReal) (c : Fin C) (a : Fin A) :
    Ideal.hostScatterAdd (rows2 wf) x idx upd (ix2 c a) =
      x (ix2 c a) + ∑ n : Fin N, if (idx (ix2 n (0 : Fin 1))).toInt = (c.val : ℤ) then upd (ix2 n a) else 0 := by
  unfold Ideal.hostScatterAdd
  congr 1
  rw [Finset.sum_filter, sum_idx2]
  refine Finset.sum_congr rfl fun n _ => ?_
  simp only [rows2_resultIdx?_ix2]
  by_cases hc : (idx (ix2 n (0 : Fin 1))).toInt = (c.val : ℤ)
  · simp [hc]
  · simp [hc]

end Rows2

/-- ROW SCATTER-ADD AT AN ENTRY, operand [C, A]: for any dimension-number record with update window axes
    [1], inserted window axes [0], scatter-dims-to-operand-dims [0] and index vector axis 1, the result at
    (c, a) is the operand there plus the sum of upd[n, a] over the rows n whose index word idx[n, 0], read
    signed, is c. Rows whose index word is negative or at least C contribute nothing. -/
theorem scatterRows2_apply {C N A w : ℕ} (d : ScatterDims ⟨2, ![C, A]⟩ ⟨2, ![N, 1]⟩ ⟨2, ![N, A]⟩)
    (hu : d.updateWindowDims = [1]) (hi : d.insertedWindowDims = [0]) (hs : d.scatterDimsToOperandDims = [0])
    (hv : d.indexVectorDim = 1)
    (x : (⟨2, ![C, A]⟩ : Shape).Idx → EReal) (idx : IVec ⟨2, ![N, 1]⟩ w)
    (upd : (⟨2, ![N, A]⟩ : Shape).Idx → EReal) (c : Fin C) (a : Fin A) :
    Ideal.hostScatterAdd d x idx upd (ix2 c a) =
      x (ix2 c a) + ∑ n : Fin N, if (idx (ix2 n (0 : Fin 1))).toInt = (c.val : ℤ) then upd (ix2 n a) else 0 := by
  obtain ⟨uw, iw, sd, iv, wf⟩ := d
  dsimp only at hu hi hs hv
  subst hu hi hs hv
  exact rows2_apply wf x idx upd c a

/-! ## Operand [C], scatter indices [N, 1], updates [N] -/

section Rows1
variable {C N w : ℕ}

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The vector scatter's dimension numbers as a record of literal lists: no update window axes, inserted
    window axes [0], scatter-dims-to-operand-dims [0], index vector axis 1. -/
abbrev rows1 (wf : ScatterDims.WF ⟨1, ![C]⟩ ⟨2, ![N, 1]⟩ ⟨1, ![N]⟩ [] [0] [0] 1) :
    ScatterDims ⟨1, ![C]⟩ ⟨2, ![N, 1]⟩ ⟨1, ![N]⟩ := ⟨[], [0], [0], 1, wf⟩

/-- On the operand's one axis the window of update n starts at the index word idx[n, 0], read signed. -/
theorem rows1_start0 (wf : ScatterDims.WF ⟨1, ![C]⟩ ⟨2, ![N, 1]⟩ ⟨1, ![N]⟩ [] [0] [0] 1)
    (j : (⟨1, ![N]⟩ : Shape).Idx) (idx : IVec ⟨2, ![N, 1]⟩ w) :
    (rows1 wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- The operand's one axis is inserted: the window coordinate there is 0. -/
theorem rows1_window0 (wf : ScatterDims.WF ⟨1, ![C]⟩ ⟨2, ![N, 1]⟩ ⟨1, ![N]⟩ [] [0] [0] 1)
    (j : (⟨1, ![N]⟩ : Shape).Idx) :
    (rows1 wf).window j 0 = 0 := by
  unfold ScatterDims.window
  have h : ¬ ((0 : Fin 1) ∈ (rows1 wf).sKept) := by
    show ¬ ((0 : Fin 1) ∈ ([] : List (Fin 1)))
    decide
  rw [dif_neg h]

/-- WHERE AN UPDATE LANDS: update n lands at operand element c exactly when its index word reads c. -/
theorem rows1_resultIdx?_eq_some (wf : ScatterDims.WF ⟨1, ![C]⟩ ⟨2, ![N, 1]⟩ ⟨1, ![N]⟩ [] [0] [0] 1)
    (j : (⟨1, ![N]⟩ : Shape).Idx) (idx : IVec ⟨2, ![N, 1]⟩ w) (c : Fin C) :
    (rows1 wf).resultIdx? j idx = some (ix1 c) ↔ (idx (ix2 (j 0) (0 : Fin 1))).toInt = (c.val : ℤ) := by
  have e0 : (rows1 wf).start j idx 0 + ((rows1 wf).window j 0 : ℕ) = (idx (ix2 (j 0) (0 : Fin 1))).toInt := by
    rw [rows1_start0, rows1_window0]; simp
  unfold ScatterDims.resultIdx?
  split_ifs with h
  · rw [Option.some.injEq]
    constructor
    · intro hf
      have h0 : ((rows1 wf).start j idx 0 + ((rows1 wf).window j 0 : ℕ)).toNat = c.val :=
        congrArg Fin.val (congrFun hf 0)
      have hp := (h 0).1
      rw [e0] at h0 hp
      omega
    · intro hc
      funext b
      refine Fin.ext ?_
      match b with
      | ⟨0, _⟩ =>
        show ((rows1 wf).start j idx 0 + ((rows1 wf).window j 0 : ℕ)).toNat = c.val
        rw [e0, hc]; simp
  · constructor
    · intro hf; cases hf
    · intro hc
      refine absurd ?_ h
      intro b
      match b with
      | ⟨0, _⟩ =>
        show 0 ≤ (rows1 wf).start j idx 0 + ((rows1 wf).window j 0 : ℕ) ∧
          (rows1 wf).start j idx 0 + ((rows1 wf).window j 0 : ℕ) < ((C : ℕ) : ℤ)
        rw [e0, hc]
        have := c.isLt
        omega

/-- The same, for an update index given by its coordinate. -/
theorem rows1_resultIdx?_ix1 (wf : ScatterDims.WF ⟨1, ![C]⟩ ⟨2, ![N, 1]⟩ ⟨1, ![N]⟩ [] [0] [0] 1)
    (n : Fin N) (idx : IVec ⟨2, ![N, 1]⟩ w) (c : Fin C) :
    (rows1 wf).resultIdx? (ix1 n) idx = some (ix1 c) ↔ (idx (ix2 n (0 : Fin 1))).toInt = (c.val : ℤ) :=
  rows1_resultIdx?_eq_some wf (ix1 n) idx c

/-- The vector scatter-add of the literal record, read at c. -/
theorem rows1_apply (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w)
    (upd : (⟨1, ![N]⟩ : Shape).Idx → EReal) (c : Fin C) :
    Ideal.hostScatterAdd (rows1 wf) x idx upd (ix1 c) =
      x (ix1 c) + ∑ n : Fin N, if (idx (ix2 n (0 : Fin 1))).toInt = (c.val : ℤ) then upd (ix1 n) else 0 := by
  unfold Ideal.hostScatterAdd
  congr 1
  rw [Finset.sum_filter, sum_idx1]
  refine Finset.sum_congr rfl fun n _ => ?_
  simp only [rows1_resultIdx?_ix1]

end Rows1

/-- ROW SCATTER-ADD AT AN ENTRY, operand [C]: for any dimension-number record with no update window axes,
    inserted window axes [0], scatter-dims-to-operand-dims [0] and index vector axis 1, the result at c is the
    operand there plus the sum of upd[n] over the positions n whose index word idx[n, 0], read signed, is c.
    Positions whose index word is negative or at least C contribute nothing. -/
theorem scatterRows1_apply {C N w : ℕ} (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1)
    (x : (⟨1, ![C]⟩ : Shape).Idx → EReal) (idx : IVec ⟨2, ![N, 1]⟩ w)
    (upd : (⟨1, ![N]⟩ : Shape).Idx → EReal) (c : Fin C) :
    Ideal.hostScatterAdd d x idx upd (ix1 c) =
      x (ix1 c) + ∑ n : Fin N, if (idx (ix2 n (0 : Fin 1))).toInt = (c.val : ℤ) then upd (ix1 n) else 0 := by
  obtain ⟨uw, iw, sd, iv, wf⟩ := d
  dsimp only at hu hi hs hv
  subst hu hi hs hv
  exact rows1_apply wf x idx upd c

end Idealize.ShloMosaic.ScatterRows

end
-- ==== Proof.PoolBridge.lean ====
/-
  Mean pooling by graph, two ways.

  Every node n of 50000 carries a graph id batch[n], a 32-bit word, and a feature row h[n, ·] of 128 extended reals.

  One program pools with a matrix product. It writes the ids out as a 0/1 matrix E[n, g] = (batch[n] = g as words), g
  ranging over the 100 graph numbers, appends 1200 zero rows to E and to h, transposes E, and forms
      S[g, d] = ∑ over the 51200 rows n of E[n, g] · h[n, d];
  for the graph sizes it sums every column of E over the 50000 nodes from zero.

  The other program pools with two accumulating scatters from zero: row h[n, ·] is added into row batch[n] of a
  100 × 128 array, and the number 1 is added into entry batch[n] of a vector of 100, the id read as a signed integer and
  an update whose id falls outside 0 ≤ id < 100 dropped.

  The two agree. In the extended reals 0 · x = 0 and 1 · x = x for every x, the infinities included, so a term of the
  product is h[n, d] when batch[n] = g and 0 otherwise, and an appended row contributes 0 · 0. A word equals the word of a
  number g < 100 exactly when its signed reading is g, so an id outside the range matches no column of E, as it lands on
  no row of the scatter. Both sides are therefore
      ∑ over the nodes n with batch[n] = g of h[n, d],        resp.   the number of nodes n with batch[n] = g.
-/
import proofs.«405348_j60988535603684_1_alg».proof.Proof.Gen.KernelIdeal
import proofs.«405348_j60988535603684_1_alg».proof.Proof.Gen.ReferenceIdeal.Read
import proofs.«405348_j60988535603684_1_alg».proof.Proof.LibScatterRows
import Idealize.ShloMosaic.Lib.FinSumWindow
import Idealize.ShloMosaic.Lib.IdealHost
import Idealize.ShloMosaic.Lib.KernelVsHost
import Idealize.ShloMosaic.Lib.ValueIdx
import Idealize.ShloMosaic.Lib.Pipeline.Value
import Idealize.ShloMosaic.PureOps.Ideal.Laws

noncomputable section

namespace Cert.Bridge

open Cert.KernelIdeal Cert.KernelIdeal.Facts₀
open Idealize.ShloMosaic Idealize.ShloMosaic.ValueIdx
open scoped BigOperators

/-! ## The product side's operands -/

/-- The ids as a 0/1 matrix: the id column laid along 100 columns, compared for equality with the column numbers
    laid along the rows, the one-bit answer converted to a float. -/
def oneHot (batch : (⟨S50000, .i32⟩ : BufTy).Contents (Elt Ideal)) : (⟨S50000x100, .bf16⟩ : BufTy).Contents (Elt Ideal) :=
  uitofp (F := Ideal) .bf16 (cmpi .eq
    (broadcastInDim S50000x100 ![0, 1] bcast_S50000x1_S50000x100_0_1 (broadcastInDim S50000x1 ![0] bcast_S50000_S50000x1_0 batch))
    (broadcastInDim S50000x100 ![0, 1] bcast_S1x100_S50000x100_0_1 (iotaInDim S1x100 32 1)))

/-- The 0/1 matrix with 1200 rows of the converted integer zero appended. -/
def oneHotPadded (batch : (⟨S50000, .i32⟩ : BufTy).Contents (Elt Ideal)) : (⟨S51200x100, .bf16⟩ : BufTy).Contents (Elt Ideal) :=
  pad S51200x100 ![0, 0] ![1200, 0] ![0, 0] (oneHot batch) (sitofp (F := Ideal) .bf16 (constantI S_ 32 0#32))
    pads_S50000x100_S51200x100_012000_000 h_S_

/-- The left factor: the padded 0/1 matrix transposed, graphs along the rows and nodes along the columns. -/
def oneHotT (batch : (⟨S50000, .i32⟩ : BufTy).Contents (Elt Ideal)) : S100x51200.Idx → EReal :=
  transpose S100x51200 [1, 0] (oneHotPadded batch) transposes_S51200x100_S100x51200_1_0

/-- The right factor: the features with 1200 rows of the converted integer zero appended. -/
def padded (h : (⟨S50000x128, .f32⟩ : BufTy).Contents (Elt Ideal)) : S51200x128.Idx → EReal :=
  pad S51200x128 ![0, 0] ![1200, 0] ![0, 0] h (sitofp (F := Ideal) .f32 (constantI S_ 32 0#32))
    pads_S50000x128_S51200x128_012000_000 h_S_

/-! ## The operands read at an entry -/

/-- Entry (n, g) of the 0/1 matrix is 1 when node n's id is the word of g, and 0 otherwise. -/
theorem oneHot_apply (batch : (⟨S50000, .i32⟩ : BufTy).Contents (Elt Ideal)) (n : Fin 50000) (g : Fin 100) :
    oneHot batch (ix2 n g) = if batch (ix1 n) = BitVec.ofNat 32 g.val then (1 : EReal) else 0 := by
  unfold oneHot
  show FloatOps.uitofp (F := Ideal) .bf16 (IntOp.cmpi .eq _ _) = _
  rw [broadcastInDim_apply _ bcast_S50000x1_S50000x100_0_1 _ (ix2 n g) (ix2 n (0 : Fin 1)) (fun a => match a with
      | ⟨0, _⟩ => rfl
      | ⟨1, _⟩ => rfl),
    broadcastInDim_apply _ bcast_S50000_S50000x1_0 batch (ix2 n (0 : Fin 1)) (ix1 n) (fun a => match a with
      | ⟨0, _⟩ => rfl),
    broadcastInDim_apply _ bcast_S1x100_S50000x100_0_1 _ (ix2 n g) (ix2 (0 : Fin 1) g) (fun a => match a with
      | ⟨0, _⟩ => rfl
      | ⟨1, _⟩ => rfl)]
  show ((((BitVec.ofBool (batch (ix1 n) == BitVec.ofNat 32 g.val)).toNat : ℕ) : ℝ) : EReal) = _
  by_cases hb : batch (ix1 n) = BitVec.ofNat 32 g.val
  · rw [if_pos hb, hb]; simp
  · rw [if_neg hb]
    have : (batch (ix1 n) == BitVec.ofNat 32 g.val) = false := by simpa using hb
    rw [this]; simp

/-- The integer zero converted to either float format is the extended real 0: what the appended rows hold. -/
theorem padZero_bf16 : (sitofp (F := Ideal) .bf16 (constantI S_ 32 0#32)) (Shape.Idx.first h_S_) = (0 : EReal) := by
  show ((((0#32 : BitVec 32).toInt : ℤ) : ℝ) : EReal) = 0
  simp

theorem padZero_f32 : (sitofp (F := Ideal) .f32 (constantI S_ 32 0#32)) (Shape.Idx.first h_S_) = (0 : EReal) := by
  show ((((0#32 : BitVec 32).toInt : ℤ) : ℝ) : EReal) = 0
  simp

/-- The left factor at (g, n), n one of the first 50000 columns (it is node m): the 0/1 entry of node m and graph g. -/
theorem oneHotT_apply_lo (batch : (⟨S50000, .i32⟩ : BufTy).Contents (Elt Ideal)) (g : Fin 100) (n : Fin 51200) (m : Fin 50000)
    (hnm : n.val = m.val) :
    oneHotT batch (ix2 g n) = if batch (ix1 m) = BitVec.ofNat 32 g.val then (1 : EReal) else 0 := by
  unfold oneHotT
  rw [transpose_apply [1, 0] _ transposes_S51200x100_S100x51200_1_0 (ix2 g n) (ix2 n g) (fun b => match b with
      | ⟨0, _⟩ => rfl
      | ⟨1, _⟩ => rfl)]
  unfold oneHotPadded
  rw [pad_apply_of_inside ![0, 0] ![1200, 0] ![0, 0] _ _ pads_S50000x100_S51200x100_012000_000 h_S_ (ix2 n g)
      (ix2 m g) (fun a => match a with
      | ⟨0, _⟩ => by show n.val = 0 + m.val * (0 + 1); omega
      | ⟨1, _⟩ => by show g.val = 0 + g.val * (0 + 1); omega)]
  exact oneHot_apply batch m g

/-- The left factor at (g, n), n one of the last 1200 columns: 0. -/
theorem oneHotT_apply_hi (batch : (⟨S50000, .i32⟩ : BufTy).Contents (Elt Ideal)) (g : Fin 100) (n : Fin 51200) (hn : ¬ n.val < 50000) :
    oneHotT batch (ix2 g n) = 0 := by
  unfold oneHotT
  rw [transpose_apply [1, 0] _ transposes_S51200x100_S100x51200_1_0 (ix2 g n) (ix2 n g) (fun b => match b with
      | ⟨0, _⟩ => rfl
      | ⟨1, _⟩ => rfl)]
  unfold oneHotPadded
  exact (pad_apply_of_not_inside (s := S50000x100) ![0, 0] ![1200, 0] ![0, 0] _ _ pads_S50000x100_S51200x100_012000_000 h_S_
      (ix2 n g) (0 : Fin 2)
      (by show ¬ (0 ≤ n.val ∧ (n.val - 0) % (0 + 1) = 0 ∧ (n.val - 0) / (0 + 1) < 50000); omega)).trans padZero_bf16

/-- The right factor at (n, d), n one of the first 50000 rows (it is node m): the feature h[m, d]. -/
theorem padded_apply_lo (h : (⟨S50000x128, .f32⟩ : BufTy).Contents (Elt Ideal)) (n : Fin 51200) (m : Fin 50000) (d : Fin 128)
    (hnm : n.val = m.val) :
    padded h (ix2 n d) = h (ix2 m d) := by
  unfold padded
  exact pad_apply_of_inside ![0, 0] ![1200, 0] ![0, 0] _ _ pads_S50000x128_S51200x128_012000_000 h_S_ (ix2 n d)
      (ix2 m d) (fun a => match a with
      | ⟨0, _⟩ => by show n.val = 0 + m.val * (0 + 1); omega
      | ⟨1, _⟩ => by show d.val = 0 + d.val * (0 + 1); omega)

/-- The right factor at (n, d), n one of the last 1200 rows: 0. -/
theorem padded_apply_hi (h : (⟨S50000x128, .f32⟩ : BufTy).Contents (Elt Ideal)) (n : Fin 51200) (d : Fin 128) (hn : ¬ n.val < 50000) :
    padded h (ix2 n d) = 0 := by
  unfold padded
  exact (pad_apply_of_not_inside (s := S50000x128) ![0, 0] ![1200, 0] ![0, 0] _ _ pads_S50000x128_S51200x128_012000_000 h_S_
      (ix2 n d) (0 : Fin 2)
      (by show ¬ (0 ≤ n.val ∧ (n.val - 0) % (0 + 1) = 0 ∧ (n.val - 0) / (0 + 1) < 50000); omega)).trans padZero_f32

/-! ## An id as a word and as a signed number -/

/-- The word of a number below 100 reads, signed, as that number. -/
theorem toInt_ofNat_small (g : ℕ) (hg : g < 100) : (BitVec.ofNat 32 g).toInt = (g : ℤ) := by
  rw [BitVec.toInt_eq_toNat_cond, BitVec.toNat_ofNat, Nat.mod_eq_of_lt (by omega)]
  rw [if_pos (by omega)]

/-- So a word is the word of g < 100 exactly when its signed reading is g: the product's test and the scatter's
    test pick the same nodes, and an id that is negative or at least 100 passes neither for any g. -/
theorem word_eq_ofNat_iff (x : BitVec 32) (g : ℕ) (hg : g < 100) : x = BitVec.ofNat 32 g ↔ x.toInt = (g : ℤ) := by
  rw [← toInt_ofNat_small g hg]
  exact BitVec.toInt_inj.symm

/-! ## The pooled sums -/

/-- The product at (g, d) is the sum of h[m, d] over the nodes m whose id is the word of g: a matching node's term is
    1 · h[m, d], any other node's 0 · h[m, d], an appended row's 0 · 0. -/
theorem pooled_apply (batch : (⟨S50000, .i32⟩ : BufTy).Contents (Elt Ideal)) (h : (⟨S50000x128, .f32⟩ : BufTy).Contents (Elt Ideal))
    (g : Fin 100) (d : Fin 128) :
    ∑ n : Fin 51200, oneHotT batch (ix2 g n) * padded h (ix2 n d)
      = ∑ m : Fin 50000, if batch (ix1 m) = BitVec.ofNat 32 g.val then h (ix2 m d) else 0 := by
  rw [FinSumWindow.sum_window 0 (show 0 + 50000 ≤ 51200 by omega) _ (fun P hP => by
      rw [oneHotT_apply_hi batch g P (by omega), zero_mul])]
  refine Finset.sum_congr rfl fun m _ => ?_
  rw [oneHotT_apply_lo batch g _ m (Nat.zero_add _), padded_apply_lo h _ m d (Nat.zero_add _)]
  by_cases hb : batch (ix1 m) = BitVec.ofNat 32 g.val
  · rw [if_pos hb, if_pos hb, one_mul]
  · rw [if_neg hb, if_neg hb, zero_mul]

/-- The row scatter from zero at (g, d) is the same sum: row m lands on row g exactly when its id reads g. -/
theorem segment_apply (batch : (⟨S50000, .i32⟩ : BufTy).Contents (Elt Ideal)) (h : (⟨S50000x128, .f32⟩ : BufTy).Contents (Elt Ideal))
    (g : Fin 100) (d : Fin 128) :
    Host.scatterAdd (F := Ideal) (φ := .f32) Cert.ReferenceIdeal.scatter_S100x128_S50000x1_S50000x128_1_0_0_1
        (Cert.ReferenceIdeal.Read.val_main_v93 (F := Ideal)) (Cert.ReferenceIdeal.Read.val_main_v94 (F := Ideal) batch) h (ix2 g d)
      = ∑ m : Fin 50000, if batch (ix1 m) = BitVec.ofNat 32 g.val then h (ix2 m d) else 0 := by
  refine (ScatterRows.scatterRows2_apply Cert.ReferenceIdeal.scatter_S100x128_S50000x1_S50000x128_1_0_0_1
    rfl rfl rfl rfl _ _ _ g d).trans ?_
  rw [Cert.ReferenceIdeal.Read.val_main_v93_apply, Cert.ReferenceIdeal.Read.val_main_cst_19_apply,
    show (FloatOps.ofBits (F := Ideal) .f32 0x00000000#32 : EReal) = 0 from Ideal.ofBits_zero_f32, zero_add]
  refine Finset.sum_congr rfl fun m _ => ?_
  rw [Cert.ReferenceIdeal.Read.val_main_v94_apply,
    show Cert.ReferenceIdeal.Read.idx_main_v94 (ix2 m (0 : Fin 1)) = ix1 m from by
      funext a; match a with | ⟨0, _⟩ => rfl]
  by_cases hb : batch (ix1 m) = BitVec.ofNat 32 g.val
  · rw [if_pos hb, if_pos ((word_eq_ofNat_iff _ _ g.isLt).mp hb)]
  · rw [if_neg hb, if_neg (fun e => hb ((word_eq_ofNat_iff _ _ g.isLt).mpr e))]

/-- POOLING: the product of the transposed, padded 0/1 matrix with the padded features is the row scatter from zero. -/
theorem pooled_eq_segment (batch : (⟨S50000, .i32⟩ : BufTy).Contents (Elt Ideal)) (h : (⟨S50000x128, .f32⟩ : BufTy).Contents (Elt Ideal)) :
    (fun i : S100x128.Idx => ∑ n : Fin 51200,
        oneHotT batch (ix2 (n0 := 100) (n1 := 51200) (i 0) n) * padded h (ix2 (n0 := 51200) (n1 := 128) n (i 1)))
      = Host.scatterAdd (F := Ideal) (φ := .f32) Cert.ReferenceIdeal.scatter_S100x128_S50000x1_S50000x128_1_0_0_1
          (Cert.ReferenceIdeal.Read.val_main_v93 (F := Ideal)) (Cert.ReferenceIdeal.Read.val_main_v94 (F := Ideal) batch) h := by
  funext i
  obtain ⟨g, d, rfl⟩ : ∃ (g : Fin 100) (d : Fin 128), i = ix2 g d := ⟨i 0, i 1, eq_ix2 i⟩
  exact (pooled_apply batch h g d).trans (segment_apply batch h g d).symm

/-! ## The graph sizes -/

/-- Summing the 0/1 matrix over its rows keeps the columns. -/
theorem reduces_rows : S50000x100.Reduces [0] S100 := by decide

/-- Column g with row k put back is entry (k, g). -/
theorem lift_rows (g : Fin 100) (k : Fin 50000) : reduces_rows.lift (ix1 g) k = ix2 k g := by
  funext c; match c with | ⟨0, _⟩ => rfl | ⟨1, _⟩ => rfl

/-- The column sum from zero at g is the number of nodes whose id is the word of g, as a sum of ones. -/
theorem count_apply (batch : (⟨S50000, .i32⟩ : BufTy).Contents (Elt Ideal)) (g : Fin 100) :
    Host.reduceAdd (F := Ideal) (extf .f32 (oneHot batch) bitsLt_bf16_f32) (constant S_ .f32 0x00000000#32)
        reducesTo_S50000x100_S100_d0 h_S_ (ix1 g)
      = ∑ m : Fin 50000, if batch (ix1 m) = BitVec.ofNat 32 g.val then (1 : EReal) else 0 := by
  rw [hostReduceAdd_apply, Ideal.hostReduceAdd_single reducesTo_S50000x100_S100_d0 reduces_rows, constant_apply,
    Ideal.ofBits_zero_f32, zero_add]
  refine Finset.sum_congr rfl fun (m : Fin 50000) _ => ?_
  rw [extf_apply, lift_rows g m, oneHot_apply batch m g]

/-- The scatter of ones from zero at g is the same sum. -/
theorem segment_count_apply (batch : (⟨S50000, .i32⟩ : BufTy).Contents (Elt Ideal)) (g : Fin 100) :
    Host.scatterAdd (F := Ideal) (φ := .f32) Cert.ReferenceIdeal.scatter_S100_S50000x1_S50000_n_0_0_1
        (Cert.ReferenceIdeal.Read.val_main_v97 (F := Ideal)) (Cert.ReferenceIdeal.Read.val_main_v98 (F := Ideal) batch)
        (Cert.ReferenceIdeal.Read.val_main_v96 (F := Ideal)) (ix1 g)
      = ∑ m : Fin 50000, if batch (ix1 m) = BitVec.ofNat 32 g.val then (1 : EReal) else 0 := by
  refine (ScatterRows.scatterRows1_apply Cert.ReferenceIdeal.scatter_S100_S50000x1_S50000_n_0_0_1
    rfl rfl rfl rfl _ _ _ g).trans ?_
  rw [Cert.ReferenceIdeal.Read.val_main_v97_apply, Cert.ReferenceIdeal.Read.val_main_cst_21_apply,
    show (FloatOps.ofBits (F := Ideal) .f32 0x00000000#32 : EReal) = 0 from Ideal.ofBits_zero_f32, zero_add]
  refine Finset.sum_congr rfl fun m _ => ?_
  rw [Cert.ReferenceIdeal.Read.val_main_v98_apply,
    Cert.ReferenceIdeal.Read.val_main_v96_apply, Cert.ReferenceIdeal.Read.val_main_cst_20_apply,
    show (FloatOps.ofBits (F := Ideal) .f32 0x3F800000#32 : EReal) = 1 from Ideal.ofBits_one_f32,
    show Cert.ReferenceIdeal.Read.idx_main_v98 (ix2 m (0 : Fin 1)) = ix1 m from by
      funext a; match a with | ⟨0, _⟩ => rfl]
  by_cases hb : batch (ix1 m) = BitVec.ofNat 32 g.val
  · rw [if_pos hb, if_pos ((word_eq_ofNat_iff _ _ g.isLt).mp hb)]
  · rw [if_neg hb, if_neg (fun e => hb ((word_eq_ofNat_iff _ _ g.isLt).mpr e))]

/-- GRAPH SIZES: the column sums of the 0/1 matrix are the scatter of ones from zero. -/
theorem count_eq_segment (batch : (⟨S50000, .i32⟩ : BufTy).Contents (Elt Ideal)) :
    Host.reduceAdd (F := Ideal) (extf .f32 (oneHot batch) bitsLt_bf16_f32) (constant S_ .f32 0x00000000#32)
        reducesTo_S50000x100_S100_d0 h_S_
      = Host.scatterAdd (F := Ideal) (φ := .f32) Cert.ReferenceIdeal.scatter_S100_S50000x1_S50000_n_0_0_1
          (Cert.ReferenceIdeal.Read.val_main_v97 (F := Ideal)) (Cert.ReferenceIdeal.Read.val_main_v98 (F := Ideal) batch)
          (Cert.ReferenceIdeal.Read.val_main_v96 (F := Ideal)) := by
  funext j
  obtain ⟨g, rfl⟩ : ∃ g : Fin 100, j = ix1 g := ⟨j 0, eq_ix1 j⟩
  exact (count_apply batch g).trans (segment_count_apply batch g).symm

/-! ## The same two facts against the other program's stage functions -/

/-- The row scatter is that program's pooled stage, whatever features it scatters. -/
theorem pooled_eq_stage (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S50000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    (fun i : S100x128.Idx => ∑ n : Fin 51200,
        oneHotT x3 (ix2 (n0 := 100) (n1 := 51200) (i 0) n)
          * padded (Cert.ReferenceIdeal.Read.val_main_v92 (F := Ideal) x0 x1 x2 x4 x5 x6 x7) (ix2 (n0 := 51200) (n1 := 128) n (i 1)))
      = Cert.ReferenceIdeal.Read.val_main_v95 (F := Ideal) x0 x1 x2 x3 x4 x5 x6 x7 :=
  pooled_eq_segment x3 _

/-- The scatter of ones is that program's size stage. -/
theorem count_eq_stage (x3 : (⟨S50000, .i32⟩ : BufTy).Contents (Elt Ideal)) :
    Host.reduceAdd (F := Ideal) (extf .f32 (oneHot x3) bitsLt_bf16_f32) (constant S_ .f32 0x00000000#32)
        reducesTo_S50000x100_S100_d0 h_S_
      = Cert.ReferenceIdeal.Read.val_main_v99 (F := Ideal) x3 :=
  count_eq_segment x3

end Cert.Bridge

end
-- ==== Proof.HostSide2.lean ====
/-
  The kernel program's host operations after its second and third regions compute the reference's stages.

  After the second region the host gathers the rows of that region's product by the edges' sources, scales them by
  the edge normalisation, adds them up over the edges' targets, adds the second bias and clamps at zero: the
  reference's second hidden layer, operation for operation, once the values read are the reference's (the
  reference recomputes the edge normalisation there; it is the same term). After the third region the host divides
  the pooled sums by the per-graph counts clamped below at one: the reference's pooled means.

  Before the third region the host also prepares its operands: the one-hot encoding of the graph labels against
  the 100 graph numbers, padded with 1200 zero rows and transposed; the second hidden layer padded the same way;
  and the per-graph counts, the encoding's column sums. Each is stated as the printed operations' term.

  Each valuation is a fold of host operations over the one before; a buffer that a stretch does not write is
  carried through it unchanged, and a region's output buffer holds what the region left there.
-/
import proofs.«405348_j60988535603684_1_alg».proof.Proof.Gen.KernelIdeal.Regions
import proofs.«405348_j60988535603684_1_alg».proof.Proof.Gen.ReferenceIdeal.Read
import proofs.«405348_j60988535603684_1_alg».proof.Proof.PoolBridge

set_option maxRecDepth 16384

noncomputable section

namespace Cert.Bridge

open Cert.KernelIdeal Cert.KernelIdeal.Gen
open Cert.ReferenceIdeal.Read
open Idealize.ShloMosaic Idealize.ShloMosaic.TcCoe Idealize.SL.Sem Idealize.ShloMosaic.StableHlo

section AnyArithmetic
variable {F : FTy → Type} [FloatOps F]
variable (m : (ℓ : Loc nD τ sig) → Buf (Elt F) ℓ) (outs : Outs (F := F))

/-! ## The fourth host stretch: the pooled sums divided by the clamped counts -/

/-- After the pooling region its output buffer holds what the region left there, -/
theorem sums_kept (c : Dev nD) : V17 m outs c main_v76 = outs 17 main_v76 c := by
  show Function.update (V16 m outs c) (Proc.devRef .tc main_v76) (outs 17 main_v76 c) (Proc.devRef .tc main_v76) = _
  exact Function.update_self ..

/-- and the counts are as the third stretch left them. -/
theorem counts_kept (c : Dev nD) : V17 m outs c main_v72 = V16 m outs c main_v72 := V17_of m outs c main_v72 (by decide)

/-- The pooled means: if the pooling region leaves the reference's per-graph sums and the third stretch the reference's
    per-graph counts, the fourth stretch leaves the reference's means (sums over counts clamped below at one). -/
theorem pooledMean_eq (c : Dev nD)
    (hS : outs 17 main_v76 c = val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
    (hC : V16 m outs c main_v72 = val_main_v99 (F := F) (m ((c.tc : Thread nD τ).loc main_arg3))) :
    V18 m outs c main_v81 = val_main_v104 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps3 (V17 m outs c) (Proc.devRef .tc main_v81) = _
  simp only [hostOps3]
  after_results
  rw [sums_kept, counts_kept, hS, hC]
  rfl

/-- The head's four parameters reach the head region as launched: no stretch writes them, no region may change them. -/
theorem V18_main_arg8 (c : Dev nD) : V18 m outs c main_arg8 = m ((c.tc : Thread nD τ).loc main_arg8) :=
  (V19_of m outs c main_arg8 (by decide)).symm.trans (V19_main_arg8 m outs c)
theorem V18_main_arg9 (c : Dev nD) : V18 m outs c main_arg9 = m ((c.tc : Thread nD τ).loc main_arg9) :=
  (V19_of m outs c main_arg9 (by decide)).symm.trans (V19_main_arg9 m outs c)
theorem V18_main_arg10 (c : Dev nD) : V18 m outs c main_arg10 = m ((c.tc : Thread nD τ).loc main_arg10) :=
  (V19_of m outs c main_arg10 (by decide)).symm.trans (V19_main_arg10 m outs c)
theorem V18_main_arg11 (c : Dev nD) : V18 m outs c main_arg11 = m ((c.tc : Thread nD τ).loc main_arg11) :=
  (V19_of m outs c main_arg11 (by decide)).symm.trans (V19_main_arg11 m outs c)

/-! ## The third host stretch: the second layer's aggregation, bias and clamp -/

/-- The reference recomputes the edge normalisation before the second layer: the same operations on the same
    arguments, so the same term. -/
theorem norm_recomputed (x1 : (⟨Cert.ReferenceIdeal.S2x800000, .i32⟩ : BufTy).Contents (Elt F))
    (x2 : (⟨Cert.ReferenceIdeal.S800000, .f32⟩ : BufTy).Contents (Elt F)) :
    val_main_v73 (F := F) x1 x2 = val_main_v31 (F := F) x1 x2 := rfl

/-- What the third stretch reads was written before the first region and by nothing since: the edge normalisation, -/
theorem norm_kept (c : Dev nD) : V8 m outs c main_v31 = V3 m c main_v31 :=
  (V8_of m outs c main_v31 (by decide)).trans <| (V7_of m outs c main_v31 (by decide)).trans <|
    (V6_of m outs c main_v31 (by decide)).trans <| (V5_of m outs c main_v31 (by decide)).trans (V4_of m outs c main_v31 (by decide))
/-- the edges' sources, -/
theorem sources_kept (c : Dev nD) : V8 m outs c main_v3 = V3 m c main_v3 :=
  (V8_of m outs c main_v3 (by decide)).trans <| (V7_of m outs c main_v3 (by decide)).trans <|
    (V6_of m outs c main_v3 (by decide)).trans <| (V5_of m outs c main_v3 (by decide)).trans (V4_of m outs c main_v3 (by decide))
/-- the edges' targets, -/
theorem targets_kept (c : Dev nD) : V8 m outs c main_v6 = V3 m c main_v6 :=
  (V8_of m outs c main_v6 (by decide)).trans <| (V7_of m outs c main_v6 (by decide)).trans <|
    (V6_of m outs c main_v6 (by decide)).trans <| (V5_of m outs c main_v6 (by decide)).trans (V4_of m outs c main_v6 (by decide))
/-- and the second layer's bias, an argument; -/
theorem bias1_kept (c : Dev nD) : V8 m outs c main_arg7 = m ((c.tc : Thread nD τ).loc main_arg7) :=
  (V8_of m outs c main_arg7 (by decide)).trans <| (V7_of m outs c main_arg7 (by decide)).trans <|
    (V6_of m outs c main_arg7 (by decide)).trans <| (V5_of m outs c main_arg7 (by decide)).trans <|
    (V4_of m outs c main_arg7 (by decide)).trans <| (V3_of m c main_arg7 (by decide)).trans <|
    (V2_of m c main_arg7 (by decide)).trans (V1_of m c main_arg7 (by decide))
/-- the second region's output buffer holds what that region left there. -/
theorem layer1_kept (c : Dev nD) : V8 m outs c main_v52 = outs 8 main_v52 c := by
  show Function.update (V7 m outs c) (Proc.devRef .tc main_v52) (outs 8 main_v52 c) (Proc.devRef .tc main_v52) = _
  exact Function.update_self ..

/-- The second hidden layer survives the rest of the third stretch. -/
theorem hidden2_kept (c : Dev nD) : V16 m outs c main_v69 = V10 m outs c main_v69 :=
  (V16_of m outs c main_v69 (by decide)).trans <| (V15_of m outs c main_v69 (by decide)).trans <|
    (V14_of m outs c main_v69 (by decide)).trans <| (V13_of m outs c main_v69 (by decide)).trans <|
    (V12_of m outs c main_v69 (by decide)).trans (V11_of m outs c main_v69 (by decide))

set_option maxHeartbeats 4000000 in
/-- The second hidden layer: if the edge normalisation, sources and targets are the reference's and the second region
    leaves the reference's product of the first hidden layer with the second weight, the third stretch leaves the
    reference's second hidden layer (normalised gather, scatter-add over the targets, bias, clamp at zero). -/
theorem hidden2_eq (c : Dev nD)
    (h31 : V3 m c main_v31 = val_main_v31 (F := F) (m ((c.tc : Thread nD τ).loc main_arg1)) (m ((c.tc : Thread nD τ).loc main_arg2)))
    (h3 : V3 m c main_v3 = val_main_v3 (F := F) (m ((c.tc : Thread nD τ).loc main_arg1)))
    (h6 : V3 m c main_v6 = val_main_v6 (F := F) (m ((c.tc : Thread nD τ).loc main_arg1)))
    (h52 : outs 8 main_v52 c = val_main_v75 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))) :
    V16 m outs c main_v69 = val_main_v92 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  rw [hidden2_kept]
  show StableHlo.after hostOps2_1 (StableHlo.after hostOps2 (V8 m outs c)) (Proc.devRef .tc main_v69) = _
  simp only [hostOps2_1, hostOps2]
  after_results
  rw [norm_kept, sources_kept, targets_kept, layer1_kept, bias1_kept, h31, h3, h6, h52, ← norm_recomputed]
  rfl

/-! ## The third host stretch: what the pooling region is given

Each host stretch below, run from ANY contents W of the buffers, leaves in the buffer named the printed operations'
term of what W holds in the buffers it reads. -/

section Steps
variable (W : Valuation τ sig (Elt F))

/-- The one-hot encoding of the graph labels against the 100 graph numbers. -/
theorem oneHot_step :
    StableHlo.after hostOps2_2 W (Proc.devRef .tc main_v70)
      = (uitofp (F := F) .bf16 (cmpi .eq (broadcastInDim S50000x100 ![0, 1] bcast_S50000x1_S50000x100_0_1 (broadcastInDim S50000x1 ![0] bcast_S50000_S50000x1_0 (W (Proc.devRef .tc main_arg3) : (⟨S50000, .i32⟩ : BufTy).Contents (Elt F)))) (broadcastInDim S50000x100 ![0, 1] bcast_S1x100_S50000x100_0_1 (iotaInDim S1x100 32 1)))) := by
  simp only [hostOps2_2]
  after_results
  rfl

/-- The per-graph counts: the encoding, widened, summed over the nodes. -/
theorem counts_step :
    StableHlo.after hostOps2_3 W (Proc.devRef .tc main_v72)
      = Host.reduceAdd (F := F) (extf .f32 (W (Proc.devRef .tc main_v70) : (⟨S50000x100, .bf16⟩ : BufTy).Contents (Elt F)) bitsLt_bf16_f32)
          (constant S_ .f32 0x00000000#32) reducesTo_S50000x100_S100_d0 h_S_ := by
  simp only [hostOps2_3]
  after_results

/-- The encoding's padding word: the integer zero. -/
theorem padWord13_step : StableHlo.after hostOps2_3 W (Proc.devRef .tc main_c_13) = constantI S_ 32 0#32 := by
  simp only [hostOps2_3]
  after_results

/-- The encoding with 1200 rows of the padding value appended. -/
theorem oneHotPadded_step :
    StableHlo.after hostOps2_4 W (Proc.devRef .tc main_v73)
      = pad S51200x100 ![0, 0] ![1200, 0] ![0, 0] (W (Proc.devRef .tc main_v70) : (⟨S50000x100, .bf16⟩ : BufTy).Contents (Elt F))
          (sitofp (F := F) .bf16 (W (Proc.devRef .tc main_c_13) : (⟨S_, .i32⟩ : BufTy).Contents (Elt F))) pads_S50000x100_S51200x100_012000_000 h_S_ := by
  simp only [hostOps2_4]
  after_results
  rfl

/-- The hidden layer's padding word: the integer zero. -/
theorem padWord14_step : StableHlo.after hostOps2_5 W (Proc.devRef .tc main_c_14) = constantI S_ 32 0#32 := by
  simp only [hostOps2_5]
  after_results

/-- The second hidden layer with 1200 rows of the padding value appended. -/
theorem paddedHidden_step :
    StableHlo.after hostOps2_6 W (Proc.devRef .tc main_v74)
      = pad S51200x128 ![0, 0] ![1200, 0] ![0, 0] (W (Proc.devRef .tc main_v69) : (⟨S50000x128, .f32⟩ : BufTy).Contents (Elt F))
          (sitofp (F := F) .f32 (W (Proc.devRef .tc main_c_14) : (⟨S_, .i32⟩ : BufTy).Contents (Elt F))) pads_S50000x128_S51200x128_012000_000 h_S_ := by
  simp only [hostOps2_6]
  after_results
  rfl

/-- The padded encoding transposed. -/
theorem transposed_step :
    StableHlo.after hostOps2_7 W (Proc.devRef .tc main_v75)
      = transpose S100x51200 [1, 0] (W (Proc.devRef .tc main_v73) : (⟨S51200x100, .bf16⟩ : BufTy).Contents (Elt F)) transposes_S51200x100_S100x51200_1_0 := by
  simp only [hostOps2_7]
  after_results

end Steps

/-! ### Along the program's own valuations -/

/-- The graph labels, an argument, reach the one-hot encoding as launched. -/
theorem labels_kept (c : Dev nD) : V10 m outs c main_arg3 = m ((c.tc : Thread nD τ).loc main_arg3) :=
  (V10_of m outs c main_arg3 (by decide)).trans <| (V9_of m outs c main_arg3 (by decide)).trans <|
    (V8_of m outs c main_arg3 (by decide)).trans <| (V7_of m outs c main_arg3 (by decide)).trans <|
    (V6_of m outs c main_arg3 (by decide)).trans <| (V5_of m outs c main_arg3 (by decide)).trans <|
    (V4_of m outs c main_arg3 (by decide)).trans <| (V3_of m c main_arg3 (by decide)).trans <|
    (V2_of m c main_arg3 (by decide)).trans (V1_of m c main_arg3 (by decide))

/-- The one-hot encoding of the launched graph labels. -/
theorem oneHot_at (c : Dev nD) :
    V11 m outs c main_v70
      = (uitofp (F := F) .bf16 (cmpi .eq (broadcastInDim S50000x100 ![0, 1] bcast_S50000x1_S50000x100_0_1 (broadcastInDim S50000x1 ![0] bcast_S50000_S50000x1_0 (m ((c.tc : Thread nD τ).loc main_arg3) : (⟨S50000, .i32⟩ : BufTy).Contents (Elt F)))) (broadcastInDim S50000x100 ![0, 1] bcast_S1x100_S50000x100_0_1 (iotaInDim S1x100 32 1)))) := by
  have h := oneHot_step (V10 m outs c)
  rw [labels_kept] at h
  exact h

/-- The per-graph counts: the one-hot encoding of the graph labels, widened, summed over the nodes. -/
theorem counts_eq (c : Dev nD) :
    V16 m outs c main_v72
      = Host.reduceAdd (F := F) (extf .f32 (uitofp (F := F) .bf16 (cmpi .eq (broadcastInDim S50000x100 ![0, 1] bcast_S50000x1_S50000x100_0_1 (broadcastInDim S50000x1 ![0] bcast_S50000_S50000x1_0 (m ((c.tc : Thread nD τ).loc main_arg3) : (⟨S50000, .i32⟩ : BufTy).Contents (Elt F)))) (broadcastInDim S50000x100 ![0, 1] bcast_S1x100_S50000x100_0_1 (iotaInDim S1x100 32 1)))) bitsLt_bf16_f32)
          (constant S_ .f32 0x00000000#32) reducesTo_S50000x100_S100_d0 h_S_ := by
  have h := counts_step (V11 m outs c)
  rw [oneHot_at] at h
  exact (V16_of m outs c main_v72 (by decide)).trans <| (V15_of m outs c main_v72 (by decide)).trans <|
    (V14_of m outs c main_v72 (by decide)).trans <| (V13_of m outs c main_v72 (by decide)).trans h

/-- The encoding with 1200 zero rows appended. -/
theorem oneHotPadded_at (c : Dev nD) :
    V13 m outs c main_v73
      = pad S51200x100 ![0, 0] ![1200, 0] ![0, 0] (uitofp (F := F) .bf16 (cmpi .eq (broadcastInDim S50000x100 ![0, 1] bcast_S50000x1_S50000x100_0_1 (broadcastInDim S50000x1 ![0] bcast_S50000_S50000x1_0 (m ((c.tc : Thread nD τ).loc main_arg3) : (⟨S50000, .i32⟩ : BufTy).Contents (Elt F)))) (broadcastInDim S50000x100 ![0, 1] bcast_S1x100_S50000x100_0_1 (iotaInDim S1x100 32 1))))
          (sitofp (F := F) .bf16 (constantI S_ 32 0#32)) pads_S50000x100_S51200x100_012000_000 h_S_ := by
  have h := oneHotPadded_step (V12 m outs c)
  rw [V12_of m outs c main_v70 (by decide), oneHot_at,
    show V12 m outs c main_c_13 = constantI S_ 32 0#32 from padWord13_step (V11 m outs c)] at h
  exact h

/-- The pooling region's left operand: the one-hot encoding of the graph labels against the 100 graph numbers, with
    1200 zero rows appended, transposed. -/
theorem oneHotT_eq (c : Dev nD) :
    V16 m outs c main_v75
      = transpose S100x51200 [1, 0]
          (pad S51200x100 ![0, 0] ![1200, 0] ![0, 0] (uitofp (F := F) .bf16 (cmpi .eq (broadcastInDim S50000x100 ![0, 1] bcast_S50000x1_S50000x100_0_1 (broadcastInDim S50000x1 ![0] bcast_S50000_S50000x1_0 (m ((c.tc : Thread nD τ).loc main_arg3) : (⟨S50000, .i32⟩ : BufTy).Contents (Elt F)))) (broadcastInDim S50000x100 ![0, 1] bcast_S1x100_S50000x100_0_1 (iotaInDim S1x100 32 1))))
            (sitofp (F := F) .bf16 (constantI S_ 32 0#32)) pads_S50000x100_S51200x100_012000_000 h_S_)
          transposes_S51200x100_S100x51200_1_0 := by
  have h := transposed_step (V15 m outs c)
  rw [V15_of m outs c main_v73 (by decide), V14_of m outs c main_v73 (by decide), oneHotPadded_at] at h
  exact h

/-- The second hidden layer as the zero-padding reads it is the one the stretch ends with. -/
theorem hidden2_early (c : Dev nD) : V14 m outs c main_v69 = V16 m outs c main_v69 :=
  ((V16_of m outs c main_v69 (by decide)).trans (V15_of m outs c main_v69 (by decide))).symm

/-- The pooling region's right operand: the second hidden layer with 1200 zero rows appended. -/
theorem paddedHidden_eq (c : Dev nD) :
    V16 m outs c main_v74
      = pad S51200x128 ![0, 0] ![1200, 0] ![0, 0] (V16 m outs c main_v69) (sitofp (F := F) .f32 (constantI S_ 32 0#32))
          pads_S50000x128_S51200x128_012000_000 h_S_ := by
  have h := paddedHidden_step (V14 m outs c)
  rw [hidden2_early, show V14 m outs c main_c_14 = constantI S_ 32 0#32 from padWord14_step (V13 m outs c)] at h
  exact (V16_of m outs c main_v74 (by decide)).trans h

end AnyArithmetic

/-! ## The same three, at the ideal arithmetic, over the pooling bridge's names -/

section AtIdeal
variable (m : (ℓ : Loc nD τ sig) → Buf (Elt Ideal) ℓ) (outs : Outs (F := Ideal))

/-- The pooling region's right operand is the padded second hidden layer. -/
theorem paddedHidden_ideal (c : Dev nD) : V16 m outs c main_v74 = padded (V16 m outs c main_v69) :=
  paddedHidden_eq m outs c

/-- The pooling region's left operand is the transposed padded one-hot encoding of the launched graph labels. -/
theorem oneHotT_ideal (c : Dev nD) : V16 m outs c main_v75 = oneHotT (m ((c.tc : Thread nD τ).loc main_arg3)) :=
  oneHotT_eq m outs c

/-- The per-graph counts are the column sums of the one-hot encoding of the launched graph labels. -/
theorem counts_ideal (c : Dev nD) :
    V16 m outs c main_v72
      = Host.reduceAdd (F := Ideal) (extf .f32 (oneHot (m ((c.tc : Thread nD τ).loc main_arg3))) bitsLt_bf16_f32)
          (constant S_ .f32 0x00000000#32) reducesTo_S50000x100_S100_d0 h_S_ :=
  counts_eq m outs c

end AtIdeal

end Cert.Bridge

end
-- ==== Proof.ResultValue.lean ====
/-
  The kernel's result is the reference's. The program runs four pallas_calls with host operations between them, and
  each call's output array is a function of the arrays the call is entered with: the two dense layers multiply their
  left operand by their right one, the pooling call multiplies the transposed one-hot assignment by the padded
  features, the head applies the two-layer classifier. The reference computes the same stages with host operations
  only. Going down the program once: the first layer is entered with the launched features and the transposed first
  weight, so it leaves the reference's first product; the host stretch after it then leaves the reference's first
  hidden layer, so the second layer leaves the reference's second product; the next stretch leaves the reference's
  second hidden layer, padded, beside the transposed one-hot assignment and the per-graph counts, so the pooling call
  leaves the reference's per-graph sums (a product with a one-hot matrix is a segment sum); the last stretch divides
  by the clamped counts, and the head, entered with the reference's pooled means and the launched head parameters,
  leaves the reference's result.
-/
import proofs.«405348_j60988535603684_1_alg».proof.Proof.Chain
import proofs.«405348_j60988535603684_1_alg».proof.Proof.DenseValue
import proofs.«405348_j60988535603684_1_alg».proof.Proof.PoolValue
import proofs.«405348_j60988535603684_1_alg».proof.Proof.HeadValue
import proofs.«405348_j60988535603684_1_alg».proof.Proof.HeadBridge
import proofs.«405348_j60988535603684_1_alg».proof.Proof.HostSide
import proofs.«405348_j60988535603684_1_alg».proof.Proof.HostSide2
import proofs.«405348_j60988535603684_1_alg».proof.Proof.PoolBridge

set_option maxRecDepth 16384

noncomputable section

namespace Cert.Bridge

open Cert.KernelIdeal Cert.KernelIdeal.Gen Cert.KernelIdeal.Hand
open Cert.ReferenceIdeal.Read
open Idealize.ShloMosaic Idealize.ShloMosaic.TcCoe
open Idealize.SL.Sem

/-! ## One region at a time, at any entry contents

Each pallas_call's output is a function of the arrays the call is entered with; where those hold the reference's
intermediate values, the output holds the reference's next one. Stated at any contents V and any values x_k. -/

section Steps

variable (V : (c : Dev nD) → (b : Ref sig .tc) → Buf (Elt Ideal) ((c : Thread nD τ).loc b)) (c : Dev nD)

/-- The first layer: features times the transposed first weight. -/
theorem first_value {o : Buf (Elt Ideal) ((c : Thread nD τ).loc main_v33)}
    (x0 : (⟨S50000x128, .f32⟩ : BufTy).Contents (Elt Ideal)) (x4 : (⟨S128x128, .f32⟩ : BufTy).Contents (Elt Ideal))
    (ho : o = (data0 V c).arrAt 2 cfg0.N)
    (hx : V c main_arg0 = x0) (hw : V c main_v32 = val_main_v32 (F := Ideal) x4)
    (hdot : rowsTimes x0 (val_main_v32 (F := Ideal) x4) = val_main_v33 (F := Ideal) x0 x4) :
    o = val_main_v33 (F := Ideal) x0 x4 := by
  refine ho.trans ((dense0_value V c).trans ?_)
  show rowsTimes (V c main_arg0) (V c main_v32) = _
  rw [hx, hw]
  exact hdot

/-- The second layer: the first hidden activations times the transposed second weight. -/
theorem second_value {o : Buf (Elt Ideal) ((c : Thread nD τ).loc main_v52)}
    (x0 : (⟨S50000x128, .f32⟩ : BufTy).Contents (Elt Ideal)) (x1 : (⟨S2x800000, .i32⟩ : BufTy).Contents (Elt Ideal))
    (x2 : (⟨S800000, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (ho : o = (data1 V c).arrAt 2 cfg1.N)
    (hx : V c main_v50 = val_main_v50 (F := Ideal) x0 x1 x2 x4 x5) (hw : V c main_v51 = val_main_v74 (F := Ideal) x6)
    (hdot : val_main_v75 (F := Ideal) x0 x1 x2 x4 x5 x6
      = rowsTimes (val_main_v50 (F := Ideal) x0 x1 x2 x4 x5) (val_main_v74 (F := Ideal) x6)) :
    o = val_main_v75 (F := Ideal) x0 x1 x2 x4 x5 x6 := by
  refine ho.trans ((dense1_value V c).trans ?_)
  show rowsTimes (V c main_v50) (V c main_v51) = _
  rw [hx, hw]
  exact hdot.symm

/-- The pooling call: the transposed one-hot assignment times the padded second hidden activations. -/
theorem pooled_value {o : Buf (Elt Ideal) ((c : Thread nD τ).loc main_v76)}
    (r : (⟨S100x128, .f32⟩ : BufTy).Contents (Elt Ideal))
    (ho : o = (data2 V c).arrAt 2 cfg2.N)
    (hsum : pooledSum (V c main_v75) (V c main_v74) = r) : o = r :=
  ho.trans ((pool_value V c).trans hsum)

/-- The product written with the raw coordinates of the entry. -/
theorem pooledSum_eq (A : S100x51200.Idx → EReal) (B : S51200x128.Idx → EReal) :
    pooledSum A B = fun i : S100x128.Idx => ∑ n : Fin 51200,
      A (Idealize.ShloMosaic.ValueIdx.ix2 (n0 := 100) (n1 := 51200) (i 0) n) * B (Idealize.ShloMosaic.ValueIdx.ix2 (n0 := 51200) (n1 := 128) n (i 1)) := rfl

/-- The head: the two-layer classifier on the pooled means. -/
theorem logits_value {o : Buf (Elt Ideal) ((c : Thread nD τ).loc main_v82)}
    (p : (⟨S100x128, .f32⟩ : BufTy).Contents (Elt Ideal))
    (x8 : (⟨S128x128, .f32⟩ : BufTy).Contents (Elt Ideal)) (x9 : (⟨S128, .f32⟩ : BufTy).Contents (Elt Ideal))
    (x10 : (⟨S2x128, .f32⟩ : BufTy).Contents (Elt Ideal)) (x11 : (⟨S2, .f32⟩ : BufTy).Contents (Elt Ideal))
    (r : (⟨S100x2, .f32⟩ : BufTy).Contents (Elt Ideal))
    (ho : o = (data3 V c).arrAt 5 cfg3.N)
    (hp : V c main_v81 = p) (h8 : V c main_arg8 = x8) (h9 : V c main_arg9 = x9) (h10 : V c main_arg10 = x10)
    (h11 : V c main_arg11 = x11) (hhead : head3 p x8 x9 x10 x11 = r) : o = r := by
  refine ho.trans ((data3_result_named V c).trans ?_)
  rw [hp, h8, h9, h10, h11]
  exact hhead

end Steps

/-! ## The four regions in turn, from the launch memory -/

section Assembly

variable (m : (ℓ : Loc nD τ sig) → Buf (Elt Ideal) ℓ) (outs : Outs (F := Ideal))

/-- An argument array's contents at launch. -/
abbrev arg (c : Dev nD) (r : Ref sig .tc) : Buf (Elt Ideal) ((c.tc : Thread nD τ).loc r) := m ((c.tc : Thread nD τ).loc r)

/-- After the first layer its output holds the reference's first product. -/
theorem first_at (hfit : Fits m outs) (c : Dev nD) :
    outs 4 main_v33 c = val_main_v33 (F := Ideal) (arg m c main_arg0) (arg m c main_arg4) :=
  first_value (in0 m) c _ _ (hfit.first c) (features_eq m c) (weights0_eq m c) (dense0_ref _ _)

/-- After the second layer its output holds the reference's second product. -/
theorem second_at (hfit : Fits m outs) (c : Dev nD) :
    outs 8 main_v52 c = val_main_v75 (F := Ideal) (arg m c main_arg0) (arg m c main_arg1) (arg m c main_arg2)
      (arg m c main_arg4) (arg m c main_arg5) (arg m c main_arg6) :=
  second_value (in1 m outs) c _ _ _ _ _ _ (hfit.second c) (hidden1_eq m outs c (first_at m outs hfit c)) (weights1_eq m outs c)
    (dense1_ref _ _ _ _ _ _)

/-- The pooling call is entered with the transposed one-hot assignment and the padded second hidden layer of the
    reference, whose product is the reference's per-graph sums. -/
theorem sums_at (hfit : Fits m outs) (c : Dev nD) :
    pooledSum (V16 m outs c main_v75) (V16 m outs c main_v74)
      = val_main_v95 (F := Ideal) (arg m c main_arg0) (arg m c main_arg1) (arg m c main_arg2) (arg m c main_arg3)
          (arg m c main_arg4) (arg m c main_arg5) (arg m c main_arg6) (arg m c main_arg7) := by
  rw [oneHotT_ideal m outs c, paddedHidden_ideal m outs c,
    hidden2_eq m outs c (edgeNorm_eq m c) (sources_eq m c) (targets_eq m c) (second_at m outs hfit c), pooledSum_eq]
  exact pooled_eq_stage _ _ _ _ _ _ _ _

/-- After the pooling call its output holds the reference's per-graph sums. -/
theorem pooled_at (hfit : Fits m outs) (c : Dev nD) :
    outs 17 main_v76 c = val_main_v95 (F := Ideal) (arg m c main_arg0) (arg m c main_arg1) (arg m c main_arg2) (arg m c main_arg3)
      (arg m c main_arg4) (arg m c main_arg5) (arg m c main_arg6) (arg m c main_arg7) :=
  pooled_value (in2 m outs) c _ (hfit.pooled c) (sums_at m outs hfit c)

/-- The per-graph counts the host computes beside the pooling call are the reference's. -/
theorem counts_at (c : Dev nD) : V16 m outs c main_v72 = val_main_v99 (F := Ideal) (arg m c main_arg3) :=
  (counts_ideal m outs c).trans (count_eq_stage _)

/-- THE RESULT: the head's output array, the program's result, holds the reference's result at the launch arguments. -/
theorem result_value (hfit : Fits m outs) (c : Dev nD) :
    outs 19 main_v82 c = val_main_v115 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) :=
  logits_value (in3 m outs) c _ _ _ _ _ _ (hfit.logits c)
    (pooledMean_eq m outs c (pooled_at m outs hfit c) (counts_at m outs c))
    (V18_main_arg8 m outs c) (V18_main_arg9 m outs c) (V18_main_arg10 m outs c) (V18_main_arg11 m outs c)
    (head_eq_reference _ _ _ _ _ _ _ _ _ _ _ _)

end Assembly

end Cert.Bridge

end
-- ==== Proof.lean ====
/-
  A two-layer graph convolution, mean pooling over graph ids and a two-layer head: the kernel program runs its two
  dense products, its pooling (a one-hot matrix times the zero-padded node features, accumulated over 25 column
  blocks) and its head as four pallas_calls between host operations it shares with the reference; the reference
  computes the products by dot_general, the pooled sums and counts by scatter-adds over the graph ids, the head by
  two more dot_generals. Over the extended reals the two results are equal entry by entry: a matrix product is the
  same sum whatever its blocking; a one-hot row times the features is the sum of the features over the nodes of that
  graph, because 1·x = x and 0·x = 0 for every extended real x (a padded row adds 0·0); the shared host operations
  are applied to equal arrays. No finiteness of the inputs is used.
  The three frames: each program runs to its end, faults nowhere and leaves its arguments as launched — the kernel
  programs by the launch over @main's nineteen items (host stretches and the four regions' records), the reference
  by its run read back. Nothing was rewritten by the ideal pass, so there is nothing to preserve.
-/
import proofs.«405348_j60988535603684_1_alg».proof.Defs
import proofs.«405348_j60988535603684_1_alg».proof.Proof.Gen.Kernel
import proofs.«405348_j60988535603684_1_alg».proof.Proof.Gen.KernelIdeal
import proofs.«405348_j60988535603684_1_alg».proof.Proof.Gen.ReferenceIdeal
import proofs.«405348_j60988535603684_1_alg».proof.Proof.Gen.Pre_finite_inputs
import proofs.«405348_j60988535603684_1_alg».proof.Proof.Chain
import proofs.«405348_j60988535603684_1_alg».proof.Proof.Word.Chain
import proofs.«405348_j60988535603684_1_alg».proof.Proof.RefSide
import proofs.«405348_j60988535603684_1_alg».proof.Proof.ResultValue
import Idealize.ShloMosaic.Adequacy
import Idealize.ShloMosaic.Init

noncomputable section

namespace Cert.Proof

open Idealize.ShloMosaic Idealize.ShloMosaic.TcCoe Idealize.SL.Sem

/-- The word-level program's frame. -/
theorem frame_word : Cert.frame_Kernel := fun m ρ _ => Cert.Kernel.Hand.frame m ρ
/-- The idealized program's frame. -/
theorem frame_ideal : Cert.frame_KernelIdeal := fun m ρ _ => Cert.KernelIdeal.Hand.frame m ρ
/-- The reference's frame: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the logits at the reference's last stage of the (agreeing) arguments. -/
theorem algebraic : Cert.algebraic_KernelIdeal_ReferenceIdeal := by
  intro m ρ m' ρ' _ hagree
  refine ⟨fun c => Cert.ReferenceIdeal.Read.val_main_v115 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (((Cert.KernelIdeal.Hand.stage4_fits m).logits c).symm.trans
          (Cert.Bridge.result_value m (Cert.KernelIdeal.Hand.stage4 m) (Cert.KernelIdeal.Hand.stage4_fits m) c)), (h c).2⟩)
      (Cert.KernelIdeal.Hand.result_of m (Cert.KernelIdeal.Hand.stage4 m) (Cert.KernelIdeal.Hand.stage4_fits m) ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v115_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_word, frame_ideal, frame_reference, trivial, algebraic⟩

end Cert.Proof

end
